-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S100x64 : Shape := ⟨2, ![100, 64]⟩
abbrev S3x64x64 : Shape := ⟨3, ![3, 64, 64]⟩
abbrev S3x64 : Shape := ⟨2, ![3, 64]⟩
abbrev S64x1 : Shape := ⟨2, ![64, 1]⟩
abbrev S_ : Shape := ⟨0, ![]⟩

class Facts : Prop where
  bcast_S_S100x64 : S_.BroadcastsInDim S100x64 (![] : Fin 0 → Fin S100x64.rank)
  reducesTo_S100x64_S_d0_1 : S100x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_v28 : IVec S_ 1) (main_v33 : IVec S50000 1) : IVec S_ 1 :=
  let main_c_12 : IVec S_ 1 := constantI S_ 1 1#1
  let main_v34 : IVec S_ 1 := (fun x v => Host.reduce IntOp.andi x v reducesTo_S50000_S_d0 h_S_) main_v33 main_c_12
  let main_v35 : IVec S_ 1 := andi main_v28 main_v34
  main_v35

def fn_part1 {F : FTy → Type} [FloatOps F] (main_arg0 : IVec S50000 32) (main_arg8 : FVec F S3x64 .f32) (main_arg9 : FVec F S64x1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg8
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x1 .f32 := Host.absf main_arg9
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg0 main_v29
  let main_c_11 : IVec S_ 32 := constantI S_ 32 100#32
  let main_v31 : IVec S50000 32 := broadcastInDim S50000 ![] bcast_S_S50000 main_c_11
  let main_v32 : IVec S50000 1 := cmpi .slt main_arg0 main_v31
  let main_v33 : IVec S50000 1 := andi main_v30 main_v32
  fn_part2 (F := F) main_v28 main_v33

def fn {F : FTy → Type} [FloatOps F] (main_arg0 : IVec S50000 32) (main_arg1 : IVec S800000 32) (main_arg2 : IVec S800000 32) (main_arg3 : IVec S50000 32) (main_arg4 : FVec F S100x64 .f32) (main_arg5 : FVec F S3x64x64 .f32) (main_arg6 : FVec F S3x64 .f32) (main_arg7 : FVec F S3x64x64 .f32) (main_arg8 : FVec F S3x64 .f32) (main_arg9 : FVec F S64x1 .f32) : IVec S_ 1 :=
  let main_v0 : FVec F S100x64 .f32 := Host.absf main_arg4
  let main_cst : FVec F S_ .f32 := constant S_ .f32 0x7F800000#32
  let main_v1 : FVec F S100x64 .f32 := broadcastInDim S100x64 ![] bcast_S_S100x64 main_cst
  let main_v2 : IVec S100x64 1 := cmpf .olt main_v0 main_v1
  let main_c : IVec S_ 1 := constantI S_ 1 1#1
  let main_v3 : IVec S_ 1 := (fun x v => Host.reduce IntOp.andi x v reducesTo_S100x64_S_d0_1 h_S_) main_v2 main_c
  let main_v4 : FVec F S3x64x64 .f32 := Host.absf main_arg5
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg6
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg7
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg0 main_arg8 main_arg9 main_v13 main_v16
-- ==== Kernel.lean ====
abbrev S50000 : Shape := ⟨1, ![50000]⟩
abbrev S800000 : Shape := ⟨1, ![800000]⟩
abbrev S100x64 : Shape := ⟨2, ![100, 64]⟩
abbrev S3x64x64 : Shape := ⟨3, ![3, 64, 64]⟩
abbrev S3x64 : Shape := ⟨2, ![3, 64]⟩
abbrev S64x1 : Shape := ⟨2, ![64, 1]⟩
abbrev S50000x1 : Shape := ⟨2, ![50000, 1]⟩
abbrev S50000x64 : Shape := ⟨2, ![50000, 64]⟩
abbrev S5000x1 : Shape := ⟨2, ![5000, 1]⟩
abbrev S5000x64 : Shape := ⟨2, ![5000, 64]⟩
abbrev S5000x100 : Shape := ⟨2, ![5000, 100]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x1 : Shape := ⟨2, ![128, 1]⟩
abbrev S128x64 : Shape := ⟨2, ![128, 64]⟩
abbrev S5000x128 : Shape := ⟨2, ![5000, 128]⟩
abbrev S128 : Shape := ⟨1, ![128]⟩

abbrev nBuf : Space → Nat
  | .hbm => 86
  | .vmem => 38
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S100x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x1, .f32⟩
  | .hbm, ⟨10, _⟩ => ⟨S50000x1, .i32⟩
  | .hbm, ⟨11, _⟩ => ⟨S50000x64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S1x64x64, .f32⟩
  | .hbm, ⟨26, _⟩ => ⟨S64x64, .f32⟩
  | .hbm, ⟨27, _⟩ => ⟨S1x64, .f32⟩
  | .hbm, ⟨28, _⟩ => ⟨S64, .f32⟩
  | .hbm, ⟨29, _⟩ => ⟨S1x64x64, .f32⟩
  | .hbm, ⟨30, _⟩ => ⟨S64x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S1x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .f32⟩
  | .hbm, ⟨70, _⟩ => ⟨S50000x64, .f32⟩
  | .hbm, ⟨71, _⟩ => ⟨S800000x1, .i32⟩
  | .hbm, ⟨72, _⟩ => ⟨S50000x64, .f32⟩
  | .hbm, ⟨73, _⟩ => ⟨S1x64x64, .f32⟩
  | .hbm, ⟨74, _⟩ => ⟨S64x64, .f32⟩
  | .hbm, ⟨75, _⟩ => ⟨S1x64, .f32⟩
  | .hbm, ⟨76, _⟩ => ⟨S64, .f32⟩
  | .hbm, ⟨77, _⟩ => ⟨S1x64x64, .f32⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S1x64, .f32⟩
  | .hbm, ⟨83, _⟩ => ⟨S50000x1, .i32⟩
  | .hbm, ⟨84, _⟩ => ⟨S1x64, .f32⟩
  | .hbm, ⟨85, _⟩ => ⟨S128x1, .f32⟩
  | .local _ .vmem, ⟨0, _⟩ => ⟨S5000x1, .i32⟩
  | .local _ .vmem, ⟨1, _⟩ => ⟨S5000x1, .i32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S5000x1, .i32⟩
  | .local _ .vmem, ⟨34, _⟩ => ⟨S5000x1, .i32⟩
  | .local _ .vmem, ⟨35, _⟩ => ⟨S1x64, .f32⟩
  | .local _ .vmem, ⟨36, _⟩ => ⟨S128x1, .f32⟩
  | .local _ .vmem, ⟨37, _⟩ => ⟨S128x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg8_0 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34
abbrev cc3_sem7_0 : DmaSem sig := 35
abbrev cc3_sem8_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_21 : BitVec 32 := 0#32
  let v43 : BitVec 1 := Scalar.cmpi .ne v42 c0_i32_21
  v43

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x100_d1_w32 : S5000x100.Iotas .tc 32 [1]
  broadcasts_S5000x1_S5000x100 : S5000x1.Broadcasts S5000x100
  natLt_1_32 : 1 < 32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S64x1_S1x64_1_0 : S64x1.Transposes [1, 0] S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S5000x128_d1_w32 : S5000x128.Iotas .tc 32 [1]
  broadcasts_S5000x1_S5000x128 : S5000x1.Broadcasts S5000x128
  broadcasts_S1x64_S128x64 : S1x64.Broadcasts S128x64
  reduces_S128x64_S128 : S128x64.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  dot_S5000x100_S100x64_S5000x64_1_0_0_1_n_n_wf : DotDims.WF S5000x100 S100x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S50000x1.size a
  hwx3_6 : ∀ i : grid3.Coords, EltTy.bits .i32 = 32 ∨ (Rect.block (s := S50000x1) S5000x1.size (cc3_transform_6 i) (hinb3_6 i)).WholeWords (EltTy.packing .i32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x1.size a ≤ S128x1.size a
  hwx3_8 : ∀ i : grid3.Coords, EltTy.bits .f32 = 32 ∨ (Rect.block (s := S128x1) S128x1.size (cc3_transform_8 i) (hinb3_8 i)).WholeWords (EltTy.packing .f32)

variable [Facts₀]

def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf

abbrev win0_0 : Pipeline.Window sig grid0 :=
  Pipeline.Window.ofSpec (Memref.whole main_v0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v65) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v66) S128x1.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S50000 : Shape := ⟨1, ![50000]⟩
abbrev S800000 : Shape := ⟨1, ![800000]⟩
abbrev S100x64 : Shape := ⟨2, ![100, 64]⟩
abbrev S3x64x64 : Shape := ⟨3, ![3, 64, 64]⟩
abbrev S3x64 : Shape := ⟨2, ![3, 64]⟩
abbrev S64x1 : Shape := ⟨2, ![64, 1]⟩
abbrev S_ : Shape := ⟨0, ![]⟩
abbrev S50000x1 : Shape := ⟨2, ![50000, 1]⟩
abbrev S50000x64 : Shape := ⟨2, ![50000, 64]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x64 : Shape := ⟨2, ![128, 64]⟩
abbrev S128x1 : Shape := ⟨2, ![128, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S100x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x1, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x64, .f32⟩
  | .hbm, ⟨33, _⟩ => ⟨S1x64x64, .f32⟩
  | .hbm, ⟨34, _⟩ => ⟨S64x64, .f32⟩
  | .hbm, ⟨35, _⟩ => ⟨S50000x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S1x64x64, .f32⟩
  | .hbm, ⟨45, _⟩ => ⟨S64x64, .f32⟩
  | .hbm, ⟨46, _⟩ => ⟨S50000x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .hbm, ⟨66, _⟩ => ⟨S1x64x64, .f32⟩
  | .hbm, ⟨67, _⟩ => ⟨S64x64, .f32⟩
  | .hbm, ⟨68, _⟩ => ⟨S50000x64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S1x64x64, .f32⟩
  | .hbm, ⟨78, _⟩ => ⟨S64x64, .f32⟩
  | .hbm, ⟨79, _⟩ => ⟨S50000x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S50000x64, .f32⟩
  | .hbm, ⟨99, _⟩ => ⟨S1x64x64, .f32⟩
  | .hbm, ⟨100, _⟩ => ⟨S64x64, .f32⟩
  | .hbm, ⟨101, _⟩ => ⟨S50000x64, .f32⟩
  | .hbm, ⟨102, _⟩ => ⟨S1x64, .f32⟩
  | .hbm, ⟨103, _⟩ => ⟨S64, .f32⟩
  | .hbm, ⟨104, _⟩ => ⟨S1x64, .f32⟩
  | .hbm, ⟨105, _⟩ => ⟨S50000x64, .f32⟩
  | .hbm, ⟨106, _⟩ => ⟨S50000x64, .f32⟩
  | .hbm, ⟨107, _⟩ => ⟨S_, .f32⟩
  | .hbm, ⟨108, _⟩ => ⟨S50000x64, .f32⟩
  | .hbm, ⟨109, _⟩ => ⟨S50000x64, .f32⟩
  | .hbm, ⟨110, _⟩ => ⟨S1x64x64, .f32⟩
  | .hbm, ⟨111, _⟩ => ⟨S64x64, .f32⟩
  | .hbm, ⟨112, _⟩ => ⟨S50000x64, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S50000x64, .f32⟩
  | .hbm, ⟨117, _⟩ => ⟨S50000x64, .f32⟩
  | .hbm, ⟨118, _⟩ => ⟨S_, .f32⟩
  | .hbm, ⟨119, _⟩ => ⟨S128x64, .f32⟩
  | .hbm, ⟨120, _⟩ => ⟨S50000x1, .i32⟩
  | .hbm, ⟨121, _⟩ => ⟨S128x64, .f32⟩
  | .hbm, ⟨122, _⟩ => ⟨S128x1, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_6 : Ref sig .tc := ⟨.hbm, 85, rfl⟩
abbrev main_v63 : Ref sig .tc := ⟨.hbm, 86, rfl⟩
abbrev main_v64 : Ref sig .tc := ⟨.hbm, 87, rfl⟩
abbrev main_c_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call2_cst : Ref sig .tc := ⟨.hbm, 107, rfl⟩
abbrev main_call2_v0 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_9 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  gather_S100x64_S50000x1_S50000x64_1_0_n_n_0_1_164_wf : GatherDims.WF S100x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S128x64_S50000x1_S50000x64_1_0_0_1_wf : ScatterDims.WF S128x64 S50000x1 S50000x64 [1] [0] [0] 1
  dot_S128x64_S64x1_S128x1_1_0_0_1_n_n_wf : DotDims.WF S128x64 S64x1 S128x1 [1] [0] [0] [1] [] []

variable [Facts₀]

def gather_S100x64_S50000x1_S50000x64_1_0_n_n_0_1_164 : GatherDims S100x64 S50000x1 S50000x64 where
  offsetDims := [1]
  collapsedSliceDims := [0]
  operandBatchingDims := []
  startIndicesBatchingDims := []
  startIndexMap := [0]
  indexVectorDim := 1
  sliceSizes := ![1, 64]
  wf := gather_S100x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.K.Reg0.lean ====
/- Region 0: the embedding lookup as a product of a one-hot matrix with the table. Per grid point the kernel reads a block of
   5000 node features and the whole 100×64 table and stores one 5000×64 block of rows; nothing is carried between points.
   Stated at the buffer contents `V` the region is entered from. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_out : Rect S5000x64 := Rect.unit (s := S5000x64) ![0, 0] S5000x64.size inb_S5000x64_S5000x64_0_0
abbrev r0_x : Rect S5000x1 := Rect.unit (s := S5000x1) ![0, 0] S5000x1.size inb_S5000x1_S5000x1_0_0
abbrev r0_e : Rect S100x64 := Rect.unit (s := S100x64) ![0, 0] S100x64.size inb_S100x64_S100x64_0_0

/-- The output block after the body: the one store of the product, over the two input blocks. -/
def out0_2 (x0 : Vec F S5000x1 .i32) (x1 : Vec F S100x64 .f32) : Vec F S5000x64 .f32 :=
  View.canon [⟨r0_out, k0_pay1 (View.ld x0 r0_x) (View.ld x1 r0_e)⟩]

theorem cover0_2 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 1000000 in
theorem sound_kernel0 (c : Dev nD) (E : Set ℕ) (i : grid0.Coords) (arg1 : Memref sig .tc .vmem S5000x1 .i32) (harg1 : arg1.IsWhole)
    (arg2 : Memref sig .tc .vmem S100x64 .f32) (harg2 : arg2.IsWhole) (arg3 : Memref sig .tc .vmem S5000x64 .f32) (harg3 : arg3.IsWhole)
    (x0 : Vec F S5000x1 .i32) (x1 : Vec F S100x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__emb_kernel i arg1 harg1 arg2 harg2 arg3 harg3) K := by
  simp only [cc0__emb_kernel_eq_skeleton]; unfold cc0__emb_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1: the first graph-network layer. Per grid point the kernel reads a block of 5000 rows of the node states and of the
   neighbour sums, and the two 64×64 weight matrices with their 1×64 biases, and stores one 5000×64 block
   relu((h + agg)·W1 + b1)·W2 + b2; nothing is carried between points. Stated at the buffer contents `V` the region is
   entered from. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window holds its block at every point: the two row blocks are brought in at each point, and the
    weights and biases, brought in at the first point only, have a constant block index and are left in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_h : Rect S5000x64 := Rect.unit (s := S5000x64) ![0, 0] S5000x64.size inb_S5000x64_S5000x64_0_0
abbrev r1_m : Rect S64x64 := Rect.unit (s := S64x64) ![0, 0] S64x64.size inb_S64x64_S64x64_0_0
abbrev r1_b : Rect S1x64 := Rect.unit (s := S1x64) ![0, 0] S1x64.size inb_S1x64_S1x64_0_0

/-- The output block after the body: the one store of the layer's value, over the six input blocks. -/
def out1_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨r1_h, k1_pay1 (View.ld x0 r1_h) (View.ld x1 r1_h) (View.ld x2 r1_m) (View.ld x3 r1_b) (View.ld x4 r1_m) (View.ld x5 r1_b)⟩]

theorem cover1_6 (p0 : Vec F S5000x64 .f32) (y : S5000x64.Idx) :
    ∃ pc ∈ ([⟨r1_h, p0⟩] : List (View.Piece (Elt F) S5000x64 .f32)), y ∈ pc.1.set :=
  View.cover_of_tiled [⟨r1_h, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_kernel i arg1 harg1 arg2 harg2 arg3 harg3 arg4 harg4 arg5 harg5 arg6 harg6 arg7 harg7) K := by
  simp only [cc1__gin_kernel_eq_skeleton]; unfold cc1__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2: the second graph-network layer. Per grid point the kernel reads a block of 5000 rows of the node states and of the
   neighbour sums, and the two 64×64 weight matrices with their 1×64 biases, and stores one 5000×64 block
   relu((h + agg)·W1 + b1)·W2 + b2; nothing is carried between points. Stated at the buffer contents `V` the region is
   entered from. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Every input window holds its block at every point: the two row blocks are brought in at each point, and the
    weights and biases, brought in at the first point only, have a constant block index and are left in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_h : Rect S5000x64 := Rect.unit (s := S5000x64) ![0, 0] S5000x64.size inb_S5000x64_S5000x64_0_0
abbrev r2_m : Rect S64x64 := Rect.unit (s := S64x64) ![0, 0] S64x64.size inb_S64x64_S64x64_0_0
abbrev r2_b : Rect S1x64 := Rect.unit (s := S1x64) ![0, 0] S1x64.size inb_S1x64_S1x64_0_0

/-- The output block after the body: the one store of the layer's value, over the six input blocks. -/
def out2_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨r2_h, k2_pay1 (View.ld x0 r2_h) (View.ld x1 r2_h) (View.ld x2 r2_m) (View.ld x3 r2_b) (View.ld x4 r2_m) (View.ld x5 r2_b)⟩]

theorem cover2_6 (p0 : Vec F S5000x64 .f32) (y : S5000x64.Idx) :
    ∃ pc ∈ ([⟨r2_h, p0⟩] : List (View.Piece (Elt F) S5000x64 .f32)), y ∈ pc.1.set :=
  View.cover_of_tiled [⟨r2_h, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_kernel i arg1 harg1 arg2 harg2 arg3 harg3 arg4 harg4 arg5 harg5 arg6 harg6 arg7 harg7) K := by
  simp only [cc2__gin_kernel_eq_skeleton]; unfold cc2__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/- The buffer contents at the boundaries of the program's first three kernel regions, as a fold from the launch memory: a host
   stretch applies its operations, a region replaces its windows' arrays by what its write-backs leave. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430897_j2645699854676_3_alg».proof.Proof.K.Reg0
import proofs.«430897_j2645699854676_3_alg».proof.Proof.K.Reg1
import proofs.«430897_j2645699854676_3_alg».proof.Proof.K.Reg2
import proofs.«430897_j2645699854676_3_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)

/-- After the host operations before region 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations before region 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its windows' arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations before region 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its windows' arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host operations before region 3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-! ## What a host stretch leaves untouched -/

theorem W1_of (c : Dev nD) (b : Ref sig .tc) (h : b ∉ hostOps0_W) : W1 m c (Proc.devRef .tc b) = W0 m c (Proc.devRef .tc b) :=
  StableHlo.after_of_writes_sub hostOps0 _ hostOps0_writes h
theorem W3_of (c : Dev nD) (b : Ref sig .tc) (h : b ∉ hostOps1_W) : W3 m c (Proc.devRef .tc b) = W2 m c (Proc.devRef .tc b) :=
  StableHlo.after_of_writes_sub hostOps1 _ hostOps1_writes h
theorem W5_of (c : Dev nD) (b : Ref sig .tc) (h : b ∉ hostOps2_W) : W5 m c (Proc.devRef .tc b) = W4 m c (Proc.devRef .tc b) :=
  StableHlo.after_of_writes_sub hostOps2 _ hostOps2_writes h
theorem W7_of (c : Dev nD) (b : Ref sig .tc) (h : b ∉ hostOps3_W) : W7 m c (Proc.devRef .tc b) = W6 m c (Proc.devRef .tc b) :=
  StableHlo.after_of_writes_sub hostOps3 _ hostOps3_writes h

/-- A buffer that no host stretch writes and that is no window's array of the first three regions reaches region 3's entry as launched. -/
theorem W7_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m c (Proc.devRef .tc b) = m ((c : Thread nD τ).loc b) :=
  calc W7 m c (Proc.devRef .tc b)
    _ = W6 m c (Proc.devRef .tc b) := W7_of m c b h3
    _ = W5 m c (Proc.devRef .tc b) := W6_of_ne m c b n2
    _ = W4 m c (Proc.devRef .tc b) := W5_of m c b h2
    _ = W3 m c (Proc.devRef .tc b) := W4_of_ne m c b n1
    _ = W2 m c (Proc.devRef .tc b) := W3_of m c b h1
    _ = W1 m c (Proc.devRef .tc b) := W2_of_ne m c b n0
    _ = W0 m c (Proc.devRef .tc b) := W1_of m c b h0
    _ = m ((c : Thread nD τ).loc b) := rfl

/-- The embedding table is region 0's second window, read and never written. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := (W2_arr m c 1).trans (((dat0 (V1 m) c).arrAt_in 1 rfl _).trans (A_eq0 (V1 m) c 1))
    _ = W0 m c (Proc.devRef .tc main_arg4) := W1_of m c main_arg4 (by decide)
    _ = m ((c : Thread nD τ).loc main_arg4) := rfl

end Cert.Kernel.Hand

end
-- ==== Proof.K.Reg3.lean ====
/- Region 3: the last layer's two-matrix network fused with the pooling of its rows by graph. Per grid point the kernel reads a
   block of 5000 rows, its aggregate, the graph ids of the rows and the layer's weights, and adds to a 128×64 accumulator the
   product of the one-hot matrix of the ids (transposed) with the layer's output; the accumulator is zeroed at the first point
   and carried between points; at the last point the 128×1 output block is the accumulator times the readout row, summed along
   the row. Stated at the buffer contents `V` the region is entered from. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S128x64 := Rect.unit (s := S128x64) ![0, 0] S128x64.size inb_S128x64_S128x64_0_0
abbrev r3_o : Rect S128x1 := Rect.unit (s := S128x1) ![0, 0] S128x1.size inb_S128x1_S128x1_0_0

theorem hz3 : (![0, 0] : Fin 2 → Nat) = fun _ => 0 := by
  funext a; fin_cases a <;> rfl

/-! ## What the accumulator and the output hold -/

/-- The contribution of point `t`: the pooled output of the layer on the point's blocks. -/
def contrib3 (c : Dev nD) (t : Fin cfg3.N) : Vec F S128x64 .f32 :=
  k3_pay4 (iblk3 V c 0 t) (iblk3 V c 1 t) (iblk3 V c 2 t) (iblk3 V c 3 t) (iblk3 V c 4 t) (iblk3 V c 5 t) (iblk3 V c 6 t)

/-- The same at a position; past the grid, the zero block (never consulted). -/
def contribAt3 (c : Dev nD) (n : ℕ) : Vec F S128x64 .f32 :=
  if h : n < cfg3.N then contrib3 V c ⟨n, h⟩ else k3_pay3

/-- The accumulator after the point at position `n`: zeroed and added to at the first, added to afterwards. -/
def acc3 (c : Dev nD) : ℕ → Vec F S128x64 .f32
  | 0 => k3_pay1 (contribAt3 V c 0) k3_pay3
  | n + 1 => k3_pay1 (contribAt3 V c (n + 1)) (acc3 c n)

theorem acc3_zero (c : Dev nD) (h : 0 < cfg3.N) : acc3 V c 0 = k3_pay1 (contrib3 V c ⟨0, h⟩) k3_pay3 := by
  show k3_pay1 (contribAt3 V c 0) k3_pay3 = _
  unfold contribAt3; rw [dif_pos h]

theorem acc3_succ (c : Dev nD) (n : ℕ) (h : n + 1 < cfg3.N) : acc3 V c (n + 1) = k3_pay1 (contrib3 V c ⟨n + 1, h⟩) (acc3 V c n) := by
  show k3_pay1 (contribAt3 V c (n + 1)) (acc3 V c n) = _
  unfold contribAt3; rw [dif_pos h]

/-- The last point of the grid. -/
def tlast3 : Fin cfg3.N := ⟨9, by decide⟩

/-- What the last point stores in the output block: the accumulator after it against the readout row. -/
def out3_8 (c : Dev nD) : Vec F S128x1 .f32 :=
  k3_pay2 (acc3 V c 9) (iblk3 V c 7 tlast3)

/-! ## The proof data -/

/-- The accumulator's buffer, whole, at some contents: after the first point, what the point before left. -/
def scr3 (c : Dev nD) (n : ℕ) : sProp 𝕄 :=
  iprop(∃ f : Vec F S128x64 .f32, ⌜n ≠ 0 → f = acc3 V c (n - 1)⌝ ∗ owns (c : Thread nD τ) (Memref.whole cc3_scratch0) fullShare f)

/-- The invariant before position `n`: the accumulator, every other scoped buffer unopened, the generator register. -/
def Φ3 (c : Dev nD) (n : ℕ) : sProp 𝕄 :=
  iprop(scr3 V c n ∗ Pipeline.scopedRestBut (Ix := Unit) (Name := ℕ) (U := UR sig nD τ) (Lvl := ℕ) (Val := Elt F) spec3 c [cc3_scratch0] ∗ ∃ r, prngReg c r)

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 V c
  Φ t := Φ3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 V c := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body's two conditions, over the grid -/

/-- The first point's condition, as the body computes it from the grid coordinate. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- The last point's condition. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

/-- One step of the accumulator on input blocks `x0 … x6` from contents `s`. -/
abbrev step3 (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (s : Vec F S128x64 .f32) : Vec F S128x64 .f32 :=
  k3_pay1 (k3_pay4 x0 x1 x2 x3 x4 x5 x6) s

/-- A store through the whole accumulator, last, covers it; so does one through the whole output block. -/
theorem cover3_a (w : Vec F S128x64 .f32) (L : List (View.Piece (Elt F) S128x64 .f32)) (y : S128x64.Idx) :
    ∃ pc ∈ ((⟨r3_a, w⟩ : View.Piece (Elt F) S128x64 .f32) :: L), y ∈ pc.1.set :=
  ⟨_, List.mem_cons_self, View.mem_set_unit_zero hz3 inb_S128x64_S128x64_0_0 y⟩
theorem cover3_o (w : Vec F S128x1 .f32) (L : List (View.Piece (Elt F) S128x1 .f32)) (y : S128x1.Idx) :
    ∃ pc ∈ ((⟨r3_o, w⟩ : View.Piece (Elt F) S128x1 .f32) :: L), y ∈ pc.1.set :=
  ⟨_, List.mem_cons_self, View.mem_set_unit_zero hz3 inb_S128x1_S128x1_0_0 y⟩

/-! ## The body on any whole memrefs, in its three cases -/

set_option maxHeartbeats 2000000 in
/-- At the first point: the accumulator, found at anything, is zeroed and then added to; the output block is not touched. -/
theorem sound_first3 (c : Dev nD) (E : Set ℕ) (i : grid3.Coords) (hc0 : cond3_0 i) (hc1 : ¬cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (x8 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step3 x0 x1 x2 x3 x4 x5 x6 k3_pay3)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  refine (View.read_writes_eq_canon _ _ _ (cover3_a _ _)).trans ?_
  rw [View.canon_cons_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3, View.readCov_unit_zero (S := S128x64) _ hz3]

set_option maxHeartbeats 2000000 in
/-- At a point neither first nor last: the accumulator is added to; the output block is not touched. -/
theorem sound_mid3 (c : Dev nD) (E : Set ℕ) (i : grid3.Coords) (hc0 : ¬cond3_0 i) (hc1 : ¬cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (x8 : Vec F S128x1 .f32) (s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step3 x0 x1 x2 x3 x4 x5 x6 s)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  refine (View.read_writes_eq_canon _ _ _ (cover3_a _ _)).trans ?_
  rw [View.canon_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3]

set_option maxHeartbeats 2000000 in
/-- At the last point: the accumulator is added to, and the output block, found at anything, is stored whole from it. -/
theorem sound_last3 (c : Dev nD) (E : Set ℕ) (i : grid3.Coords) (hc0 : ¬cond3_0 i) (hc1 : cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k3_pay2 (step3 x0 x1 x2 x3 x4 x5 x6 s) x7) ∗ owns (c : Thread nD τ) arg10 fullShare (step3 x0 x1 x2 x3 x4 x5 x6 s)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (View.read_writes_eq_canon _ _ _ (cover3_o _ _)).trans ?_
    rw [View.canon_unit_zero hz3]
    simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3, View.readCov_unit_zero (S := S128x64) _ hz3]
  iexists _; isplitr
  swap; · iexact H9
  ipureintro
  sl_unfold_words
  refine (View.read_writes_eq_canon _ _ _ (cover3_a _ _)).trans ?_
  rw [View.canon_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3]

/-! ## The accumulator along the points -/

theorem acc3_at_zero (c : Dev nD) (t : Fin cfg3.N) (h : t.val = 0) :
    acc3 V c t.val = step3 (iblk3 V c 0 t) (iblk3 V c 1 t) (iblk3 V c 2 t) (iblk3 V c 3 t) (iblk3 V c 4 t) (iblk3 V c 5 t) (iblk3 V c 6 t) k3_pay3 := by
  obtain ⟨n, hn⟩ := t
  cases n with
  | zero => exact acc3_zero V c hn
  | succ n => exact absurd h (Nat.succ_ne_zero n)

theorem acc3_at_pos (c : Dev nD) (t : Fin cfg3.N) (h : t.val ≠ 0) :
    acc3 V c t.val = step3 (iblk3 V c 0 t) (iblk3 V c 1 t) (iblk3 V c 2 t) (iblk3 V c 3 t) (iblk3 V c 4 t) (iblk3 V c 5 t) (iblk3 V c 6 t) (acc3 V c (t.val - 1)) := by
  obtain ⟨n, hn⟩ := t
  cases n with
  | zero => exact absurd rfl h
  | succ n => exact acc3_succ V c n hn

theorem out3_8_eq (c : Dev nD) (t : Fin cfg3.N) (h : t.val = 9) :
    out3_8 V c = k3_pay2 (step3 (iblk3 V c 0 t) (iblk3 V c 1 t) (iblk3 V c 2 t) (iblk3 V c 3 t) (iblk3 V c 4 t) (iblk3 V c 5 t) (iblk3 V c 6 t) (acc3 V c (t.val - 1))) (iblk3 V c 7 t) := by
  obtain rfl : t = tlast3 := Fin.ext h
  exact congrArg (fun a => k3_pay2 a (iblk3 V c 7 tlast3)) (acc3_at_pos V c tlast3 (by decide))

/-! ## Where the output window is idle -/

theorem idleAt3_8 : ∀ t : Fin cfg3.N, t.val ≠ 9 → cfg3.idle 8 (grid3.coords t) = true :=
  (by decide +kernel : ∀ t : Fin grid3.N, t.val ≠ 9 → cfg3.idle 8 (grid3.coords t) = true)
theorem noFlush3_8 : ∀ t : Fin cfg3.N, t.val ≠ 9 → (cfg3.win 8).flush t = false :=
  (by decide +kernel : ∀ t : Fin grid3.N, t.val ≠ 9 → win3_8.flush t = false)
theorem liveAt3_8 : ∀ t : Fin cfg3.N, t.val = 9 → cfg3.idle 8 (grid3.coords t) = false :=
  (by decide +kernel : ∀ t : Fin grid3.N, t.val = 9 → cfg3.idle 8 (grid3.coords t) = false)

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

theorem leaves3_0 (c : Dev nD) (t : Fin cfg3.N) : (dat3 V c).leavesExact 0 t = owns (c : Thread nD τ) (st3_0 t) fullShare (iblk3 V c 0 t) := by
  rw [← after3_0 V c t]
theorem leaves3_1 (c : Dev nD) (t : Fin cfg3.N) : (dat3 V c).leavesExact 1 t = owns (c : Thread nD τ) (st3_1 t) fullShare (iblk3 V c 1 t) := by
  rw [← after3_1 V c t]
theorem leaves3_2 (c : Dev nD) (t : Fin cfg3.N) : (dat3 V c).leavesExact 2 t = owns (c : Thread nD τ) (st3_2 t) fullShare (iblk3 V c 2 t) := by
  rw [← after3_2 V c t]
theorem leaves3_3 (c : Dev nD) (t : Fin cfg3.N) : (dat3 V c).leavesExact 3 t = owns (c : Thread nD τ) (st3_3 t) fullShare (iblk3 V c 3 t) := by
  rw [← after3_3 V c t]
theorem leaves3_4 (c : Dev nD) (t : Fin cfg3.N) : (dat3 V c).leavesExact 4 t = owns (c : Thread nD τ) (st3_4 t) fullShare (iblk3 V c 4 t) := by
  rw [← after3_4 V c t]
theorem leaves3_5 (c : Dev nD) (t : Fin cfg3.N) : (dat3 V c).leavesExact 5 t = owns (c : Thread nD τ) (st3_5 t) fullShare (iblk3 V c 5 t) := by
  rw [← after3_5 V c t]
theorem leaves3_6 (c : Dev nD) (t : Fin cfg3.N) : (dat3 V c).leavesExact 6 t = owns (c : Thread nD τ) (st3_6 t) fullShare (iblk3 V c 6 t) := by
  rw [← after3_6 V c t]
theorem leaves3_7 (c : Dev nD) (t : Fin cfg3.N) : (dat3 V c).leavesExact 7 t = owns (c : Thread nD τ) (st3_7 t) fullShare (iblk3 V c 7 t) := by
  rw [← after3_7 V c t]

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl,
    show (dat3 V c).Φ t.succ = Φ3 V c (t.val + 1) from rfl,
    show (dat3 V c).Φ t.castSucc = Φ3 V c t.val from rfl,
    leaves3_0, leaves3_1, leaves3_2, leaves3_3, leaves3_4, leaves3_5, leaves3_6, leaves3_7]
  have hN : t.val < 10 := lt_of_lt_of_eq t.isLt (show cfg3.N = 10 from N_3)
  unfold Φ3 scr3
  by_cases h9 : t.val = 9
  · have hz : t.val ≠ 0 := by omega
    rw [show (dat3 V c).leavesExact 8 t = owns (c : Thread nD τ) (st3_8 t) fullShare ((dat3 V c).after 8 t) from by
      unfold Dat.leavesExact; rw [liveAt3_8 t h9], after3_8, out3_8_eq V c t h9]
    iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hf hz
    iapply (sound_last3 c Set.univ (grid3.coords t) (fun h => hz ((hcond3_0 t).mp h)) ((hcond3_1 t).mpr h9) _ _ _ _ _ _ _ _ _ _ _ _ _ _ _ _ _ _ _ _
      (iblk3 V c 0 t) (iblk3 V c 1 t) (iblk3 V c 2 t) (iblk3 V c 3 t) (iblk3 V c 4 t) (iblk3 V c 5 t) (iblk3 V c 6 t) (iblk3 V c 7 t) (acc3 V c (t.val - 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · isplitl [HS]
      · iexists _; isplitr
        swap; · iexact HS
        ipureintro; intro _; rw [Nat.add_sub_cancel]; exact (acc3_at_pos V c t hz).symm
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat3 V c) 8 t (idleAt3_8 t h9) (noFlush3_8 t h9)]
    by_cases hz : t.val = 0
    · iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_first3 c Set.univ (grid3.coords t) ((hcond3_0 t).mpr hz) (fun h => h9 ((hcond3_1 t).mp h)) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) (iblk3 V c 7 t) ((dat3 V c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS HR Hg]
      · isplitl [HS]
        · iexists _; isplitr
          swap; · iexact HS
          ipureintro; intro _; rw [Nat.add_sub_cancel]; exact (acc3_at_zero V c t hz).symm
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hf hz
      iapply (sound_mid3 c Set.univ (grid3.coords t) (fun h => hz ((hcond3_0 t).mp h)) (fun h => h9 ((hcond3_1 t).mp h)) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) (iblk3 V c 7 t) ((dat3 V c).before 8 t d8) (acc3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS]
        · iexists _; isplitr
          swap; · iexact HS
          ipureintro; intro _; rw [Nat.add_sub_cancel]; exact (acc3_at_pos V c t hz).symm
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's entry and exit -/

/-- What the launch hands the region is the invariant before the first point: nothing is known of the accumulator. -/
theorem Φ3_of_ΦA (c : Dev nD) : Pipeline.ΦA spec3 c ⊢ (dat3 V c).Φ 0 := by
  rw [show (dat3 V c).Φ 0 = Φ3 V c 0 from rfl]
  unfold Pipeline.ΦA Φ3 scr3; rw [scopedRest3_split]; simp only [owns_whole]
  iintro ⟨⟨⟨%f, HS⟩, HR⟩, Hg⟩
  isplitl [HS]
  · iexists f; isplitr
    · ipureintro; intro h; exact absurd rfl h
    iexact HS
  isplitl [HR]; · iexact HR
  iexact Hg

/-- After the last point the invariant gives it back: what the accumulator holds is forgotten. -/
theorem ΦA_of_Φ3 (c : Dev nD) : (dat3 V c).Φ (Fin.last cfg3.N) ⊢ Pipeline.ΦA spec3 c := by
  rw [show (dat3 V c).Φ (Fin.last cfg3.N) = Φ3 V c (Fin.last cfg3.N).val from rfl]
  unfold Pipeline.ΦA Φ3 scr3; rw [scopedRest3_split]; simp only [owns_whole]
  iintro ⟨⟨%f, -, HS⟩, HR, Hg⟩
  isplitl [HS HR]
  · isplitl [HS]
    · iexists f; iexact HS
    iexact HR
  iexact Hg

end Cert.Kernel.Hand

end
-- ==== Proof.K.Run.lean ====
/- The run of the whole program: four kernel regions among four stretches of host operations. The buffer contents at every
   boundary are a fold from the launch memory — a host stretch applies its operations, a region replaces its windows' arrays
   by what its write-backs leave — and every execution ends with every unscoped buffer at the fold's last value. -/
import proofs.«430897_j2645699854676_3_alg».proof.Proof.Gen.Kernel.Launch
import proofs.«430897_j2645699854676_3_alg».proof.Proof.Gen.Kernel.Skeleton
import proofs.«430897_j2645699854676_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430897_j2645699854676_3_alg».proof.Proof.K.Fold
import proofs.«430897_j2645699854676_3_alg».proof.Proof.K.Reg3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After region 3: its windows' arrays at what the write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data of the four regions, and what rides beside the buffers -/

abbrev adm : (p : Fin 4) → (pcfgs (F := F) p).Adm := fun p => (cfgs p).toPCfg_adm
/-- Each region's proof data at its entry contents: a literal match on the region's number. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the fold's last value, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 as a segment: entered with every unscoped buffer at `W1`, left with them at `W2`. Its windows' arrays
    are split out of the unscoped buffers and put back at what the write-backs leave; the generator register goes into the
    body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows' arrays
    are split out of the unscoped buffers and put back at what the write-backs leave; the generator register goes into the
    body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its windows' arrays
    are split out of the unscoped buffers and put back at what the write-backs leave; the generator register goes into the
    body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its windows' arrays
    are split out of the unscoped buffers and put back at what the write-backs leave; the generator register goes into the
    body's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Φ3_of_ΦA (V7 m) c); unfold Pipeline.ΦA
    iintro ⟨Hp, -, Hr⟩
    isplitl [Hr]; · iexact Hr
    iexact Hp
  hout c := by
    rw [Pipeline.ownSems0_none]; refine (ΦA_of_Φ3 (V7 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)),
    .region (reg3 m) ]
theorem main_run (c : Dev nD) : main (F := F) c = Pipeline.Seg.run (segs m) := (main_chain c).trans (by chain_rfl)

set_option backward.isDefEq.respectTransparency.types false in
/-- Every weakly fair execution from memory `m` with zero counters terminates without a fault, and the final memory holds
    every unscoped buffer at the fold's last value `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## What the fold leaves untouched -/

/-- A buffer that no host stretch writes and that is no window's array of any region holds its launch contents at the end. -/
theorem W8_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b)
    (n3 : ∀ w, Pipeline.arrRef spec3 w ≠ b) : W8 m c (Proc.devRef .tc b) = m ((c : Thread nD τ).loc b) :=
  (W8_of_ne m c b n3).trans (W7_keep m c b h0 h1 h2 h3 n0 n1 n2)

/-- The embedding table ends as launched. -/
theorem W8_main_arg4 (c : Dev nD) : W8 m c (Proc.devRef .tc main_arg4) = m ((c : Thread nD τ).loc main_arg4) :=
  (W8_of_ne m c main_arg4 (by decide)).trans (W7_main_arg4 m c)

/-- The frame: the program runs to the end without a fault and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W8_keep m c main_arg0 (by decide) (by decide) (by decide) (by decide) (by decide) (by decide) (by decide) (by decide)),
    (h c _ (mem_uc main_arg1 (by decide))).trans (W8_keep m c main_arg1 (by decide) (by decide) (by decide) (by decide) (by decide) (by decide) (by decide) (by decide)),
    (h c _ (mem_uc main_arg2 (by decide))).trans (W8_keep m c main_arg2 (by decide) (by decide) (by decide) (by decide) (by decide) (by decide) (by decide) (by decide)),
    (h c _ (mem_uc main_arg3 (by decide))).trans (W8_keep m c main_arg3 (by decide) (by decide) (by decide) (by decide) (by decide) (by decide) (by decide) (by decide)),
    (h c _ (mem_uc main_arg4 (by decide))).trans (W8_main_arg4 m c),
    (h c _ (mem_uc main_arg5 (by decide))).trans (W8_keep m c main_arg5 (by decide) (by decide) (by decide) (by decide) (by decide) (by decide) (by decide) (by decide)),
    (h c _ (mem_uc main_arg6 (by decide))).trans (W8_keep m c main_arg6 (by decide) (by decide) (by decide) (by decide) (by decide) (by decide) (by decide) (by decide)),
    (h c _ (mem_uc main_arg7 (by decide))).trans (W8_keep m c main_arg7 (by decide) (by decide) (by decide) (by decide) (by decide) (by decide) (by decide) (by decide)),
    (h c _ (mem_uc main_arg8 (by decide))).trans (W8_keep m c main_arg8 (by decide) (by decide) (by decide) (by decide) (by decide) (by decide) (by decide) (by decide)),
    (h c _ (mem_uc main_arg9 (by decide))).trans (W8_keep m c main_arg9 (by decide) (by decide) (by decide) (by decide) (by decide) (by decide) (by decide) (by decide))⟩)
    (run_all m ρ)

/-- The run with its result named: the result array ends at the fold's last value, and every argument array as launched. -/
theorem run_val : θ_run defs (onTc (τ := τ) (main (F := F))) ⟨m, fun _ => 0, ρ⟩ (fun r => ∀ c : Dev nD,
      r.2.mem ((c.tc : Thread nD τ).loc main_v66) = W8 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    h c _ (mem_uc main_v66 (by decide)),
    (h c _ (mem_uc main_arg0 (by decide))).trans (W8_keep m c main_arg0 (by decide) (by decide) (by decide) (by decide) (by decide) (by decide) (by decide) (by decide)),
    (h c _ (mem_uc main_arg1 (by decide))).trans (W8_keep m c main_arg1 (by decide) (by decide) (by decide) (by decide) (by decide) (by decide) (by decide) (by decide)),
    (h c _ (mem_uc main_arg2 (by decide))).trans (W8_keep m c main_arg2 (by decide) (by decide) (by decide) (by decide) (by decide) (by decide) (by decide) (by decide)),
    (h c _ (mem_uc main_arg3 (by decide))).trans (W8_keep m c main_arg3 (by decide) (by decide) (by decide) (by decide) (by decide) (by decide) (by decide) (by decide)),
    (h c _ (mem_uc main_arg4 (by decide))).trans (W8_main_arg4 m c),
    (h c _ (mem_uc main_arg5 (by decide))).trans (W8_keep m c main_arg5 (by decide) (by decide) (by decide) (by decide) (by decide) (by decide) (by decide) (by decide)),
    (h c _ (mem_uc main_arg6 (by decide))).trans (W8_keep m c main_arg6 (by decide) (by decide) (by decide) (by decide) (by decide) (by decide) (by decide) (by decide)),
    (h c _ (mem_uc main_arg7 (by decide))).trans (W8_keep m c main_arg7 (by decide) (by decide) (by decide) (by decide) (by decide) (by decide) (by decide) (by decide)),
    (h c _ (mem_uc main_arg8 (by decide))).trans (W8_keep m c main_arg8 (by decide) (by decide) (by decide) (by decide) (by decide) (by decide) (by decide) (by decide)),
    (h c _ (mem_uc main_arg9 (by decide))).trans (W8_keep m c main_arg9 (by decide) (by decide) (by decide) (by decide) (by decide) (by decide) (by decide) (by decide))⟩)
    (run_all m ρ)

end Cert.Kernel.Hand

end
-- ==== Proof.KI.Reg0.lean ====
/- Region 0: the embedding lookup as a product of a one-hot matrix with the table. Per grid point the kernel reads a block of
   5000 node features and the whole 100×64 table and stores one 5000×64 block of rows; nothing is carried between points.
   Stated at the buffer contents `V` the region is entered from. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_out : Rect S5000x64 := Rect.unit (s := S5000x64) ![0, 0] S5000x64.size inb_S5000x64_S5000x64_0_0
abbrev r0_x : Rect S5000x1 := Rect.unit (s := S5000x1) ![0, 0] S5000x1.size inb_S5000x1_S5000x1_0_0
abbrev r0_e : Rect S100x64 := Rect.unit (s := S100x64) ![0, 0] S100x64.size inb_S100x64_S100x64_0_0

/-- The output block after the body: the one store of the product, over the two input blocks. -/
def out0_2 (x0 : Vec F S5000x1 .i32) (x1 : Vec F S100x64 .f32) : Vec F S5000x64 .f32 :=
  View.canon [⟨r0_out, k0_pay1 (View.ld x0 r0_x) (View.ld x1 r0_e)⟩]

theorem cover0_2 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 1000000 in
theorem sound_kernel0 (c : Dev nD) (E : Set ℕ) (i : grid0.Coords) (arg1 : Memref sig .tc .vmem S5000x1 .i32) (harg1 : arg1.IsWhole)
    (arg2 : Memref sig .tc .vmem S100x64 .f32) (harg2 : arg2.IsWhole) (arg3 : Memref sig .tc .vmem S5000x64 .f32) (harg3 : arg3.IsWhole)
    (x0 : Vec F S5000x1 .i32) (x1 : Vec F S100x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__emb_kernel i arg1 harg1 arg2 harg2 arg3 harg3) K := by
  simp only [cc0__emb_kernel_eq_skeleton]; unfold cc0__emb_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1: the first graph-network layer. Per grid point the kernel reads a block of 5000 rows of the node states and of the
   neighbour sums, and the two 64×64 weight matrices with their 1×64 biases, and stores one 5000×64 block
   relu((h + agg)·W1 + b1)·W2 + b2; nothing is carried between points. Stated at the buffer contents `V` the region is
   entered from. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window holds its block at every point: the two row blocks are brought in at each point, and the
    weights and biases, brought in at the first point only, have a constant block index and are left in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_h : Rect S5000x64 := Rect.unit (s := S5000x64) ![0, 0] S5000x64.size inb_S5000x64_S5000x64_0_0
abbrev r1_m : Rect S64x64 := Rect.unit (s := S64x64) ![0, 0] S64x64.size inb_S64x64_S64x64_0_0
abbrev r1_b : Rect S1x64 := Rect.unit (s := S1x64) ![0, 0] S1x64.size inb_S1x64_S1x64_0_0

/-- The output block after the body: the one store of the layer's value, over the six input blocks. -/
def out1_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨r1_h, k1_pay1 (View.ld x0 r1_h) (View.ld x1 r1_h) (View.ld x2 r1_m) (View.ld x3 r1_b) (View.ld x4 r1_m) (View.ld x5 r1_b)⟩]

theorem cover1_6 (p0 : Vec F S5000x64 .f32) (y : S5000x64.Idx) :
    ∃ pc ∈ ([⟨r1_h, p0⟩] : List (View.Piece (Elt F) S5000x64 .f32)), y ∈ pc.1.set :=
  View.cover_of_tiled [⟨r1_h, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_kernel i arg1 harg1 arg2 harg2 arg3 harg3 arg4 harg4 arg5 harg5 arg6 harg6 arg7 harg7) K := by
  simp only [cc1__gin_kernel_eq_skeleton]; unfold cc1__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2: the second graph-network layer. Per grid point the kernel reads a block of 5000 rows of the node states and of the
   neighbour sums, and the two 64×64 weight matrices with their 1×64 biases, and stores one 5000×64 block
   relu((h + agg)·W1 + b1)·W2 + b2; nothing is carried between points. Stated at the buffer contents `V` the region is
   entered from. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Every input window holds its block at every point: the two row blocks are brought in at each point, and the
    weights and biases, brought in at the first point only, have a constant block index and are left in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_h : Rect S5000x64 := Rect.unit (s := S5000x64) ![0, 0] S5000x64.size inb_S5000x64_S5000x64_0_0
abbrev r2_m : Rect S64x64 := Rect.unit (s := S64x64) ![0, 0] S64x64.size inb_S64x64_S64x64_0_0
abbrev r2_b : Rect S1x64 := Rect.unit (s := S1x64) ![0, 0] S1x64.size inb_S1x64_S1x64_0_0

/-- The output block after the body: the one store of the layer's value, over the six input blocks. -/
def out2_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨r2_h, k2_pay1 (View.ld x0 r2_h) (View.ld x1 r2_h) (View.ld x2 r2_m) (View.ld x3 r2_b) (View.ld x4 r2_m) (View.ld x5 r2_b)⟩]

theorem cover2_6 (p0 : Vec F S5000x64 .f32) (y : S5000x64.Idx) :
    ∃ pc ∈ ([⟨r2_h, p0⟩] : List (View.Piece (Elt F) S5000x64 .f32)), y ∈ pc.1.set :=
  View.cover_of_tiled [⟨r2_h, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_kernel i arg1 harg1 arg2 harg2 arg3 harg3 arg4 harg4 arg5 harg5 arg6 harg6 arg7 harg7) K := by
  simp only [cc2__gin_kernel_eq_skeleton]; unfold cc2__gin_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/- The buffer contents at the boundaries of the program's first three kernel regions, as a fold from the launch memory: a host
   stretch applies its operations, a region replaces its windows' arrays by what its write-backs leave. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430897_j2645699854676_3_alg».proof.Proof.KI.Reg0
import proofs.«430897_j2645699854676_3_alg».proof.Proof.KI.Reg1
import proofs.«430897_j2645699854676_3_alg».proof.Proof.KI.Reg2
import proofs.«430897_j2645699854676_3_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)

/-- After the host operations before region 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations before region 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its windows' arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations before region 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its windows' arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host operations before region 3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-! ## What a host stretch leaves untouched -/

theorem W1_of (c : Dev nD) (b : Ref sig .tc) (h : b ∉ hostOps0_W) : W1 m c (Proc.devRef .tc b) = W0 m c (Proc.devRef .tc b) :=
  StableHlo.after_of_writes_sub hostOps0 _ hostOps0_writes h
theorem W3_of (c : Dev nD) (b : Ref sig .tc) (h : b ∉ hostOps1_W) : W3 m c (Proc.devRef .tc b) = W2 m c (Proc.devRef .tc b) :=
  StableHlo.after_of_writes_sub hostOps1 _ hostOps1_writes h
theorem W5_of (c : Dev nD) (b : Ref sig .tc) (h : b ∉ hostOps2_W) : W5 m c (Proc.devRef .tc b) = W4 m c (Proc.devRef .tc b) :=
  StableHlo.after_of_writes_sub hostOps2 _ hostOps2_writes h
theorem W7_of (c : Dev nD) (b : Ref sig .tc) (h : b ∉ hostOps3_W) : W7 m c (Proc.devRef .tc b) = W6 m c (Proc.devRef .tc b) :=
  StableHlo.after_of_writes_sub hostOps3 _ hostOps3_writes h

/-- A buffer that no host stretch writes and that is no window's array of the first three regions reaches region 3's entry as launched. -/
theorem W7_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m c (Proc.devRef .tc b) = m ((c : Thread nD τ).loc b) :=
  calc W7 m c (Proc.devRef .tc b)
    _ = W6 m c (Proc.devRef .tc b) := W7_of m c b h3
    _ = W5 m c (Proc.devRef .tc b) := W6_of_ne m c b n2
    _ = W4 m c (Proc.devRef .tc b) := W5_of m c b h2
    _ = W3 m c (Proc.devRef .tc b) := W4_of_ne m c b n1
    _ = W2 m c (Proc.devRef .tc b) := W3_of m c b h1
    _ = W1 m c (Proc.devRef .tc b) := W2_of_ne m c b n0
    _ = W0 m c (Proc.devRef .tc b) := W1_of m c b h0
    _ = m ((c : Thread nD τ).loc b) := rfl

/-- The embedding table is region 0's second window, read and never written. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := (W2_arr m c 1).trans (((dat0 (V1 m) c).arrAt_in 1 rfl _).trans (A_eq0 (V1 m) c 1))
    _ = W0 m c (Proc.devRef .tc main_arg4) := W1_of m c main_arg4 (by decide)
    _ = m ((c : Thread nD τ).loc main_arg4) := rfl

end Cert.KernelIdeal.Hand

end
-- ==== Proof.KI.Reg3.lean ====
/- Region 3: the last layer's two-matrix network fused with the pooling of its rows by graph. Per grid point the kernel reads a
   block of 5000 rows, its aggregate, the graph ids of the rows and the layer's weights, and adds to a 128×64 accumulator the
   product of the one-hot matrix of the ids (transposed) with the layer's output; the accumulator is zeroed at the first point
   and carried between points; at the last point the 128×1 output block is the accumulator times the readout row, summed along
   the row. Stated at the buffer contents `V` the region is entered from. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S128x64 := Rect.unit (s := S128x64) ![0, 0] S128x64.size inb_S128x64_S128x64_0_0
abbrev r3_o : Rect S128x1 := Rect.unit (s := S128x1) ![0, 0] S128x1.size inb_S128x1_S128x1_0_0

theorem hz3 : (![0, 0] : Fin 2 → Nat) = fun _ => 0 := by
  funext a; fin_cases a <;> rfl

/-! ## What the accumulator and the output hold -/

/-- The contribution of point `t`: the pooled output of the layer on the point's blocks. -/
def contrib3 (c : Dev nD) (t : Fin cfg3.N) : Vec F S128x64 .f32 :=
  k3_pay4 (iblk3 V c 0 t) (iblk3 V c 1 t) (iblk3 V c 2 t) (iblk3 V c 3 t) (iblk3 V c 4 t) (iblk3 V c 5 t) (iblk3 V c 6 t)

/-- The same at a position; past the grid, the zero block (never consulted). -/
def contribAt3 (c : Dev nD) (n : ℕ) : Vec F S128x64 .f32 :=
  if h : n < cfg3.N then contrib3 V c ⟨n, h⟩ else k3_pay3

/-- The accumulator after the point at position `n`: zeroed and added to at the first, added to afterwards. -/
def acc3 (c : Dev nD) : ℕ → Vec F S128x64 .f32
  | 0 => k3_pay1 (contribAt3 V c 0) k3_pay3
  | n + 1 => k3_pay1 (contribAt3 V c (n + 1)) (acc3 c n)

theorem acc3_zero (c : Dev nD) (h : 0 < cfg3.N) : acc3 V c 0 = k3_pay1 (contrib3 V c ⟨0, h⟩) k3_pay3 := by
  show k3_pay1 (contribAt3 V c 0) k3_pay3 = _
  unfold contribAt3; rw [dif_pos h]

theorem acc3_succ (c : Dev nD) (n : ℕ) (h : n + 1 < cfg3.N) : acc3 V c (n + 1) = k3_pay1 (contrib3 V c ⟨n + 1, h⟩) (acc3 V c n) := by
  show k3_pay1 (contribAt3 V c (n + 1)) (acc3 V c n) = _
  unfold contribAt3; rw [dif_pos h]

/-- The last point of the grid. -/
def tlast3 : Fin cfg3.N := ⟨9, by decide⟩

/-- What the last point stores in the output block: the accumulator after it against the readout row. -/
def out3_8 (c : Dev nD) : Vec F S128x1 .f32 :=
  k3_pay2 (acc3 V c 9) (iblk3 V c 7 tlast3)

/-! ## The proof data -/

/-- The accumulator's buffer, whole, at some contents: after the first point, what the point before left. -/
def scr3 (c : Dev nD) (n : ℕ) : sProp 𝕄 :=
  iprop(∃ f : Vec F S128x64 .f32, ⌜n ≠ 0 → f = acc3 V c (n - 1)⌝ ∗ owns (c : Thread nD τ) (Memref.whole cc3_scratch0) fullShare f)

/-- The invariant before position `n`: the accumulator, every other scoped buffer unopened, the generator register. -/
def Φ3 (c : Dev nD) (n : ℕ) : sProp 𝕄 :=
  iprop(scr3 V c n ∗ Pipeline.scopedRestBut (Ix := Unit) (Name := ℕ) (U := UR sig nD τ) (Lvl := ℕ) (Val := Elt F) spec3 c [cc3_scratch0] ∗ ∃ r, prngReg c r)

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 V c
  Φ t := Φ3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 V c := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body's two conditions, over the grid -/

/-- The first point's condition, as the body computes it from the grid coordinate. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- The last point's condition. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

/-- One step of the accumulator on input blocks `x0 … x6` from contents `s`. -/
abbrev step3 (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (s : Vec F S128x64 .f32) : Vec F S128x64 .f32 :=
  k3_pay1 (k3_pay4 x0 x1 x2 x3 x4 x5 x6) s

/-- A store through the whole accumulator, last, covers it; so does one through the whole output block. -/
theorem cover3_a (w : Vec F S128x64 .f32) (L : List (View.Piece (Elt F) S128x64 .f32)) (y : S128x64.Idx) :
    ∃ pc ∈ ((⟨r3_a, w⟩ : View.Piece (Elt F) S128x64 .f32) :: L), y ∈ pc.1.set :=
  ⟨_, List.mem_cons_self, View.mem_set_unit_zero hz3 inb_S128x64_S128x64_0_0 y⟩
theorem cover3_o (w : Vec F S128x1 .f32) (L : List (View.Piece (Elt F) S128x1 .f32)) (y : S128x1.Idx) :
    ∃ pc ∈ ((⟨r3_o, w⟩ : View.Piece (Elt F) S128x1 .f32) :: L), y ∈ pc.1.set :=
  ⟨_, List.mem_cons_self, View.mem_set_unit_zero hz3 inb_S128x1_S128x1_0_0 y⟩

/-! ## The body on any whole memrefs, in its three cases -/

set_option maxHeartbeats 2000000 in
/-- At the first point: the accumulator, found at anything, is zeroed and then added to; the output block is not touched. -/
theorem sound_first3 (c : Dev nD) (E : Set ℕ) (i : grid3.Coords) (hc0 : cond3_0 i) (hc1 : ¬cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (x8 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step3 x0 x1 x2 x3 x4 x5 x6 k3_pay3)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  refine (View.read_writes_eq_canon _ _ _ (cover3_a _ _)).trans ?_
  rw [View.canon_cons_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3, View.readCov_unit_zero (S := S128x64) _ hz3]

set_option maxHeartbeats 2000000 in
/-- At a point neither first nor last: the accumulator is added to; the output block is not touched. -/
theorem sound_mid3 (c : Dev nD) (E : Set ℕ) (i : grid3.Coords) (hc0 : ¬cond3_0 i) (hc1 : ¬cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (x8 : Vec F S128x1 .f32) (s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step3 x0 x1 x2 x3 x4 x5 x6 s)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  refine (View.read_writes_eq_canon _ _ _ (cover3_a _ _)).trans ?_
  rw [View.canon_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3]

set_option maxHeartbeats 2000000 in
/-- At the last point: the accumulator is added to, and the output block, found at anything, is stored whole from it. -/
theorem sound_last3 (c : Dev nD) (E : Set ℕ) (i : grid3.Coords) (hc0 : ¬cond3_0 i) (hc1 : cond3_1 i)
    (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x1 .i32) (harg7 : arg7.IsWhole) (arg8 : Memref sig .tc .vmem S1x64 .f32) (harg8 : arg8.IsWhole) (arg9 : Memref sig .tc .vmem S128x1 .f32) (harg9 : arg9.IsWhole) (arg10 : Memref sig .tc .vmem S128x64 .f32) (harg10 : arg10.IsWhole)
    (x0 : Vec F S5000x64 .f32) (x1 : Vec F S5000x64 .f32) (x2 : Vec F S64x64 .f32) (x3 : Vec F S1x64 .f32) (x4 : Vec F S64x64 .f32) (x5 : Vec F S1x64 .f32) (x6 : Vec F S5000x1 .i32) (x7 : Vec F S1x64 .f32) (s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k3_pay2 (step3 x0 x1 x2 x3 x4 x5 x6 s) x7) ∗ owns (c : Thread nD τ) arg10 fullShare (step3 x0 x1 x2 x3 x4 x5 x6 s)) -∗ K ⟨⟩))
      ⊢ wp frame (wpE (defs₀ (F := F)) Variants.none c none) E (cc3__gin_pool_kernel i arg1 harg1 arg2 harg2 arg3 harg3 arg4 harg4 arg5 harg5 arg6 harg6 arg7 harg7 arg8 harg8 arg9 harg9 arg10 harg10) K := by
  simp only [cc3__gin_pool_kernel_eq_skeleton]; unfold cc3__gin_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    refine (View.read_writes_eq_canon _ _ _ (cover3_o _ _)).trans ?_
    rw [View.canon_unit_zero hz3]
    simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3, View.readCov_unit_zero (S := S128x64) _ hz3]
  iexists _; isplitr
  swap; · iexact H9
  ipureintro
  sl_unfold_words
  refine (View.read_writes_eq_canon _ _ _ (cover3_a _ _)).trans ?_
  rw [View.canon_unit_zero hz3]
  simp only [View.readAt_eq_ld, View.ld_unit_zero (S := S5000x64) hz3, View.ld_unit_zero (S := S64x64) hz3, View.ld_unit_zero (S := S1x64) hz3, View.ld_unit_zero (S := S5000x1) hz3, View.ld_unit_zero (S := S128x64) hz3]

/-! ## The accumulator along the points -/

theorem acc3_at_zero (c : Dev nD) (t : Fin cfg3.N) (h : t.val = 0) :
    acc3 V c t.val = step3 (iblk3 V c 0 t) (iblk3 V c 1 t) (iblk3 V c 2 t) (iblk3 V c 3 t) (iblk3 V c 4 t) (iblk3 V c 5 t) (iblk3 V c 6 t) k3_pay3 := by
  obtain ⟨n, hn⟩ := t
  cases n with
  | zero => exact acc3_zero V c hn
  | succ n => exact absurd h (Nat.succ_ne_zero n)

theorem acc3_at_pos (c : Dev nD) (t : Fin cfg3.N) (h : t.val ≠ 0) :
    acc3 V c t.val = step3 (iblk3 V c 0 t) (iblk3 V c 1 t) (iblk3 V c 2 t) (iblk3 V c 3 t) (iblk3 V c 4 t) (iblk3 V c 5 t) (iblk3 V c 6 t) (acc3 V c (t.val - 1)) := by
  obtain ⟨n, hn⟩ := t
  cases n with
  | zero => exact absurd rfl h
  | succ n => exact acc3_succ V c n hn

theorem out3_8_eq (c : Dev nD) (t : Fin cfg3.N) (h : t.val = 9) :
    out3_8 V c = k3_pay2 (step3 (iblk3 V c 0 t) (iblk3 V c 1 t) (iblk3 V c 2 t) (iblk3 V c 3 t) (iblk3 V c 4 t) (iblk3 V c 5 t) (iblk3 V c 6 t) (acc3 V c (t.val - 1))) (iblk3 V c 7 t) := by
  obtain rfl : t = tlast3 := Fin.ext h
  exact congrArg (fun a => k3_pay2 a (iblk3 V c 7 tlast3)) (acc3_at_pos V c tlast3 (by decide))

/-! ## Where the output window is idle -/

theorem idleAt3_8 : ∀ t : Fin cfg3.N, t.val ≠ 9 → cfg3.idle 8 (grid3.coords t) = true :=
  (by decide +kernel : ∀ t : Fin grid3.N, t.val ≠ 9 → cfg3.idle 8 (grid3.coords t) = true)
theorem noFlush3_8 : ∀ t : Fin cfg3.N, t.val ≠ 9 → (cfg3.win 8).flush t = false :=
  (by decide +kernel : ∀ t : Fin grid3.N, t.val ≠ 9 → win3_8.flush t = false)
theorem liveAt3_8 : ∀ t : Fin cfg3.N, t.val = 9 → cfg3.idle 8 (grid3.coords t) = false :=
  (by decide +kernel : ∀ t : Fin grid3.N, t.val = 9 → cfg3.idle 8 (grid3.coords t) = false)

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

theorem leaves3_0 (c : Dev nD) (t : Fin cfg3.N) : (dat3 V c).leavesExact 0 t = owns (c : Thread nD τ) (st3_0 t) fullShare (iblk3 V c 0 t) := by
  rw [← after3_0 V c t]
theorem leaves3_1 (c : Dev nD) (t : Fin cfg3.N) : (dat3 V c).leavesExact 1 t = owns (c : Thread nD τ) (st3_1 t) fullShare (iblk3 V c 1 t) := by
  rw [← after3_1 V c t]
theorem leaves3_2 (c : Dev nD) (t : Fin cfg3.N) : (dat3 V c).leavesExact 2 t = owns (c : Thread nD τ) (st3_2 t) fullShare (iblk3 V c 2 t) := by
  rw [← after3_2 V c t]
theorem leaves3_3 (c : Dev nD) (t : Fin cfg3.N) : (dat3 V c).leavesExact 3 t = owns (c : Thread nD τ) (st3_3 t) fullShare (iblk3 V c 3 t) := by
  rw [← after3_3 V c t]
theorem leaves3_4 (c : Dev nD) (t : Fin cfg3.N) : (dat3 V c).leavesExact 4 t = owns (c : Thread nD τ) (st3_4 t) fullShare (iblk3 V c 4 t) := by
  rw [← after3_4 V c t]
theorem leaves3_5 (c : Dev nD) (t : Fin cfg3.N) : (dat3 V c).leavesExact 5 t = owns (c : Thread nD τ) (st3_5 t) fullShare (iblk3 V c 5 t) := by
  rw [← after3_5 V c t]
theorem leaves3_6 (c : Dev nD) (t : Fin cfg3.N) : (dat3 V c).leavesExact 6 t = owns (c : Thread nD τ) (st3_6 t) fullShare (iblk3 V c 6 t) := by
  rw [← after3_6 V c t]
theorem leaves3_7 (c : Dev nD) (t : Fin cfg3.N) : (dat3 V c).leavesExact 7 t = owns (c : Thread nD τ) (st3_7 t) fullShare (iblk3 V c 7 t) := by
  rw [← after3_7 V c t]

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl,
    show (dat3 V c).Φ t.succ = Φ3 V c (t.val + 1) from rfl,
    show (dat3 V c).Φ t.castSucc = Φ3 V c t.val from rfl,
    leaves3_0, leaves3_1, leaves3_2, leaves3_3, leaves3_4, leaves3_5, leaves3_6, leaves3_7]
  have hN : t.val < 10 := lt_of_lt_of_eq t.isLt (show cfg3.N = 10 from N_3)
  unfold Φ3 scr3
  by_cases h9 : t.val = 9
  · have hz : t.val ≠ 0 := by omega
    rw [show (dat3 V c).leavesExact 8 t = owns (c : Thread nD τ) (st3_8 t) fullShare ((dat3 V c).after 8 t) from by
      unfold Dat.leavesExact; rw [liveAt3_8 t h9], after3_8, out3_8_eq V c t h9]
    iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hf hz
    iapply (sound_last3 c Set.univ (grid3.coords t) (fun h => hz ((hcond3_0 t).mp h)) ((hcond3_1 t).mpr h9) _ _ _ _ _ _ _ _ _ _ _ _ _ _ _ _ _ _ _ _
      (iblk3 V c 0 t) (iblk3 V c 1 t) (iblk3 V c 2 t) (iblk3 V c 3 t) (iblk3 V c 4 t) (iblk3 V c 5 t) (iblk3 V c 6 t) (iblk3 V c 7 t) (acc3 V c (t.val - 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS HR Hg]
    · isplitl [HS]
      · iexists _; isplitr
        swap; · iexact HS
        ipureintro; intro _; rw [Nat.add_sub_cancel]; exact (acc3_at_pos V c t hz).symm
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat3 V c) 8 t (idleAt3_8 t h9) (noFlush3_8 t h9)]
    by_cases hz : t.val = 0
    · iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_first3 c Set.univ (grid3.coords t) ((hcond3_0 t).mpr hz) (fun h => h9 ((hcond3_1 t).mp h)) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) (iblk3 V c 7 t) ((dat3 V c).before 8 t d8) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [HS HR Hg]
      · isplitl [HS]
        · iexists _; isplitr
          swap; · iexact HS
          ipureintro; intro _; rw [Nat.add_sub_cancel]; exact (acc3_at_zero V c t hz).symm
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · iintro ⟨⟨⟨%f, %hf, HS⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl := hf hz
      iapply (sound_mid3 c Set.univ (grid3.coords t) (fun h => hz ((hcond3_0 t).mp h)) (fun h => h9 ((hcond3_1 t).mp h)) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) (iblk3 V c 7 t) ((dat3 V c).before 8 t d8) (acc3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS]
        · iexists _; isplitr
          swap; · iexact HS
          ipureintro; intro _; rw [Nat.add_sub_cancel]; exact (acc3_at_pos V c t hz).symm
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's entry and exit -/

/-- What the launch hands the region is the invariant before the first point: nothing is known of the accumulator. -/
theorem Φ3_of_ΦA (c : Dev nD) : Pipeline.ΦA spec3 c ⊢ (dat3 V c).Φ 0 := by
  rw [show (dat3 V c).Φ 0 = Φ3 V c 0 from rfl]
  unfold Pipeline.ΦA Φ3 scr3; rw [scopedRest3_split]; simp only [owns_whole]
  iintro ⟨⟨⟨%f, HS⟩, HR⟩, Hg⟩
  isplitl [HS]
  · iexists f; isplitr
    · ipureintro; intro h; exact absurd rfl h
    iexact HS
  isplitl [HR]; · iexact HR
  iexact Hg

/-- After the last point the invariant gives it back: what the accumulator holds is forgotten. -/
theorem ΦA_of_Φ3 (c : Dev nD) : (dat3 V c).Φ (Fin.last cfg3.N) ⊢ Pipeline.ΦA spec3 c := by
  rw [show (dat3 V c).Φ (Fin.last cfg3.N) = Φ3 V c (Fin.last cfg3.N).val from rfl]
  unfold Pipeline.ΦA Φ3 scr3; rw [scopedRest3_split]; simp only [owns_whole]
  iintro ⟨⟨%f, -, HS⟩, HR, Hg⟩
  isplitl [HS HR]
  · isplitl [HS]
    · iexists f; iexact HS
    iexact HR
  iexact Hg

end Cert.KernelIdeal.Hand

end
-- ==== Proof.KI.Run.lean ====
/- The run of the whole program: four kernel regions among four stretches of host operations. The buffer contents at every
   boundary are a fold from the launch memory — a host stretch applies its operations, a region replaces its windows' arrays
   by what its write-backs leave — and every execution ends with every unscoped buffer at the fold's last value. -/
import proofs.«430897_j2645699854676_3_alg».proof.Proof.Gen.KernelIdeal.Launch
import proofs.«430897_j2645699854676_3_alg».proof.Proof.Gen.KernelIdeal.Skeleton
import proofs.«430897_j2645699854676_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430897_j2645699854676_3_alg».proof.Proof.KI.Fold
import proofs.«430897_j2645699854676_3_alg».proof.Proof.KI.Reg3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After region 3: its windows' arrays at what the write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data of the four regions, and what rides beside the buffers -/

abbrev adm : (p : Fin 4) → (pcfgs (F := F) p).Adm := fun p => (cfgs p).toPCfg_adm
/-- Each region's proof data at its entry contents: a literal match on the region's number. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the fold's last value, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 as a segment: entered with every unscoped buffer at `W1`, left with them at `W2`. Its windows' arrays
    are split out of the unscoped buffers and put back at what the write-backs leave; the generator register goes into the
    body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows' arrays
    are split out of the unscoped buffers and put back at what the write-backs leave; the generator register goes into the
    body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`. Its windows' arrays
    are split out of the unscoped buffers and put back at what the write-backs leave; the generator register goes into the
    body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W7`, left with them at `W8`. Its windows' arrays
    are split out of the unscoped buffers and put back at what the write-backs leave; the generator register goes into the
    body's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Φ3_of_ΦA (V7 m) c); unfold Pipeline.ΦA
    iintro ⟨Hp, -, Hr⟩
    isplitl [Hr]; · iexact Hr
    iexact Hp
  hout c := by
    rw [Pipeline.ownSems0_none]; refine (ΦA_of_Φ3 (V7 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)),
    .region (reg3 m) ]
theorem main_run (c : Dev nD) : main (F := F) c = Pipeline.Seg.run (segs m) := (main_chain c).trans (by chain_rfl)

set_option backward.isDefEq.respectTransparency.types false in
/-- Every weakly fair execution from memory `m` with zero counters terminates without a fault, and the final memory holds
    every unscoped buffer at the fold's last value `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## What the fold leaves untouched -/

/-- A buffer that no host stretch writes and that is no window's array of any region holds its launch contents at the end. -/
theorem W8_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b)
    (n3 : ∀ w, Pipeline.arrRef spec3 w ≠ b) : W8 m c (Proc.devRef .tc b) = m ((c : Thread nD τ).loc b) :=
  (W8_of_ne m c b n3).trans (W7_keep m c b h0 h1 h2 h3 n0 n1 n2)

/-- The embedding table ends as launched. -/
theorem W8_main_arg4 (c : Dev nD) : W8 m c (Proc.devRef .tc main_arg4) = m ((c : Thread nD τ).loc main_arg4) :=
  (W8_of_ne m c main_arg4 (by decide)).trans (W7_main_arg4 m c)

/-- The frame: the program runs to the end without a fault and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W8_keep m c main_arg0 (by decide) (by decide) (by decide) (by decide) (by decide) (by decide) (by decide) (by decide)),
    (h c _ (mem_uc main_arg1 (by decide))).trans (W8_keep m c main_arg1 (by decide) (by decide) (by decide) (by decide) (by decide) (by decide) (by decide) (by decide)),
    (h c _ (mem_uc main_arg2 (by decide))).trans (W8_keep m c main_arg2 (by decide) (by decide) (by decide) (by decide) (by decide) (by decide) (by decide) (by decide)),
    (h c _ (mem_uc main_arg3 (by decide))).trans (W8_keep m c main_arg3 (by decide) (by decide) (by decide) (by decide) (by decide) (by decide) (by decide) (by decide)),
    (h c _ (mem_uc main_arg4 (by decide))).trans (W8_main_arg4 m c),
    (h c _ (mem_uc main_arg5 (by decide))).trans (W8_keep m c main_arg5 (by decide) (by decide) (by decide) (by decide) (by decide) (by decide) (by decide) (by decide)),
    (h c _ (mem_uc main_arg6 (by decide))).trans (W8_keep m c main_arg6 (by decide) (by decide) (by decide) (by decide) (by decide) (by decide) (by decide) (by decide)),
    (h c _ (mem_uc main_arg7 (by decide))).trans (W8_keep m c main_arg7 (by decide) (by decide) (by decide) (by decide) (by decide) (by decide) (by decide) (by decide)),
    (h c _ (mem_uc main_arg8 (by decide))).trans (W8_keep m c main_arg8 (by decide) (by decide) (by decide) (by decide) (by decide) (by decide) (by decide) (by decide)),
    (h c _ (mem_uc main_arg9 (by decide))).trans (W8_keep m c main_arg9 (by decide) (by decide) (by decide) (by decide) (by decide) (by decide) (by decide) (by decide))⟩)
    (run_all m ρ)

/-- The run with its result named: the result array ends at the fold's last value, and every argument array as launched. -/
theorem run_val : θ_run defs (onTc (τ := τ) (main (F := F))) ⟨m, fun _ => 0, ρ⟩ (fun r => ∀ c : Dev nD,
      r.2.mem ((c.tc : Thread nD τ).loc main_v66) = W8 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    h c _ (mem_uc main_v66 (by decide)),
    (h c _ (mem_uc main_arg0 (by decide))).trans (W8_keep m c main_arg0 (by decide) (by decide) (by decide) (by decide) (by decide) (by decide) (by decide) (by decide)),
    (h c _ (mem_uc main_arg1 (by decide))).trans (W8_keep m c main_arg1 (by decide) (by decide) (by decide) (by decide) (by decide) (by decide) (by decide) (by decide)),
    (h c _ (mem_uc main_arg2 (by decide))).trans (W8_keep m c main_arg2 (by decide) (by decide) (by decide) (by decide) (by decide) (by decide) (by decide) (by decide)),
    (h c _ (mem_uc main_arg3 (by decide))).trans (W8_keep m c main_arg3 (by decide) (by decide) (by decide) (by decide) (by decide) (by decide) (by decide) (by decide)),
    (h c _ (mem_uc main_arg4 (by decide))).trans (W8_main_arg4 m c),
    (h c _ (mem_uc main_arg5 (by decide))).trans (W8_keep m c main_arg5 (by decide) (by decide) (by decide) (by decide) (by decide) (by decide) (by decide) (by decide)),
    (h c _ (mem_uc main_arg6 (by decide))).trans (W8_keep m c main_arg6 (by decide) (by decide) (by decide) (by decide) (by decide) (by decide) (by decide) (by decide)),
    (h c _ (mem_uc main_arg7 (by decide))).trans (W8_keep m c main_arg7 (by decide) (by decide) (by decide) (by decide) (by decide) (by decide) (by decide) (by decide)),
    (h c _ (mem_uc main_arg8 (by decide))).trans (W8_keep m c main_arg8 (by decide) (by decide) (by decide) (by decide) (by decide) (by decide) (by decide) (by decide)),
    (h c _ (mem_uc main_arg9 (by decide))).trans (W8_keep m c main_arg9 (by decide) (by decide) (by decide) (by decide) (by decide) (by decide) (by decide) (by decide))⟩)
    (run_all m ρ)

end Cert.KernelIdeal.Hand

end
-- ==== Proof.KI.Rows3.lean ====
/- Region 3, from blocks to the array. The grid's point t reads rows 5000 t … 5000 t + 4999 of the two row-blocked arrays and of the
   graph ids, and the whole of the weight, bias and readout arrays; the output's one block is the whole 128×1 array and is
   written back at the last point only, so the output array ends at what the last point leaves, and the input arrays are
   left as found. -/
import proofs.«430897_j2645699854676_3_alg».proof.Proof.KI.Reg3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 3: input blocks of 5000 rows, block t at rows 5000 t … 5000 t + 4999; one output block, the whole array -/

/-- The printed index maps over the grid: the row-blocked windows are at block (t, 0), the whole-array ones at block (0, 0). -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

theorem point3_lt (t : Fin cfg3.N) : t.val < 10 := lt_of_lt_of_eq t.isLt N_3

/-- Row q of block t is a row of the array. -/
theorem row3_lt (t : Fin cfg3.N) (n : Nat) (hn : n < 5000) : 5000 * t.val + n < 50000 := by
  have := point3_lt t; omega

/-- Window 0's block at point t is rows 5000 t … of its array. -/
theorem iblk3_0_apply (c : Dev nD) (t : Fin cfg3.N) (y : S5000x64.Idx) :
    (iblk3 V c 0 t : Vec F S5000x64 .f32) y
      = (V c main_v43 : S50000x64.Idx → Elt F .f32) (ix2 ⟨5000 * t.val + (y 0).val, row3_lt t _ (idx2_lt0 y)⟩ (y 1)) := by
  obtain ⟨e00, e01, e10, e11, e60, e61, e20, e21, e30, e31, e40, e41, e50, e51, e70, e71, e80, e81⟩ := index3 t
  unfold iblk3
  rw [View.read_apply]
  show V c main_v43 _ = V c main_v43 _
  congr 1
  funext a
  apply Fin.ext
  match a with
  | ⟨0, _⟩ => show win3_0.index t (0 : Fin 2) * 5000 + 1 * (y 0).val = 5000 * t.val + (y 0).val; rw [e00]; omega
  | ⟨1, _⟩ => show win3_0.index t (1 : Fin 2) * 64 + 1 * (y 1).val = (y 1).val; rw [e01]; omega

/-- Window 1's block at point t is rows 5000 t … of its array. -/
theorem iblk3_1_apply (c : Dev nD) (t : Fin cfg3.N) (y : S5000x64.Idx) :
    (iblk3 V c 1 t : Vec F S5000x64 .f32) y
      = (V c main_v53 : S50000x64.Idx → Elt F .f32) (ix2 ⟨5000 * t.val + (y 0).val, row3_lt t _ (idx2_lt0 y)⟩ (y 1)) := by
  obtain ⟨e00, e01, e10, e11, e60, e61, e20, e21, e30, e31, e40, e41, e50, e51, e70, e71, e80, e81⟩ := index3 t
  unfold iblk3
  rw [View.read_apply]
  show V c main_v53 _ = V c main_v53 _
  congr 1
  funext a
  apply Fin.ext
  match a with
  | ⟨0, _⟩ => show win3_1.index t (0 : Fin 2) * 5000 + 1 * (y 0).val = 5000 * t.val + (y 0).val; rw [e10]; omega
  | ⟨1, _⟩ => show win3_1.index t (1 : Fin 2) * 64 + 1 * (y 1).val = (y 1).val; rw [e11]; omega

/-- Window 6's block at point t is rows 5000 t … of its array. -/
theorem iblk3_6_apply (c : Dev nD) (t : Fin cfg3.N) (y : S5000x1.Idx) :
    (iblk3 V c 6 t : Vec F S5000x1 .i32) y
      = (V c main_v64 : S50000x1.Idx → Elt F .i32) (ix2 ⟨5000 * t.val + (y 0).val, row3_lt t _ (idx2_lt0 y)⟩ (y 1)) := by
  obtain ⟨e00, e01, e10, e11, e60, e61, e20, e21, e30, e31, e40, e41, e50, e51, e70, e71, e80, e81⟩ := index3 t
  unfold iblk3
  rw [View.read_apply]
  show V c main_v64 _ = V c main_v64 _
  congr 1
  funext a
  apply Fin.ext
  match a with
  | ⟨0, _⟩ => show win3_6.index t (0 : Fin 2) * 5000 + 1 * (y 0).val = 5000 * t.val + (y 0).val; rw [e60]; omega
  | ⟨1, _⟩ => show win3_6.index t (1 : Fin 2) * 1 + 1 * (y 1).val = (y 1).val; rw [e61]; omega

/-- Window 2's block at every point is its whole array. -/
theorem iblk3_2_eq (c : Dev nD) (t : Fin cfg3.N) :
    (iblk3 V c 2 t : Vec F S64x64 .f32) = (V c main_v55 : S64x64.Idx → Elt F .f32) := by
  obtain ⟨e00, e01, e10, e11, e60, e61, e20, e21, e30, e31, e40, e41, e50, e51, e70, e71, e80, e81⟩ := index3 t
  funext y
  unfold iblk3
  rw [View.read_apply]
  show V c main_v55 _ = V c main_v55 _
  congr 1
  funext a
  apply Fin.ext
  match a with
  | ⟨0, _⟩ => show win3_2.index t (0 : Fin 2) * 64 + 1 * (y 0).val = (y 0).val; rw [e20]; omega
  | ⟨1, _⟩ => show win3_2.index t (1 : Fin 2) * 64 + 1 * (y 1).val = (y 1).val; rw [e21]; omega

/-- Window 3's block at every point is its whole array. -/
theorem iblk3_3_eq (c : Dev nD) (t : Fin cfg3.N) :
    (iblk3 V c 3 t : Vec F S1x64 .f32) = (V c main_v62 : S1x64.Idx → Elt F .f32) := by
  obtain ⟨e00, e01, e10, e11, e60, e61, e20, e21, e30, e31, e40, e41, e50, e51, e70, e71, e80, e81⟩ := index3 t
  funext y
  unfold iblk3
  rw [View.read_apply]
  show V c main_v62 _ = V c main_v62 _
  congr 1
  funext a
  apply Fin.ext
  match a with
  | ⟨0, _⟩ => show win3_3.index t (0 : Fin 2) * 1 + 1 * (y 0).val = (y 0).val; rw [e30]; omega
  | ⟨1, _⟩ => show win3_3.index t (1 : Fin 2) * 64 + 1 * (y 1).val = (y 1).val; rw [e31]; omega

/-- Window 4's block at every point is its whole array. -/
theorem iblk3_4_eq (c : Dev nD) (t : Fin cfg3.N) :
    (iblk3 V c 4 t : Vec F S64x64 .f32) = (V c main_v59 : S64x64.Idx → Elt F .f32) := by
  obtain ⟨e00, e01, e10, e11, e60, e61, e20, e21, e30, e31, e40, e41, e50, e51, e70, e71, e80, e81⟩ := index3 t
  funext y
  unfold iblk3
  rw [View.read_apply]
  show V c main_v59 _ = V c main_v59 _
  congr 1
  funext a
  apply Fin.ext
  match a with
  | ⟨0, _⟩ => show win3_4.index t (0 : Fin 2) * 64 + 1 * (y 0).val = (y 0).val; rw [e40]; omega
  | ⟨1, _⟩ => show win3_4.index t (1 : Fin 2) * 64 + 1 * (y 1).val = (y 1).val; rw [e41]; omega

/-- Window 5's block at every point is its whole array. -/
theorem iblk3_5_eq (c : Dev nD) (t : Fin cfg3.N) :
    (iblk3 V c 5 t : Vec F S1x64 .f32) = (V c main_v63 : S1x64.Idx → Elt F .f32) := by
  obtain ⟨e00, e01, e10, e11, e60, e61, e20, e21, e30, e31, e40, e41, e50, e51, e70, e71, e80, e81⟩ := index3 t
  funext y
  unfold iblk3
  rw [View.read_apply]
  show V c main_v63 _ = V c main_v63 _
  congr 1
  funext a
  apply Fin.ext
  match a with
  | ⟨0, _⟩ => show win3_5.index t (0 : Fin 2) * 1 + 1 * (y 0).val = (y 0).val; rw [e50]; omega
  | ⟨1, _⟩ => show win3_5.index t (1 : Fin 2) * 64 + 1 * (y 1).val = (y 1).val; rw [e51]; omega

/-- Window 7's block at every point is its whole array. -/
theorem iblk3_7_eq (c : Dev nD) (t : Fin cfg3.N) :
    (iblk3 V c 7 t : Vec F S1x64 .f32) = (V c main_v65 : S1x64.Idx → Elt F .f32) := by
  obtain ⟨e00, e01, e10, e11, e60, e61, e20, e21, e30, e31, e40, e41, e50, e51, e70, e71, e80, e81⟩ := index3 t
  funext y
  unfold iblk3
  rw [View.read_apply]
  show V c main_v65 _ = V c main_v65 _
  congr 1
  funext a
  apply Fin.ext
  match a with
  | ⟨0, _⟩ => show win3_7.index t (0 : Fin 2) * 1 + 1 * (y 0).val = (y 0).val; rw [e70]; omega
  | ⟨1, _⟩ => show win3_7.index t (1 : Fin 2) * 64 + 1 * (y 1).val = (y 1).val; rw [e71]; omega

/-- The output's one block sits where the array does. -/
theorem emb3_8 (t : Fin cfg3.N) (y : S128x1.Idx) : (((cfg3.win 8).blk t).view.emb y : S128x1.Idx) = y := by
  obtain ⟨e00, e01, e10, e11, e60, e61, e20, e21, e30, e31, e40, e41, e50, e51, e70, e71, e80, e81⟩ := index3 t
  funext a
  apply Fin.ext
  match a with
  | ⟨0, _⟩ => show win3_8.index t (0 : Fin 2) * 128 + 1 * (y 0).val = (y 0).val; rw [e80]; omega
  | ⟨1, _⟩ => show win3_8.index t (1 : Fin 2) * 1 + 1 * (y 1).val = (y 1).val; rw [e81]; omega

/-- An uncut block is written back whole. -/
theorem cut3_8 (t : Fin cfg3.N) (X : Vec F S128x1 .f32) : (cfg3.win 8).cut (grid3.coords t) X = X := rfl

/-- What a point writes back is the whole of what the last point leaves. -/
theorem flushed3_8_eq (c : Dev nD) (t : Fin cfg3.N) :
    (dat3 V c).flushed 8 t = ((cfg3.win 8).blk t).view.read (Elt F) (out3_8 V c) := by
  show (cfg3.win 8).cut (grid3.coords t) ((dat3 V c).after 8 t) = _
  rw [after3_8, cut3_8]
  funext y
  rw [View.read_apply, cast_eq, emb3_8]

/-- An index of the array is in point t's block iff each coordinate is in the block's range on its axis. -/
theorem mem_blk3_8 (t : Fin cfg3.N) (i : S128x1.Idx) :
    i ∈ ((cfg3.win 8).blk t).view.set ↔ ∀ a : Fin 2, win3_8.index t a * S128x1.size a ≤ (i a).val ∧ (i a).val < win3_8.index t a * S128x1.size a + S128x1.size a := by
  show i ∈ ((View.whole main_v66).slice (win3_8.rect t)).set ↔ _
  rw [View.set_slice_whole, Rect.mem_set_unit]
  exact Iff.rfl

/-- The last point's block covers the array. -/
theorem cover3_8_last (i : S128x1.Idx) : ∃ t : Fin cfg3.N, (cfg3.win 8).flush t = true ∧ i ∈ ((cfg3.win 8).blk t).view.set := by
  have hi0 : (i 0).val < 128 := idx2_lt0 i
  have hi1 : (i 1).val < 1 := idx2_lt1 i
  refine ⟨tlast3, (flush3_8 tlast3).mpr rfl, ?_⟩
  obtain ⟨-, -, -, -, -, -, -, -, -, -, -, -, -, -, -, -, e0, e1⟩ := index3 tlast3
  rw [mem_blk3_8]
  intro a
  match a with
  | ⟨0, _⟩ => show win3_8.index tlast3 (0 : Fin 2) * 128 ≤ (i 0).val ∧ (i 0).val < win3_8.index tlast3 (0 : Fin 2) * 128 + 128; rw [e0]; omega
  | ⟨1, _⟩ => show win3_8.index tlast3 (1 : Fin 2) * 1 ≤ (i 1).val ∧ (i 1).val < win3_8.index tlast3 (1 : Fin 2) * 1 + 1; rw [e1]; omega

/-- The output array after the region is what the last point leaves in the output block. -/
theorem arr3_final (c : Dev nD) : ((dat3 V c).arrAt 8 cfg3.N : S128x1.Idx → Elt F .f32) = out3_8 V c :=
  (dat3 V c).arrAt_eq_of_cover 8 (out3_8 V c) (fun t _ => flushed3_8_eq V c t) cover3_8_last

/-- Every input array is left as the region found it. -/
theorem arr3_in (c : Dev nD) (w : Fin cfg3.W) (hw : w ≠ 8) : (dat3 V c).arrAt w cfg3.N = (dat3 V c).A w :=
  match w, hw with
  | ⟨0, _⟩, _ => (dat3 V c).arrAt_in 0 rfl _
  | ⟨1, _⟩, _ => (dat3 V c).arrAt_in 1 rfl _
  | ⟨2, _⟩, _ => (dat3 V c).arrAt_in 2 rfl _
  | ⟨3, _⟩, _ => (dat3 V c).arrAt_in 3 rfl _
  | ⟨4, _⟩, _ => (dat3 V c).arrAt_in 4 rfl _
  | ⟨5, _⟩, _ => (dat3 V c).arrAt_in 5 rfl _
  | ⟨6, _⟩, _ => (dat3 V c).arrAt_in 6 rfl _
  | ⟨7, _⟩, _ => (dat3 V c).arrAt_in 7 rfl _
  | ⟨8, _⟩, hw => absurd rfl hw

end Cert.KernelIdeal.Hand

end
-- ==== Proof.KI.Rows0.lean ====
/- Region 0, from blocks to the array. The grid's point t reads rows 5000 t … 5000 t + 4999 of the node features and the whole
   table, and writes rows 5000 t … 5000 t + 4999 of the output; the ten blocks tile the 50000 rows, so row r of the output
   array is row r % 5000 of what point r / 5000 leaves, and the input arrays are left as found. -/
import proofs.«430897_j2645699854676_3_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 0: blocks of 5000 rows, block t at rows 5000 t … 5000 t + 4999 -/

theorem zero_off2 : (![0, 0] : Fin 2 → Nat) = fun _ => 0 := funext fun a => by fin_cases a <;> rfl

/-- The printed index maps over the grid: the two row-blocked windows are at block (t, 0), the table at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point0_lt (t : Fin cfg0.N) : t.val < 10 := lt_of_lt_of_eq t.isLt N_0

/-- Row q of block t is a row of the array. -/
theorem row0_lt (t : Fin cfg0.N) (n : Nat) (hn : n < 5000) : 5000 * t.val + n < 50000 := by
  have := point0_lt t; omega

/-- The block a row is in is a point of the grid. -/
theorem block0_lt (n : Nat) (hn : n < 50000) : n / 5000 < cfg0.N :=
  lt_of_lt_of_eq (show n / 5000 < 10 by omega) N_0.symm

/-- Window 0's block at point t is rows 5000 t … of the node features. -/
theorem iblk0_0_apply (c : Dev nD) (t : Fin cfg0.N) (y : S5000x1.Idx) :
    (iblk0 V c 0 t : Vec F S5000x1 .i32) y
      = (V c main_v0 : S50000x1.Idx → Elt F .i32) (ix2 ⟨5000 * t.val + (y 0).val, row0_lt t _ (idx2_lt0 y)⟩ (y 1)) := by
  obtain ⟨e0, e1, -⟩ := index0 t
  unfold iblk0
  rw [View.read_apply]
  show V c main_v0 _ = V c main_v0 _
  congr 1
  funext a
  apply Fin.ext
  match a with
  | ⟨0, _⟩ => show win0_0.index t (0 : Fin 2) * 5000 + 1 * (y 0).val = 5000 * t.val + (y 0).val; rw [e0]; omega
  | ⟨1, _⟩ => show win0_0.index t (1 : Fin 2) * 1 + 1 * (y 1).val = (y 1).val; rw [e1]; omega

/-- Window 1's block at every point is the whole table. -/
theorem iblk0_1_eq (c : Dev nD) (t : Fin cfg0.N) :
    (iblk0 V c 1 t : Vec F S100x64 .f32) = (V c main_arg4 : S100x64.Idx → Elt F .f32) := by
  obtain ⟨-, -, e0, e1, -⟩ := index0 t
  funext y
  unfold iblk0
  rw [View.read_apply]
  show V c main_arg4 _ = V c main_arg4 _
  congr 1
  funext a
  apply Fin.ext
  match a with
  | ⟨0, _⟩ => show win0_1.index t (0 : Fin 2) * 100 + 1 * (y 0).val = (y 0).val; rw [e0]; omega
  | ⟨1, _⟩ => show win0_1.index t (1 : Fin 2) * 64 + 1 * (y 1).val = (y 1).val; rw [e1]; omega

/-- The one store covers the block and the loads are of whole buffers: the block after the body is the payload. -/
theorem out0_2_eq (x0 : Vec F S5000x1 .i32) (x1 : Vec F S100x64 .f32) : out0_2 x0 x1 = k0_pay1 x0 x1 := by
  unfold out0_2
  rw [View.canon_unit_zero zero_off2]
  simp only [View.ld_unit_zero (S := S5000x1) zero_off2, View.ld_unit_zero (S := S100x64) zero_off2]

/-- What point t leaves in the output block. -/
def rows0 (c : Dev nD) (t : Fin cfg0.N) : Vec F S5000x64 .f32 := out0_2 (iblk0 V c 0 t) (iblk0 V c 1 t)

/-- The output array, row by row: row r is row r % 5000 of what point r / 5000 leaves. -/
def whole0 (c : Dev nD) : S50000x64.Idx → Elt F .f32 := fun i =>
  rows0 V c ⟨(i 0).val / 5000, block0_lt _ (idx2_lt0 i)⟩ (ix2 ⟨(i 0).val % 5000, Nat.mod_lt _ (by decide)⟩ (i 1))

theorem whole0_apply (c : Dev nD) (t : Fin cfg0.N) (y : S5000x64.Idx) (i : S50000x64.Idx)
    (h0 : (i 0).val = 5000 * t.val + (y 0).val) (h1 : (i 1).val = (y 1).val) : whole0 V c i = rows0 V c t y := by
  have hy : (y 0).val < 5000 := idx2_lt0 y
  unfold whole0
  have et : (⟨(i 0).val / 5000, block0_lt _ (idx2_lt0 i)⟩ : Fin cfg0.N) = t := Fin.ext (by show (i 0).val / 5000 = t.val; omega)
  have ey : (ix2 ⟨(i 0).val % 5000, Nat.mod_lt _ (by decide)⟩ (i 1) : S5000x64.Idx) = y := by
    funext a
    apply Fin.ext
    match a with
    | ⟨0, _⟩ => show (i 0).val % 5000 = (y 0).val; omega
    | ⟨1, _⟩ => show (i 1).val = (y 1).val; exact h1
  rw [et, ey]

/-- Block t of that array, read where the block sits, is what point t leaves. -/
theorem whole0_blk (c : Dev nD) (t : Fin cfg0.N) (y : S5000x64.Idx) :
    whole0 V c (((cfg0.win 2).blk t).view.emb y) = rows0 V c t y := by
  obtain ⟨-, -, -, -, e0, e1⟩ := index0 t
  refine whole0_apply V c t y _ ?_ ?_
  · show win0_2.index t (0 : Fin 2) * 5000 + 1 * (y 0).val = 5000 * t.val + (y 0).val; rw [e0]; omega
  · show win0_2.index t (1 : Fin 2) * 64 + 1 * (y 1).val = (y 1).val; rw [e1]; omega

/-- An uncut block is written back whole. -/
theorem cut0_2 (t : Fin cfg0.N) (X : Vec F S5000x64 .f32) : (cfg0.win 2).cut (grid0.coords t) X = X := rfl

/-- What point t writes back is block t of that array. -/
theorem flushed0_2_eq (c : Dev nD) (t : Fin cfg0.N) :
    (dat0 V c).flushed 2 t = ((cfg0.win 2).blk t).view.read (Elt F) (whole0 V c) := by
  show (cfg0.win 2).cut (grid0.coords t) ((dat0 V c).after 2 t) = _
  rw [after0_2, cut0_2]
  funext y
  rw [View.read_apply, cast_eq, whole0_blk]
  rfl

/-- A row of the array is in point t's block iff each coordinate is in the block's range on its axis. -/
theorem mem_blk0_2 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v1).slice (win0_2.rect t)).set ↔ _
  rw [View.set_slice_whole, Rect.mem_set_unit]
  exact Iff.rfl

/-- The point that covers row r is r / 5000. -/
theorem cover0_2_rows (i : S50000x64.Idx) : ∃ t : Fin cfg0.N, (cfg0.win 2).flush t = true ∧ i ∈ ((cfg0.win 2).blk t).view.set := by
  have hi0 : (i 0).val < 50000 := idx2_lt0 i
  have hi1 : (i 1).val < 64 := idx2_lt1 i
  refine ⟨⟨(i 0).val / 5000, block0_lt _ hi0⟩, flush0_2 _, ?_⟩
  obtain ⟨-, -, -, -, e0, e1⟩ := index0 ⟨(i 0).val / 5000, block0_lt _ hi0⟩
  rw [mem_blk0_2]
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e1]; omega

/-- The output array after the region. -/
theorem arr0_whole (c : Dev nD) : (dat0 V c).arrAt 2 cfg0.N = whole0 V c :=
  (dat0 V c).arrAt_eq_of_cover 2 (whole0 V c) (fun t _ => flushed0_2_eq V c t) cover0_2_rows

/-- Row 5000 t + q of the output array is row q of what point t leaves. -/
theorem arr0_rows (c : Dev nD) (t : Fin cfg0.N) (q : Fin 5000) (j : Fin 64) :
    ((dat0 V c).arrAt 2 cfg0.N : S50000x64.Idx → Elt F .f32) (ix2 ⟨5000 * t.val + q.val, row0_lt t _ q.isLt⟩ j)
      = out0_2 (iblk0 V c 0 t) (iblk0 V c 1 t) (ix2 q j) := by
  rw [arr0_whole]
  exact whole0_apply V c t (ix2 q j) _ rfl rfl

/-- Every input array is left as the region found it. -/
theorem arr0_in (c : Dev nD) (w : Fin cfg0.W) (hw : w ≠ 2) : (dat0 V c).arrAt w cfg0.N = (dat0 V c).A w :=
  match w, hw with
  | ⟨0, _⟩, _ => (dat0 V c).arrAt_in 0 rfl _
  | ⟨1, _⟩, _ => (dat0 V c).arrAt_in 1 rfl _
  | ⟨2, _⟩, hw => absurd rfl hw

end Cert.KernelIdeal.Hand

end
-- ==== Proof.KI.HostVals.lean ====
/-
  What the host stretches between the kernel regions leave in the buffers the later regions read, as terms over the
  buffers before the stretch; and the layout operations of those terms read at an index, for any element type.
-/
import proofs.«430897_j2645699854676_3_alg».proof.Proof.Gen.KernelIdeal.Launch
import proofs.«430897_j2645699854676_3_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The neighbourhood sum of a layer: the rows of `h` gathered at the (wrapped) source ends of the edges, added into a
    zero array at the destination ends. -/
def aggK (h : FVec F S50000x64 .f32) (src dst : IVec S800000 32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ## After the first stretch: the node features as a column -/

theorem after0_main_v0 (W : Valuation τ sig (Elt F)) :
    StableHlo.after (hostOps0 : List (HloOp τ sig (Elt F))) W (Proc.devRef .tc main_v0)
      = shapeCast S50000x1 (W (Proc.devRef .tc main_arg0)) shapeCasts_S50000_S50000x1 := by
  after_results
  rfl

/-! ## After the second stretch: layer 0's neighbourhood sum and parameters -/

theorem after1_main_v11 (W : Valuation τ sig (Elt F)) :
    StableHlo.after (hostOps1 : List (HloOp τ sig (Elt F))) W (Proc.devRef .tc main_v11)
      = aggK (W (Proc.devRef .tc main_v1)) (W (Proc.devRef .tc main_arg1)) (W (Proc.devRef .tc main_arg2)) := by
  after_results
  rfl

theorem after1_main_v13 (W : Valuation τ sig (Elt F)) :
    StableHlo.after (hostOps1 : List (HloOp τ sig (Elt F))) W (Proc.devRef .tc main_v13)
      = shapeCast S64x64 (extractStridedSlice S1x64x64 ![0, 0, 0] (W (Proc.devRef .tc main_arg5)) slices_S3x64x64_S1x64x64_0_0_0) shapeCasts_S1x64x64_S64x64 := by
  after_results
  rfl

theorem after1_main_v20 (W : Valuation τ sig (Elt F)) :
    StableHlo.after (hostOps1 : List (HloOp τ sig (Elt F))) W (Proc.devRef .tc main_v20)
      = shapeCast S1x64 (shapeCast S64 (extractStridedSlice S1x64 ![0, 0] (W (Proc.devRef .tc main_arg6)) slices_S3x64_S1x64_0_0) shapeCasts_S1x64_S64) shapeCasts_S64_S1x64 := by
  after_results
  rfl

theorem after1_main_v17 (W : Valuation τ sig (Elt F)) :
    StableHlo.after (hostOps1 : List (HloOp τ sig (Elt F))) W (Proc.devRef .tc main_v17)
      = shapeCast S64x64 (extractStridedSlice S1x64x64 ![0, 0, 0] (W (Proc.devRef .tc main_arg7)) slices_S3x64x64_S1x64x64_0_0_0) shapeCasts_S1x64x64_S64x64 := by
  after_results
  rfl

theorem after1_main_v21 (W : Valuation τ sig (Elt F)) :
    StableHlo.after (hostOps1 : List (HloOp τ sig (Elt F))) W (Proc.devRef .tc main_v21)
      = shapeCast S1x64 (shapeCast S64 (extractStridedSlice S1x64 ![0, 0] (W (Proc.devRef .tc main_arg8)) slices_S3x64_S1x64_0_0) shapeCasts_S1x64_S64) shapeCasts_S64_S1x64 := by
  after_results
  rfl

theorem after1_main_v1 (W : Valuation τ sig (Elt F)) :
    StableHlo.after (hostOps1 : List (HloOp τ sig (Elt F))) W (Proc.devRef .tc main_v1) = W (Proc.devRef .tc main_v1) :=
  StableHlo.after_of_writes_sub hostOps1 _ hostOps1_writes (by decide)

/-! ## After the third stretch: layer 1's neighbourhood sum and parameters -/

theorem after2_main_v32 (W : Valuation τ sig (Elt F)) :
    StableHlo.after (hostOps2 : List (HloOp τ sig (Elt F))) W (Proc.devRef .tc main_v32)
      = aggK (W (Proc.devRef .tc main_v22)) (W (Proc.devRef .tc main_arg1)) (W (Proc.devRef .tc main_arg2)) := by
  after_results
  rfl

theorem after2_main_v34 (W : Valuation τ sig (Elt F)) :
    StableHlo.after (hostOps2 : List (HloOp τ sig (Elt F))) W (Proc.devRef .tc main_v34)
      = shapeCast S64x64 (extractStridedSlice S1x64x64 ![1, 0, 0] (W (Proc.devRef .tc main_arg5)) slices_S3x64x64_S1x64x64_1_0_0) shapeCasts_S1x64x64_S64x64 := by
  after_results
  rfl

theorem after2_main_v41 (W : Valuation τ sig (Elt F)) :
    StableHlo.after (hostOps2 : List (HloOp τ sig (Elt F))) W (Proc.devRef .tc main_v41)
      = shapeCast S1x64 (shapeCast S64 (extractStridedSlice S1x64 ![1, 0] (W (Proc.devRef .tc main_arg6)) slices_S3x64_S1x64_1_0) shapeCasts_S1x64_S64) shapeCasts_S64_S1x64 := by
  after_results
  rfl

theorem after2_main_v38 (W : Valuation τ sig (Elt F)) :
    StableHlo.after (hostOps2 : List (HloOp τ sig (Elt F))) W (Proc.devRef .tc main_v38)
      = shapeCast S64x64 (extractStridedSlice S1x64x64 ![1, 0, 0] (W (Proc.devRef .tc main_arg7)) slices_S3x64x64_S1x64x64_1_0_0) shapeCasts_S1x64x64_S64x64 := by
  after_results
  rfl

theorem after2_main_v42 (W : Valuation τ sig (Elt F)) :
    StableHlo.after (hostOps2 : List (HloOp τ sig (Elt F))) W (Proc.devRef .tc main_v42)
      = shapeCast S1x64 (shapeCast S64 (extractStridedSlice S1x64 ![1, 0] (W (Proc.devRef .tc main_arg8)) slices_S3x64_S1x64_1_0) shapeCasts_S1x64_S64) shapeCasts_S64_S1x64 := by
  after_results
  rfl

theorem after2_main_v22 (W : Valuation τ sig (Elt F)) :
    StableHlo.after (hostOps2 : List (HloOp τ sig (Elt F))) W (Proc.devRef .tc main_v22) = W (Proc.devRef .tc main_v22) :=
  StableHlo.after_of_writes_sub hostOps2 _ hostOps2_writes (by decide)

/-! ## After the fourth stretch: layer 2's neighbourhood sum and parameters, the graph ids as a column, the readout row -/

set_option maxHeartbeats 1000000 in
theorem after3_main_v53 (W : Valuation τ sig (Elt F)) :
    StableHlo.after (hostOps3 : List (HloOp τ sig (Elt F))) W (Proc.devRef .tc main_v53)
      = aggK (W (Proc.devRef .tc main_v43)) (W (Proc.devRef .tc main_arg1)) (W (Proc.devRef .tc main_arg2)) := by
  after_results
  rfl

theorem after3_main_v55 (W : Valuation τ sig (Elt F)) :
    StableHlo.after (hostOps3 : List (HloOp τ sig (Elt F))) W (Proc.devRef .tc main_v55)
      = shapeCast S64x64 (extractStridedSlice S1x64x64 ![2, 0, 0] (W (Proc.devRef .tc main_arg5)) slices_S3x64x64_S1x64x64_2_0_0) shapeCasts_S1x64x64_S64x64 := by
  after_results
  rfl

theorem after3_main_v62 (W : Valuation τ sig (Elt F)) :
    StableHlo.after (hostOps3 : List (HloOp τ sig (Elt F))) W (Proc.devRef .tc main_v62)
      = shapeCast S1x64 (shapeCast S64 (extractStridedSlice S1x64 ![2, 0] (W (Proc.devRef .tc main_arg6)) slices_S3x64_S1x64_2_0) shapeCasts_S1x64_S64) shapeCasts_S64_S1x64 := by
  after_results
  rfl

theorem after3_main_v59 (W : Valuation τ sig (Elt F)) :
    StableHlo.after (hostOps3 : List (HloOp τ sig (Elt F))) W (Proc.devRef .tc main_v59)
      = shapeCast S64x64 (extractStridedSlice S1x64x64 ![2, 0, 0] (W (Proc.devRef .tc main_arg7)) slices_S3x64x64_S1x64x64_2_0_0) shapeCasts_S1x64x64_S64x64 := by
  after_results
  rfl

theorem after3_main_v63 (W : Valuation τ sig (Elt F)) :
    StableHlo.after (hostOps3 : List (HloOp τ sig (Elt F))) W (Proc.devRef .tc main_v63)
      = shapeCast S1x64 (shapeCast S64 (extractStridedSlice S1x64 ![2, 0] (W (Proc.devRef .tc main_arg8)) slices_S3x64_S1x64_2_0) shapeCasts_S1x64_S64) shapeCasts_S64_S1x64 := by
  after_results
  rfl

theorem after3_main_v43 (W : Valuation τ sig (Elt F)) :
    StableHlo.after (hostOps3 : List (HloOp τ sig (Elt F))) W (Proc.devRef .tc main_v43) = W (Proc.devRef .tc main_v43) :=
  StableHlo.after_of_writes_sub hostOps3 _ hostOps3_writes (by decide)

theorem after3_main_v64 (W : Valuation τ sig (Elt F)) :
    StableHlo.after (hostOps3 : List (HloOp τ sig (Elt F))) W (Proc.devRef .tc main_v64)
      = shapeCast S50000x1 (W (Proc.devRef .tc main_arg3)) shapeCasts_S50000_S50000x1 := by
  after_results
  rfl

theorem after3_main_v65 (W : Valuation τ sig (Elt F)) :
    StableHlo.after (hostOps3 : List (HloOp τ sig (Elt F))) W (Proc.devRef .tc main_v65)
      = transpose S1x64 [1, 0] (W (Proc.devRef .tc main_arg9)) transposes_S64x1_S1x64_1_0 := by
  after_results

/-! ## The stretches' layout operations read at an index -/

section AtIndex
variable {α : Type}

/-- A layer's weight matrix — the slice of the stack of three at offset `o`, its unit axis dropped — reads, at (l, k), the
    stack at (o, l, k). -/
theorem wslice_apply (o : Nat) (ho : o < 3) (x : S3x64x64.Idx → α) (hs : S3x64x64.Slices ![o, 0, 0] S1x64x64)
    (hc : S1x64x64.ShapeCasts S64x64) (l k : Fin 64) :
    shapeCast S64x64 (extractStridedSlice S1x64x64 ![o, 0, 0] x hs) hc (ix2 l k) = x (ix3 (⟨o, ho⟩ : Fin 3) l k) := by
  rw [shapeCast_1ab_ab_apply]
  refine extractStridedSlice_apply _ x hs _ _ (fun a => ?_)
  match a with
  | ⟨0, _⟩ => rfl
  | ⟨1, _⟩ => exact (Nat.zero_add _).symm
  | ⟨2, _⟩ => exact (Nat.zero_add _).symm

/-- A layer's bias row — the slice of the stack of three rows at offset `o`, flattened and given a unit axis again — reads,
    at (0, k), the stack at (o, k). -/
theorem bslice_apply (o : Nat) (ho : o < 3) (b : S3x64.Idx → α) (hs : S3x64.Slices ![o, 0] S1x64)
    (h1 : S1x64.ShapeCasts S64) (h2 : S64.ShapeCasts S1x64) (k : Fin 64) :
    shapeCast S1x64 (shapeCast S64 (extractStridedSlice S1x64 ![o, 0] b hs) h1) h2 (ix2 (0 : Fin 1) k)
      = b (ix2 (⟨o, ho⟩ : Fin 3) k) := by
  rw [shapeCast_a_1a_apply, shapeCast_1a_a_apply]
  exact slice2_axis0_apply o b hs (0 : Fin 1) k ⟨o, ho⟩ rfl

/-- A vector written as a column reads, at (n, 0), the vector at n. -/
theorem column_apply (x : S50000.Idx → α) (h : S50000.ShapeCasts S50000x1) (n : Fin 50000) :
    shapeCast S50000x1 x h (ix2 n (0 : Fin 1)) = x (ix1 n) :=
  shapeCast_apply x h _ _ (by
    rw [Shape.rowMajor_val_two, Shape.rowMajor_val_one]
    show n.val = n.val * 1 + 0
    rw [Nat.mul_one, Nat.add_zero])

/-- The readout column transposed to a row reads, at (0, k), the column at (k, 0). -/
theorem readout_row_apply (wr : S64x1.Idx → α) (h : S64x1.Transposes [1, 0] S1x64) (k : Fin 64) :
    transpose S1x64 [1, 0] wr h (ix2 (0 : Fin 1) k) = wr (ix2 k (0 : Fin 1)) :=
  transpose_ix2_apply wr h (0 : Fin 1) k

end AtIndex

end Cert.KernelIdeal.Hand

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.Val.PayOneHot.lean ====
/-
  The one-hot matrix products of the graph network's kernels read at an index, at the ideal values.
  A word compared with a column iota, widened and converted, is the indicator of equality; a product of such an
  indicator matrix with a table is a sum over the table's rows weighted by indicators (the embedding lookup), and the
  product contracting the rows of both operands is a sum over the nodes weighted by the graph indicator (the pooling).
  Also the small payloads of the pooling region: the accumulator update, the zero reset, and the weighted row sum.
-/
import proofs.«430897_j2645699854676_3_alg».proof.Proof.Gen.KernelIdeal.Skeleton
import proofs.«430897_j2645699854676_3_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Val

open Cert.KernelIdeal Cert.KernelIdeal.Gen Idealize.ShloMosaic Idealize.ShloMosaic.ValueIdx

/-- A word compare widened to 32 bits and converted signed is the indicator of equality. -/
theorem onehot_word (a b : BitVec 32) :
    (FloatOps.sitofp (F := Ideal) .f32 ((IntOp.cmpi .eq a b).setWidth 32) : EReal) = if a = b then (1 : EReal) else 0 := by
  show ((((BitVec.ofBool (a == b)).setWidth 32).toInt : ℝ) : EReal) = _
  by_cases h : a = b
  · rw [if_pos h, beq_iff_eq.mpr h]
    show ((((1 : ℤ)) : ℝ) : EReal) = 1
    norm_num
  · rw [if_neg h, beq_eq_false_iff_ne.mpr h]
    show ((((0 : ℤ)) : ℝ) : EReal) = 0
    norm_num

/-- One column broadcast over many: an [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two spellings of one axis position read the same coordinate. -/
theorem coord_val_eq {s : Shape} (j : s.Idx) (p q : Nat) (hp : p < s.rank) (hq : q < s.rank) (h : p = q) :
    (j ⟨p, hp⟩).val = (j ⟨q, hq⟩).val := by subst h; rfl

section Pool
variable {M K N : Nat} (D : DotDims ⟨2, ![K, M]⟩ ⟨2, ![K, N]⟩ ⟨2, ![M, N]⟩)

/-- The left operand's column is the result's row: axis 1 is the left operand's one free axis, first among the result's. -/
theorem lhsT_col (hlb : D.lhsBatch = []) (hln : D.lhsNonContracting = [1]) (p : Fin M) (q : Fin N) (k : D.contr.Idx) :
    (D.lhsIdx (ix2 p q) k 1).val = p.val := by
  unfold DotDims.lhsIdx
  rw [dif_neg (by rw [hlb]; exact List.not_mem_nil), dif_pos (by rw [hln]; exact List.mem_singleton.mpr rfl)]
  simp only [Fin.val_cast]
  exact coord_val_eq (ix2 p q) _ 0 _ (show 0 < 2 by omega) (by simp [hlb, hln])

/-- The right operand's column is the result's column. -/
theorem rhsT_col (hlb : D.lhsBatch = []) (hrb : D.rhsBatch = []) (hln : D.lhsNonContracting = [1]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_eq (ix2 p q) _ 1 _ (show 1 < 2 by omega) (by simp [hlb, hln, hrn])

/-- A product contracting the ROWS of both operands, at result index (p, q): ∑ over k of l[k, p] · r[k, q]. -/
theorem sum_rows (hlc : D.lhsContracting = [0]) (hrc : D.rhsContracting = [0]) (hln : D.lhsNonContracting = [1])
    (hrn : D.rhsNonContracting = [1]) (hlb : D.lhsBatch = []) (hrb : D.rhsBatch = [])
    (l : (⟨2, ![K, M]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 k p) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 k p := by
    funext a
    match a with
    | ⟨0, _⟩ => exact Fin.ext ((D.lhsIdx_val_of_single hlc (ix2 p q) _).trans hk)
    | ⟨1, _⟩ => exact Fin.ext (lhsT_col D hlb hln p q _)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhsT_col D hlb hrb hln hrn p q _)
  rw [e1, e2]

end Pool

/-! ## The indicator matrix at an index -/

/-- A column of words broadcast along the rows' axis, compared with the iota along axis 1, widened and converted:
    at (p, c) the indicator that row p's word is c. -/
theorem onehot_apply {a b : ℕ} (g : IVec ⟨2, ![a, 1]⟩ 32) (hb : (⟨2, ![a, 1]⟩ : Shape).Broadcasts ⟨2, ![a, b]⟩)
    (hi : (⟨2, ![a, b]⟩ : Shape).Iotas .tc 32 [1]) (hlt : 1 < 32) (p : Fin a) (c : Fin b) :
    (sitofp .f32 (extui 32 (cmpi .eq (broadcastTo ⟨2, ![a, b]⟩ g hb) (iota .tc ⟨2, ![a, b]⟩ 32 [1] hi)) hlt) : FVec Ideal ⟨2, ![a, b]⟩ .f32) (ix2 p c)
      = if g (ix2 p (0 : Fin 1)) = BitVec.ofNat 32 c.val then (1 : EReal) else 0 := by
  show FloatOps.sitofp (F := Ideal) .f32
    ((IntOp.cmpi .eq (broadcastTo ⟨2, ![a, b]⟩ g hb (ix2 p c)) (iota .tc ⟨2, ![a, b]⟩ 32 [1] hi (ix2 p c))).setWidth 32) = _
  rw [broadcastTo_a1_ab_apply, iota_single_apply]
  exact onehot_word _ _

/-! ## The embedding lookup -/

theorem pay0_apply (x : Vec Ideal S5000x1 .i32) (e : Vec Ideal S100x64 .f32) (q : Fin 5000) (j : Fin 64) :
    k0_pay1 (F := Ideal) x e (ix2 q j)
      = ∑ v : Fin 100, (if x (ix2 q (0 : Fin 1)) = BitVec.ofNat 32 v.val then (1 : EReal) else 0) * e (ix2 v j) := by
  unfold k0_pay1
  refine (Ideal.matmul_constant_zero_apply _ _ _ _ (ix2 q j)).trans ?_
  refine (LibPlainDot.sum_plain dot_S5000x100_S100x64_S5000x64_1_0_0_1_n_n rfl rfl rfl rfl rfl rfl _ _ q j).trans ?_
  refine Finset.sum_congr rfl fun v _ => ?_
  refine congrArg (· * e (ix2 v j)) ?_
  refine (onehot_apply _ _ _ _ q v).trans ?_
  rw [shapeCast_self]

/-- A small natural as a 32-bit word reads back, signed, as itself. -/
theorem toInt_ofNat_small (n : ℕ) (h : n < 2 ^ 31) : (BitVec.ofNat 32 n).toInt = (n : ℤ) := by
  rw [BitVec.toInt_eq_toNat_cond]
  simp only [BitVec.toNat_ofNat]
  have hn : n % 2 ^ 32 = n := Nat.mod_eq_of_lt (by omega)
  rw [hn]
  split
  · rfl
  · omega

/-- Where row q's word is the table row v, the lookup returns that row. -/
theorem pay0_row (x : Vec Ideal S5000x1 .i32) (e : Vec Ideal S100x64 .f32) (q : Fin 5000) (j : Fin 64) (v : Fin 100)
    (hx : (x (ix2 q (0 : Fin 1))).toInt = (v.val : ℤ)) : k0_pay1 (F := Ideal) x e (ix2 q j) = e (ix2 v j) := by
  rw [pay0_apply, Finset.sum_eq_single v]
  · have hv : x (ix2 q (0 : Fin 1)) = BitVec.ofNat 32 v.val :=
      BitVec.eq_of_toInt_eq (hx.trans (toInt_ofNat_small v.val (by have := v.isLt; omega)).symm)
    rw [if_pos hv, one_mul]
  · intro b _ hb
    have hne : ¬ x (ix2 q (0 : Fin 1)) = BitVec.ofNat 32 b.val := fun h => hb (Fin.ext (by
      have h1 := congrArg BitVec.toInt h
      rw [hx, toInt_ofNat_small b.val (by have := b.isLt; omega)] at h1
      exact_mod_cast h1.symm))
    rw [if_neg hne, zero_mul]
  · intro h; exact absurd (Finset.mem_univ v) h

/-! ## The pooling product -/

/-- The product contracting the nodes' axis of the graph indicator and of any node array: entry (g, k) is the sum over
    the nodes of the indicator that the node's graph is g times the node's entry k. -/
theorem pool_apply (gid : Vec Ideal S5000x1 .i32) (y : FVec Ideal S5000x64 .f32) (g : Fin 128) (k : Fin 64) :
    matmul dot_S5000x128_S5000x64_S128x64_0_0_1_1_n_n (some .fp32)
        (sitofp .f32 (extui 32 (cmpi .eq (broadcastTo S5000x128 (shapeCast S5000x1 gid shapeCasts_S5000x1_S5000x1) broadcasts_S5000x1_S5000x128)
          (iota .tc S5000x128 32 [1] iota_S5000x128_d1_w32)) natLt_1_32))
        y (constant S128x64 .f32 0x00000000#32) (ix2 g k)
      = ∑ q : Fin 5000, (if gid (ix2 q (0 : Fin 1)) = BitVec.ofNat 32 g.val then (1 : EReal) else 0) * y (ix2 q k) := by
  refine (Ideal.matmul_constant_zero_apply _ _ _ _ (ix2 g k)).trans ?_
  refine (sum_rows dot_S5000x128_S5000x64_S128x64_0_0_1_1_n_n rfl rfl rfl rfl rfl rfl _ _ g k).trans ?_
  refine Finset.sum_congr rfl fun q _ => ?_
  refine congrArg (· * y (ix2 q k)) ?_
  refine (onehot_apply _ _ _ _ q g).trans ?_
  rw [shapeCast_self]

/-- The pooled block: the pooling product of the graph indicator with the layer's output block. -/
theorem pay4_eq (h a : Vec Ideal S5000x64 .f32) (w1 : Vec Ideal S64x64 .f32) (b1 : Vec Ideal S1x64 .f32) (w2 : Vec Ideal S64x64 .f32)
    (b2 : Vec Ideal S1x64 .f32) (gid : Vec Ideal S5000x1 .i32) (g : Fin 128) (k : Fin 64) :
    k3_pay4 (F := Ideal) h a w1 b1 w2 b2 gid (ix2 g k)
      = ∑ q : Fin 5000, (if gid (ix2 q (0 : Fin 1)) = BitVec.ofNat 32 g.val then (1 : EReal) else 0) * k1_pay1 (F := Ideal) h a w1 b1 w2 b2 (ix2 q k) :=
  pool_apply gid (k1_pay1 (F := Ideal) h a w1 b1 w2 b2) g k

/-! ## The small payloads of the pooling region -/

/-- The accumulator update adds the pooled block. -/
theorem acc_step_apply (v35 : FVec Ideal S128x64 .f32) (v36 : Vec Ideal S128x64 .f32) (i : S128x64.Idx) :
    k3_pay1 (F := Ideal) v35 v36 i = v36 i + v35 i := by
  unfold k3_pay1
  exact congrFun (shapeCast_self (addf (F := Ideal) (φ := .f32) v36 v35) shapeCasts_S128x64_S128x64) i

/-- The reset writes zero. -/
theorem acc_init_apply (i : S128x64.Idx) : k3_pay3 (F := Ideal) i = (0 : EReal) :=
  (congrFun (shapeCast_self (broadcast S128x64 (Scalar.ofBits (F := Ideal) .f32 0x00000000#32)) shapeCasts_S128x64_S128x64) i).trans
    Ideal.ofBits_zero_f32

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of a [128, 64] block into the zero word reads, at g, the sum of row g. -/
theorem rowsum_apply (src : FVec Ideal S128x64 .f32) (g : Fin 128) :
    multiReduction .add [1] S128 src 0x00000000#32 reduces_S128x64_S128 (.inl rfl) rfl (ix1 g) = ∑ k : Fin 64, src (ix2 g k) := by
  refine (Ideal.multiReduction_add_single src 0x00000000#32 reduces_S128x64_S128 (.inl rfl) rfl (ix1 g)).trans ?_
  show ∑ k : Fin 64, src (reduces_S128x64_S128.lift (ix1 g) k) = _
  refine Finset.sum_congr rfl fun k _ => congrArg src ?_
  funext a
  match a with
  | ⟨0, _⟩ => rfl
  | ⟨1, _⟩ => rfl

/-- The readout: each graph's accumulated row weighted by the readout row and summed. -/
theorem pay2h_apply (acc : Vec Ideal S128x64 .f32) (wr : Vec Ideal S1x64 .f32) (g : Fin 128) :
    k3_pay2 (F := Ideal) acc wr (ix2 g (0 : Fin 1)) = ∑ k : Fin 64, acc (ix2 g k) * wr (ix2 (0 : Fin 1) k) := by
  unfold k3_pay2
  refine (shapeCast_a_a1_apply _ _ g 0).trans ?_
  refine (rowsum_apply _ g).trans ?_
  refine Finset.sum_congr rfl fun k _ => ?_
  show acc (ix2 g k) * broadcastTo S128x64 (shapeCast S1x64 wr shapeCasts_S1x64_S1x64) broadcasts_S1x64_S128x64 (ix2 g k) = _
  rw [broadcastTo_1b_ab_apply, shapeCast_self]

end Cert.Val

end
-- ==== Proof.RefImports.lean ====
/- The reference program's run and its stage-by-stage reading, gathered under one import. -/
import proofs.«430897_j2645699854676_3_alg».proof.Proof.Gen.ReferenceIdeal.Run
import proofs.«430897_j2645699854676_3_alg».proof.Proof.Gen.ReferenceIdeal.Read
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.Val.RefRead.lean ====
/-
  The reference program's result read entry by entry.

  A graph network of three layers over 50000 nodes with 64 features: the node features start as rows of an
  embedding table; each layer adds to every node the sum of its in-neighbours' rows and applies a two-layer
  perceptron with a rectifier between; the rows are then summed per graph and contracted with a column.
-/
import proofs.«430897_j2645699854676_3_alg».proof.Proof.RefImports
import proofs.«430897_j2645699854676_3_alg».proof.Proof.LibScatterGather
import Idealize.ShloMosaic.Lib.ValueIdx
import Idealize.ShloMosaic.PureOps.Ideal
import Idealize.ShloMosaic.PureOps.Ideal.Laws

noncomputable section

namespace Cert.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable {F : FTy → Type} [FloatOps F]

/-! ## The neighbour sum, as the host operations' own term -/

/-- Every node's sum of its in-neighbours' rows: the rows of `h` at the source words (a negative word wrapped by the
    node count), added into a zero array at the destination words. -/
def refAgg (h : (⟨S50000x64, .f32⟩ : BufTy).Contents (Elt F)) (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32 : (⟨S_, .f32⟩ : BufTy).Contents (Elt F)))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32 : (⟨S_, .i32⟩ : BufTy).Contents (Elt F))))
          (addi src (broadcastInDim S800000 ![] bcast_S_S800000 (constantI S_ 32 50000#32 : (⟨S_, .i32⟩ : BufTy).Contents (Elt F))))
          src)))

theorem v16_eq (x0 : (⟨S50000, .i32⟩ : BufTy).Contents (Elt F)) (x1 x2 : (⟨S800000, .i32⟩ : BufTy).Contents (Elt F)) (x4 : (⟨S100x64, .f32⟩ : BufTy).Contents (Elt F)) :
    val_main_v16 (F := F) x0 x1 x2 x4 = refAgg (val_main_v6 (F := F) x0 x4) x1 x2 := rfl

theorem v44_eq (x0 : (⟨S50000, .i32⟩ : BufTy).Contents (Elt F)) (x1 x2 : (⟨S800000, .i32⟩ : BufTy).Contents (Elt F)) (x4 : (⟨S100x64, .f32⟩ : BufTy).Contents (Elt F)) (x5 : (⟨S3x64x64, .f32⟩ : BufTy).Contents (Elt F)) (x6 : (⟨S3x64, .f32⟩ : BufTy).Contents (Elt F)) (x7 : (⟨S3x64x64, .f32⟩ : BufTy).Contents (Elt F)) (x8 : (⟨S3x64, .f32⟩ : BufTy).Contents (Elt F)) :
    val_main_v44 (F := F) x0 x1 x2 x4 x5 x6 x7 x8 = refAgg (val_main_v34 (F := F) x0 x1 x2 x4 x5 x6 x7 x8) x1 x2 := rfl

theorem v72_eq (x0 : (⟨S50000, .i32⟩ : BufTy).Contents (Elt F)) (x1 x2 : (⟨S800000, .i32⟩ : BufTy).Contents (Elt F)) (x4 : (⟨S100x64, .f32⟩ : BufTy).Contents (Elt F)) (x5 : (⟨S3x64x64, .f32⟩ : BufTy).Contents (Elt F)) (x6 : (⟨S3x64, .f32⟩ : BufTy).Contents (Elt F)) (x7 : (⟨S3x64x64, .f32⟩ : BufTy).Contents (Elt F)) (x8 : (⟨S3x64, .f32⟩ : BufTy).Contents (Elt F)) :
    val_main_v72 (F := F) x0 x1 x2 x4 x5 x6 x7 x8 = refAgg (val_main_v62 (F := F) x0 x1 x2 x4 x5 x6 x7 x8) x1 x2 := rfl

/-! ## The embedding rows -/

/-- A word that is not negative passes the wrap of negative indices unchanged. -/
theorem wrap_of_nonneg (w c : BitVec 32) (h : 0 ≤ w.toInt) :
    Scalar.select (IntOp.cmpi .slt w 0#32) (IntOp.addi w c) w = w := by
  have hb : IntOp.cmpi .slt w 0#32 = 0#1 := by
    unfold IntOp.cmpi
    have : w.slt 0#32 = false := by
      simp only [BitVec.slt, BitVec.toInt_zero, decide_eq_false_iff_not, not_lt]; exact h
    rw [this]; rfl
  rw [hb, select_zero]

/-- The column of wrapped feature words at row `n` is the feature word itself when that is not negative. -/
theorem feats_col (x0 : (⟨S50000, .i32⟩ : BufTy).Contents (Elt F)) (n : Fin 50000) (h : 0 ≤ (x0 (ix1 n)).toInt) :
    val_main_v5 (F := F) x0 (ix2 n (0 : Fin 1)) = x0 (ix1 n) := by
  have e : idx_main_v5 (ix2 n (0 : Fin 1)) = ix1 n := funext fun a => Fin.ext (by
    match a with
    | ⟨0, _⟩ => rfl)
  rw [val_main_v5_apply, e, val_main_v4_apply, val_main_v1_apply, val_main_v0_apply, val_main_c_apply]
  exact wrap_of_nonneg _ _ h

/-- Row `n` of the embedded features is the table's row at the node's feature word, for feature words in `[0, 100)`. -/
theorem emb_apply (x0 : (⟨S50000, .i32⟩ : BufTy).Contents (Elt F)) (x4 : (⟨S100x64, .f32⟩ : BufTy).Contents (Elt F))
    (hf : ∀ n : Fin 50000, 0 ≤ (x0 (ix1 n)).toInt ∧ (x0 (ix1 n)).toInt < 100) (n : Fin 50000) (j : Fin 64) :
    val_main_v6 (F := F) x0 x4 (ix2 n j)
      = x4 (ix2 (⟨(x0 (ix1 n)).toInt.toNat, by have := hf n; omega⟩ : Fin 100) j) := by
  unfold val_main_v6
  refine (Cert.LibScatterGather.gather_rows_apply _ rfl rfl rfl rfl rfl rfl rfl x4 (val_main_v5 (F := F) x0) n j
    (by decide)).trans ?_
  refine congrArg x4 (funext fun a => Fin.ext ?_)
  match a with
  | ⟨0, _⟩ =>
    show min (val_main_v5 (F := F) x0 (ix2 n (0 : Fin 1))).toInt.toNat (100 - 1) = (x0 (ix1 n)).toInt.toNat
    rw [feats_col x0 n (hf n).1]
    have := hf n
    omega
  | ⟨1, _⟩ => rfl

variable (x0 : (⟨S50000, .i32⟩ : BufTy).Contents (Elt Ideal)) (x1 x2 : (⟨S800000, .i32⟩ : BufTy).Contents (Elt Ideal)) (x3 : (⟨S50000, .i32⟩ : BufTy).Contents (Elt Ideal))
  (x4 : (⟨S100x64, .f32⟩ : BufTy).Contents (Elt Ideal)) (x5 : (⟨S3x64x64, .f32⟩ : BufTy).Contents (Elt Ideal)) (x6 : (⟨S3x64, .f32⟩ : BufTy).Contents (Elt Ideal))
  (x7 : (⟨S3x64x64, .f32⟩ : BufTy).Contents (Elt Ideal)) (x8 : (⟨S3x64, .f32⟩ : BufTy).Contents (Elt Ideal)) (x9 : (⟨S64x1, .f32⟩ : BufTy).Contents (Elt Ideal))

/-! ## One layer's dense part -/

/-- Entry `(n, j)` of a layer's perceptron applied to the rows `h + agg`: a first affine map by slab `L` of `W1`,
    `b1`, the rectifier, a second affine map by slab `L` of `W2`, `b2`. -/
def denseAt (h agg : (⟨S50000x64, .f32⟩ : BufTy).Contents (Elt Ideal)) (W1 : (⟨S3x64x64, .f32⟩ : BufTy).Contents (Elt Ideal)) (b1 : (⟨S3x64, .f32⟩ : BufTy).Contents (Elt Ideal))
    (W2 : (⟨S3x64x64, .f32⟩ : BufTy).Contents (Elt Ideal)) (b2 : (⟨S3x64, .f32⟩ : BufTy).Contents (Elt Ideal)) (L : Fin 3) (n : Fin 50000) (j : Fin 64) : EReal :=
  (∑ k : Fin 64, max ((∑ l : Fin 64, (h (ix2 n l) + agg (ix2 n l)) * W1 (ix3 L l k)) + b1 (ix2 L k)) 0 * W2 (ix3 L k j))
    + b2 (ix2 L j)

/-- The same as an array. -/
def denseVec (h agg : (⟨S50000x64, .f32⟩ : BufTy).Contents (Elt Ideal)) (W1 : (⟨S3x64x64, .f32⟩ : BufTy).Contents (Elt Ideal)) (b1 : (⟨S3x64, .f32⟩ : BufTy).Contents (Elt Ideal))
    (W2 : (⟨S3x64x64, .f32⟩ : BufTy).Contents (Elt Ideal)) (b2 : (⟨S3x64, .f32⟩ : BufTy).Contents (Elt Ideal)) (L : Fin 3) : (⟨S50000x64, .f32⟩ : BufTy).Contents (Elt Ideal) :=
  fun i => denseAt h agg W1 b1 W2 b2 L (i 0) (i 1)

theorem denseVec_apply (h agg : (⟨S50000x64, .f32⟩ : BufTy).Contents (Elt Ideal)) (W1 : (⟨S3x64x64, .f32⟩ : BufTy).Contents (Elt Ideal)) (b1 : (⟨S3x64, .f32⟩ : BufTy).Contents (Elt Ideal))
    (W2 : (⟨S3x64x64, .f32⟩ : BufTy).Contents (Elt Ideal)) (b2 : (⟨S3x64, .f32⟩ : BufTy).Contents (Elt Ideal)) (L : Fin 3) (n : Fin 50000) (j : Fin 64) :
    denseVec h agg W1 b1 W2 b2 L (ix2 n j) = denseAt h agg W1 b1 W2 b2 L n j := rfl

/-! ### Layer 0 -/

theorem W1_0 (l k : Fin 64) : val_main_v19 (F := Ideal) x5 (ix2 l k) = x5 (ix3 (0 : Fin 3) l k) := by
  rw [val_main_v19_apply, val_main_v18_apply]
  refine congrArg x5 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem W2_0 (l k : Fin 64) : val_main_v28 (F := Ideal) x7 (ix2 l k) = x7 (ix3 (0 : Fin 3) l k) := by
  rw [val_main_v28_apply, val_main_v27_apply]
  refine congrArg x7 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem b1_0 (n : Fin 50000) (k : Fin 64) : val_main_v24 (F := Ideal) x6 (ix2 n k) = x6 (ix2 (0 : Fin 3) k) := by
  rw [val_main_v24_apply, val_main_v23_apply, val_main_v22_apply, val_main_v21_apply]
  refine congrArg x6 (funext fun a => Fin.ext ?_)
  have hk := k.isLt
  match a with
  | ⟨0, _⟩ => rfl
  | ⟨1, _⟩ => show k.val % 64 = k.val; omega

theorem b2_0 (n : Fin 50000) (k : Fin 64) : val_main_v33 (F := Ideal) x8 (ix2 n k) = x8 (ix2 (0 : Fin 3) k) := by
  rw [val_main_v33_apply, val_main_v32_apply, val_main_v31_apply, val_main_v30_apply]
  refine congrArg x8 (funext fun a => Fin.ext ?_)
  have hk := k.isLt
  match a with
  | ⟨0, _⟩ => rfl
  | ⟨1, _⟩ => show k.val % 64 = k.val; omega

theorem zero_0 (i : S50000x64.Idx) : val_main_call0_v0 (F := Ideal) i = 0 := by
  rw [val_main_call0_v0_apply, val_main_call0_cst_apply, Ideal.ofBits_def, Ideal.ofBits_zero_f32]

theorem first_0 (n : Fin 50000) (k : Fin 64) :
    val_main_v20 (F := Ideal) x0 x1 x2 x4 x5 (ix2 n k)
      = ∑ l : Fin 64, (val_main_v6 (F := Ideal) x0 x4 (ix2 n l) + val_main_v16 (F := Ideal) x0 x1 x2 x4 (ix2 n l)) * x5 (ix3 (0 : Fin 3) l k) := by
  rw [val_main_v20_apply]
  refine Finset.sum_congr rfl fun l _ => ?_
  have el : lidx_main_v20 (ix2 n k) l = ix2 n l := funext fun a => Fin.ext (by
    match a with
    | ⟨0, _⟩ => rfl
    | ⟨1, _⟩ => rfl)
  have er : ridx_main_v20 (ix2 n k) l = ix2 l k := funext fun a => Fin.ext (by
    match a with
    | ⟨0, _⟩ => rfl
    | ⟨1, _⟩ => rfl)
  rw [el, er, W1_0, val_main_v17_apply]
  rfl

theorem hidden_0 (n : Fin 50000) (k : Fin 64) :
    val_main_v26 (F := Ideal) x0 x1 x2 x4 x5 x6 (ix2 n k)
      = max ((∑ l : Fin 64, (val_main_v6 (F := Ideal) x0 x4 (ix2 n l) + val_main_v16 (F := Ideal) x0 x1 x2 x4 (ix2 n l)) * x5 (ix3 (0 : Fin 3) l k)) + x6 (ix2 (0 : Fin 3) k)) 0 := by
  rw [val_main_v26_apply, val_main_v25_apply, zero_0, b1_0, first_0]
  rfl

theorem layer0_apply (n : Fin 50000) (j : Fin 64) :
    val_main_v34 (F := Ideal) x0 x1 x2 x4 x5 x6 x7 x8 (ix2 n j)
      = denseAt (val_main_v6 (F := Ideal) x0 x4) (val_main_v16 (F := Ideal) x0 x1 x2 x4) x5 x6 x7 x8 0 n j := by
  rw [val_main_v34_apply, val_main_v29_apply, b2_0]
  unfold denseAt
  refine congrArg (· + x8 (ix2 (0 : Fin 3) j)) (Finset.sum_congr rfl fun k _ => ?_)
  have el : lidx_main_v29 (ix2 n j) k = ix2 n k := funext fun a => Fin.ext (by
    match a with
    | ⟨0, _⟩ => rfl
    | ⟨1, _⟩ => rfl)
  have er : ridx_main_v29 (ix2 n j) k = ix2 k j := funext fun a => Fin.ext (by
    match a with
    | ⟨0, _⟩ => rfl
    | ⟨1, _⟩ => rfl)
  rw [el, er, W2_0, hidden_0]

theorem layer0_eq :
    val_main_v34 (F := Ideal) x0 x1 x2 x4 x5 x6 x7 x8
      = denseVec (val_main_v6 (F := Ideal) x0 x4) (val_main_v16 (F := Ideal) x0 x1 x2 x4) x5 x6 x7 x8 0 := by
  funext i
  obtain ⟨n, j, rfl⟩ : ∃ (n : Fin 50000) (j : Fin 64), i = ix2 n j := ⟨i 0, i 1, eq_ix2 i⟩
  exact layer0_apply x0 x1 x2 x4 x5 x6 x7 x8 n j

/-! ### Layer 1 -/

theorem W1_1 (l k : Fin 64) : val_main_v47 (F := Ideal) x5 (ix2 l k) = x5 (ix3 (1 : Fin 3) l k) := by
  rw [val_main_v47_apply, val_main_v46_apply]
  refine congrArg x5 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem W2_1 (l k : Fin 64) : val_main_v56 (F := Ideal) x7 (ix2 l k) = x7 (ix3 (1 : Fin 3) l k) := by
  rw [val_main_v56_apply, val_main_v55_apply]
  refine congrArg x7 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem b1_1 (n : Fin 50000) (k : Fin 64) : val_main_v52 (F := Ideal) x6 (ix2 n k) = x6 (ix2 (1 : Fin 3) k) := by
  rw [val_main_v52_apply, val_main_v51_apply, val_main_v50_apply, val_main_v49_apply]
  refine congrArg x6 (funext fun a => Fin.ext ?_)
  have hk := k.isLt
  match a with
  | ⟨0, _⟩ => rfl
  | ⟨1, _⟩ => show k.val % 64 = k.val; omega

theorem b2_1 (n : Fin 50000) (k : Fin 64) : val_main_v61 (F := Ideal) x8 (ix2 n k) = x8 (ix2 (1 : Fin 3) k) := by
  rw [val_main_v61_apply, val_main_v60_apply, val_main_v59_apply, val_main_v58_apply]
  refine congrArg x8 (funext fun a => Fin.ext ?_)
  have hk := k.isLt
  match a with
  | ⟨0, _⟩ => rfl
  | ⟨1, _⟩ => show k.val % 64 = k.val; omega

theorem zero_1 (i : S50000x64.Idx) : val_main_call1_v0 (F := Ideal) i = 0 := by
  rw [val_main_call1_v0_apply, val_main_call1_cst_apply, Ideal.ofBits_def, Ideal.ofBits_zero_f32]

theorem first_1 (n : Fin 50000) (k : Fin 64) :
    val_main_v48 (F := Ideal) x0 x1 x2 x4 x5 x6 x7 x8 (ix2 n k)
      = ∑ l : Fin 64, (val_main_v34 (F := Ideal) x0 x1 x2 x4 x5 x6 x7 x8 (ix2 n l) + val_main_v44 (F := Ideal) x0 x1 x2 x4 x5 x6 x7 x8 (ix2 n l)) * x5 (ix3 (1 : Fin 3) l k) := by
  rw [val_main_v48_apply]
  refine Finset.sum_congr rfl fun l _ => ?_
  have el : lidx_main_v48 (ix2 n k) l = ix2 n l := funext fun a => Fin.ext (by
    match a with
    | ⟨0, _⟩ => rfl
    | ⟨1, _⟩ => rfl)
  have er : ridx_main_v48 (ix2 n k) l = ix2 l k := funext fun a => Fin.ext (by
    match a with
    | ⟨0, _⟩ => rfl
    | ⟨1, _⟩ => rfl)
  rw [el, er, W1_1, val_main_v45_apply]
  rfl

theorem hidden_1 (n : Fin 50000) (k : Fin 64) :
    val_main_v54 (F := Ideal) x0 x1 x2 x4 x5 x6 x7 x8 (ix2 n k)
      = max ((∑ l : Fin 64, (val_main_v34 (F := Ideal) x0 x1 x2 x4 x5 x6 x7 x8 (ix2 n l) + val_main_v44 (F := Ideal) x0 x1 x2 x4 x5 x6 x7 x8 (ix2 n l)) * x5 (ix3 (1 : Fin 3) l k)) + x6 (ix2 (1 : Fin 3) k)) 0 := by
  rw [val_main_v54_apply, val_main_v53_apply, zero_1, b1_1, first_1]
  rfl

theorem layer1_apply (n : Fin 50000) (j : Fin 64) :
    val_main_v62 (F := Ideal) x0 x1 x2 x4 x5 x6 x7 x8 (ix2 n j)
      = denseAt (val_main_v34 (F := Ideal) x0 x1 x2 x4 x5 x6 x7 x8) (val_main_v44 (F := Ideal) x0 x1 x2 x4 x5 x6 x7 x8) x5 x6 x7 x8 1 n j := by
  rw [val_main_v62_apply, val_main_v57_apply, b2_1]
  unfold denseAt
  refine congrArg (· + x8 (ix2 (1 : Fin 3) j)) (Finset.sum_congr rfl fun k _ => ?_)
  have el : lidx_main_v57 (ix2 n j) k = ix2 n k := funext fun a => Fin.ext (by
    match a with
    | ⟨0, _⟩ => rfl
    | ⟨1, _⟩ => rfl)
  have er : ridx_main_v57 (ix2 n j) k = ix2 k j := funext fun a => Fin.ext (by
    match a with
    | ⟨0, _⟩ => rfl
    | ⟨1, _⟩ => rfl)
  rw [el, er, W2_1, hidden_1]

theorem layer1_eq :
    val_main_v62 (F := Ideal) x0 x1 x2 x4 x5 x6 x7 x8
      = denseVec (val_main_v34 (F := Ideal) x0 x1 x2 x4 x5 x6 x7 x8) (val_main_v44 (F := Ideal) x0 x1 x2 x4 x5 x6 x7 x8) x5 x6 x7 x8 1 := by
  funext i
  obtain ⟨n, j, rfl⟩ : ∃ (n : Fin 50000) (j : Fin 64), i = ix2 n j := ⟨i 0, i 1, eq_ix2 i⟩
  exact layer1_apply x0 x1 x2 x4 x5 x6 x7 x8 n j

/-! ### Layer 2 -/

theorem W1_2 (l k : Fin 64) : val_main_v75 (F := Ideal) x5 (ix2 l k) = x5 (ix3 (2 : Fin 3) l k) := by
  rw [val_main_v75_apply, val_main_v74_apply]
  refine congrArg x5 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem W2_2 (l k : Fin 64) : val_main_v84 (F := Ideal) x7 (ix2 l k) = x7 (ix3 (2 : Fin 3) l k) := by
  rw [val_main_v84_apply, val_main_v83_apply]
  refine congrArg x7 (funext fun a => Fin.ext ?_)
  have hl := l.isLt; have hk := k.isLt
  match a with
  | ⟨0, _⟩ => rfl
  | ⟨1, _⟩ => show (l.val * 64 + k.val) / 64 % 64 = l.val; omega
  | ⟨2, _⟩ => show (l.val * 64 + k.val) % 64 = k.val; omega

theorem b1_2 (n : Fin 50000) (k : Fin 64) : val_main_v80 (F := Ideal) x6 (ix2 n k) = x6 (ix2 (2 : Fin 3) k) := by
  rw [val_main_v80_apply, val_main_v79_apply, val_main_v78_apply, val_main_v77_apply]
  refine congrArg x6 (funext fun a => Fin.ext ?_)
  have hk := k.isLt
  match a with
  | ⟨0, _⟩ => rfl
  | ⟨1, _⟩ => show k.val % 64 = k.val; omega

theorem b2_2 (n : Fin 50000) (k : Fin 64) : val_main_v89 (F := Ideal) x8 (ix2 n k) = x8 (ix2 (2 : Fin 3) k) := by
  rw [val_main_v89_apply, val_main_v88_apply, val_main_v87_apply, val_main_v86_apply]
  refine congrArg x8 (funext fun a => Fin.ext ?_)
  have hk := k.isLt
  match a with
  | ⟨0, _⟩ => rfl
  | ⟨1, _⟩ => show k.val % 64 = k.val; omega

theorem zero_2 (i : S50000x64.Idx) : val_main_call2_v0 (F := Ideal) i = 0 := by
  rw [val_main_call2_v0_apply, val_main_call2_cst_apply, Ideal.ofBits_def, Ideal.ofBits_zero_f32]

theorem first_2 (n : Fin 50000) (k : Fin 64) :
    val_main_v76 (F := Ideal) x0 x1 x2 x4 x5 x6 x7 x8 (ix2 n k)
      = ∑ l : Fin 64, (val_main_v62 (F := Ideal) x0 x1 x2 x4 x5 x6 x7 x8 (ix2 n l) + val_main_v72 (F := Ideal) x0 x1 x2 x4 x5 x6 x7 x8 (ix2 n l)) * x5 (ix3 (2 : Fin 3) l k) := by
  rw [val_main_v76_apply]
  refine Finset.sum_congr rfl fun l _ => ?_
  have el : lidx_main_v76 (ix2 n k) l = ix2 n l := funext fun a => Fin.ext (by
    match a with
    | ⟨0, _⟩ => rfl
    | ⟨1, _⟩ => rfl)
  have er : ridx_main_v76 (ix2 n k) l = ix2 l k := funext fun a => Fin.ext (by
    match a with
    | ⟨0, _⟩ => rfl
    | ⟨1, _⟩ => rfl)
  rw [el, er, W1_2, val_main_v73_apply]
  rfl

theorem hidden_2 (n : Fin 50000) (k : Fin 64) :
    val_main_v82 (F := Ideal) x0 x1 x2 x4 x5 x6 x7 x8 (ix2 n k)
      = max ((∑ l : Fin 64, (val_main_v62 (F := Ideal) x0 x1 x2 x4 x5 x6 x7 x8 (ix2 n l) + val_main_v72 (F := Ideal) x0 x1 x2 x4 x5 x6 x7 x8 (ix2 n l)) * x5 (ix3 (2 : Fin 3) l k)) + x6 (ix2 (2 : Fin 3) k)) 0 := by
  rw [val_main_v82_apply, val_main_v81_apply, zero_2, b1_2, first_2]
  rfl

theorem layer2_apply (n : Fin 50000) (j : Fin 64) :
    val_main_v90 (F := Ideal) x0 x1 x2 x4 x5 x6 x7 x8 (ix2 n j)
      = denseAt (val_main_v62 (F := Ideal) x0 x1 x2 x4 x5 x6 x7 x8) (val_main_v72 (F := Ideal) x0 x1 x2 x4 x5 x6 x7 x8) x5 x6 x7 x8 2 n j := by
  rw [val_main_v90_apply, val_main_v85_apply, b2_2]
  unfold denseAt
  refine congrArg (· + x8 (ix2 (2 : Fin 3) j)) (Finset.sum_congr rfl fun k _ => ?_)
  have el : lidx_main_v85 (ix2 n j) k = ix2 n k := funext fun a => Fin.ext (by
    match a with
    | ⟨0, _⟩ => rfl
    | ⟨1, _⟩ => rfl)
  have er : ridx_main_v85 (ix2 n j) k = ix2 k j := funext fun a => Fin.ext (by
    match a with
    | ⟨0, _⟩ => rfl
    | ⟨1, _⟩ => rfl)
  rw [el, er, W2_2, hidden_2]

theorem layer2_eq :
    val_main_v90 (F := Ideal) x0 x1 x2 x4 x5 x6 x7 x8
      = denseVec (val_main_v62 (F := Ideal) x0 x1 x2 x4 x5 x6 x7 x8) (val_main_v72 (F := Ideal) x0 x1 x2 x4 x5 x6 x7 x8) x5 x6 x7 x8 2 := by
  funext i
  obtain ⟨n, j, rfl⟩ : ∃ (n : Fin 50000) (j : Fin 64), i = ix2 n j := ⟨i 0, i 1, eq_ix2 i⟩
  exact layer2_apply x0 x1 x2 x4 x5 x6 x7 x8 n j

/-! ## The per-graph sum and the head -/

/-- Entry `g` of the result: the rows of `h3` whose graph word is `g` summed, contracted with the column `Wr`. -/
def poolHeadAt (h3 : (⟨S50000x64, .f32⟩ : BufTy).Contents (Elt Ideal)) (gid : (⟨S50000, .i32⟩ : BufTy).Contents (Elt Ideal)) (Wr : (⟨S64x1, .f32⟩ : BufTy).Contents (Elt Ideal))
    (g : Fin 128) : EReal :=
  ∑ k : Fin 64, (∑ n : Fin 50000, if (gid (ix1 n)).toInt = (g.val : ℤ) then h3 (ix2 n k) else 0) * Wr (ix2 k (0 : Fin 1))

/-- The same as an array. -/
def poolHead (h3 : (⟨S50000x64, .f32⟩ : BufTy).Contents (Elt Ideal)) (gid : (⟨S50000, .i32⟩ : BufTy).Contents (Elt Ideal)) (Wr : (⟨S64x1, .f32⟩ : BufTy).Contents (Elt Ideal)) :
    (⟨S128x1, .f32⟩ : BufTy).Contents (Elt Ideal) :=
  fun i => poolHeadAt h3 gid Wr (i 0)

theorem poolHead_apply (h3 : (⟨S50000x64, .f32⟩ : BufTy).Contents (Elt Ideal)) (gid : (⟨S50000, .i32⟩ : BufTy).Contents (Elt Ideal)) (Wr : (⟨S64x1, .f32⟩ : BufTy).Contents (Elt Ideal))
    (g : Fin 128) : poolHead h3 gid Wr (ix2 g (0 : Fin 1)) = poolHeadAt h3 gid Wr g := rfl

/-- The rows summed per graph, read at one entry. -/
theorem pool_apply (g : Fin 128) (k : Fin 64) :
    val_main_v93 (F := Ideal) x0 x1 x2 x3 x4 x5 x6 x7 x8 (ix2 g k)
      = ∑ n : Fin 50000, if (x3 (ix1 n)).toInt = (g.val : ℤ)
          then val_main_v90 (F := Ideal) x0 x1 x2 x4 x5 x6 x7 x8 (ix2 n k) else 0 := by
  unfold val_main_v93
  refine (Cert.LibScatterGather.scatterAdd_rows_apply _ rfl rfl rfl rfl (val_main_v91 (F := Ideal))
    (val_main_v92 (F := Ideal) x3) (val_main_v90 (F := Ideal) x0 x1 x2 x4 x5 x6 x7 x8) g k).trans ?_
  rw [val_main_v91_apply, val_main_cst_9_apply, Ideal.ofBits_def, Ideal.ofBits_zero_f32, zero_add]
  refine Finset.sum_congr rfl fun n _ => ?_
  have e : idx_main_v92 (ix2 n (0 : Fin 1)) = ix1 n := funext fun a => Fin.ext (by
    match a with
    | ⟨0, _⟩ => rfl)
  rw [val_main_v92_apply, e]

theorem head_apply (g : Fin 128) :
    val_main_v94 (F := Ideal) x0 x1 x2 x3 x4 x5 x6 x7 x8 x9 (ix2 g (0 : Fin 1))
      = poolHeadAt (val_main_v90 (F := Ideal) x0 x1 x2 x4 x5 x6 x7 x8) x3 x9 g := by
  rw [val_main_v94_apply]
  unfold poolHeadAt
  refine Finset.sum_congr rfl fun k _ => ?_
  have el : lidx_main_v94 (ix2 g (0 : Fin 1)) k = ix2 g k := funext fun a => Fin.ext (by
    match a with
    | ⟨0, _⟩ => rfl
    | ⟨1, _⟩ => rfl)
  have er : ridx_main_v94 (ix2 g (0 : Fin 1)) k = ix2 k (0 : Fin 1) := funext fun a => Fin.ext (by
    match a with
    | ⟨0, _⟩ => rfl
    | ⟨1, _⟩ => rfl)
  rw [el, er, pool_apply]

theorem head_eq :
    val_main_v94 (F := Ideal) x0 x1 x2 x3 x4 x5 x6 x7 x8 x9
      = poolHead (val_main_v90 (F := Ideal) x0 x1 x2 x4 x5 x6 x7 x8) x3 x9 := by
  funext i
  obtain ⟨g, z, rfl⟩ : ∃ (g : Fin 128) (z : Fin 1), i = ix2 g z := ⟨i 0, i 1, eq_ix2 i⟩
  obtain rfl : z = 0 := Subsingleton.elim _ _
  exact head_apply x0 x1 x2 x3 x4 x5 x6 x7 x8 x9 g

/-! ## The whole network -/

/-- One layer: the neighbour sum, then the dense part at slab `L`. -/
def refLayer (src dst : (⟨S800000, .i32⟩ : BufTy).Contents (Elt Ideal)) (W1 : (⟨S3x64x64, .f32⟩ : BufTy).Contents (Elt Ideal)) (b1 : (⟨S3x64, .f32⟩ : BufTy).Contents (Elt Ideal))
    (W2 : (⟨S3x64x64, .f32⟩ : BufTy).Contents (Elt Ideal)) (b2 : (⟨S3x64, .f32⟩ : BufTy).Contents (Elt Ideal)) (L : Fin 3) (h : (⟨S50000x64, .f32⟩ : BufTy).Contents (Elt Ideal)) :
    (⟨S50000x64, .f32⟩ : BufTy).Contents (Elt Ideal) :=
  denseVec h (refAgg h src dst) W1 b1 W2 b2 L

/-- Three layers over the embedded rows `e`, the per-graph sum and the head. -/
def refNet (e : (⟨S50000x64, .f32⟩ : BufTy).Contents (Elt Ideal)) (src dst : (⟨S800000, .i32⟩ : BufTy).Contents (Elt Ideal)) (gid : (⟨S50000, .i32⟩ : BufTy).Contents (Elt Ideal))
    (W1 : (⟨S3x64x64, .f32⟩ : BufTy).Contents (Elt Ideal)) (b1 : (⟨S3x64, .f32⟩ : BufTy).Contents (Elt Ideal)) (W2 : (⟨S3x64x64, .f32⟩ : BufTy).Contents (Elt Ideal)) (b2 : (⟨S3x64, .f32⟩ : BufTy).Contents (Elt Ideal))
    (Wr : (⟨S64x1, .f32⟩ : BufTy).Contents (Elt Ideal)) : (⟨S128x1, .f32⟩ : BufTy).Contents (Elt Ideal) :=
  poolHead (refLayer src dst W1 b1 W2 b2 2 (refLayer src dst W1 b1 W2 b2 1 (refLayer src dst W1 b1 W2 b2 0 e))) gid Wr

/-- The reference's last stage is the network over its embedded rows. -/
theorem result_eq :
    val_main_v94 (F := Ideal) x0 x1 x2 x3 x4 x5 x6 x7 x8 x9
      = refNet (val_main_v6 (F := Ideal) x0 x4) x1 x2 x3 x5 x6 x7 x8 x9 := by
  unfold refNet refLayer
  rw [head_eq, layer2_eq, v72_eq, layer1_eq, v44_eq, layer0_eq, v16_eq]

/-- What the reference's run leaves in its result, as the network over the launch contents. -/
theorem run_result_eq (m : (ℓ : Loc nD τ sig) → Buf (Elt Ideal) ℓ) (c : Dev nD) :
    Cert.ReferenceIdeal.Value.res_main_v94 m c
      = refNet (val_main_v6 (F := Ideal) (m ((c.tc : Thread nD τ).loc main_arg0)) (m ((c.tc : Thread nD τ).loc main_arg4)))
          (m ((c.tc : Thread nD τ).loc main_arg1)) (m ((c.tc : Thread nD τ).loc main_arg2))
          (m ((c.tc : Thread nD τ).loc main_arg3)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [val_main_v94_eq]
  exact result_eq _ _ _ _ _ _ _ _ _ _

end Cert.RefRead

end
-- ==== Proof.KI.Chain0.lean ====
/- The embedding region's value. Node n = 5000 t + q is row q of grid point t; the region leaves there the product of
   the indicator row of the node's feature word with the table, which for a feature word in [0, 100) is the table's row
   at that word: the rows the reference gathers. -/
import proofs.«430897_j2645699854676_3_alg».proof.Proof.KI.Fold
import proofs.«430897_j2645699854676_3_alg».proof.Proof.KI.Rows0
import proofs.«430897_j2645699854676_3_alg».proof.Proof.KI.HostVals
import proofs.«430897_j2645699854676_3_alg».proof.Proof.Val.PayOneHot
import proofs.«430897_j2645699854676_3_alg».proof.Proof.Val.RefRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## Region 0's two inputs, in terms of the launch memory -/

/-- The feature word of node 5000 t + q, as the first window holds it at point t: the node features written as a column. -/
theorem feat0_word (c : Dev nD) (t : Fin cfg0.N) (q : Fin 5000) :
    (iblk0 (V1 m) c 0 t : Vec Ideal S5000x1 .i32) (ix2 q (0 : Fin 1))
      = (m ((c : Thread nD τ).loc main_arg0) : S50000.Idx → BitVec 32) (ix1 ⟨5000 * t.val + q.val, row0_lt t _ q.isLt⟩) := by
  rw [iblk0_0_apply]
  show (W1 m c (Proc.devRef .tc main_v0) : S50000x1.Idx → BitVec 32) (ix2 ⟨5000 * t.val + q.val, _⟩ (0 : Fin 1)) = _
  rw [show W1 m c (Proc.devRef .tc main_v0) = _ from after0_main_v0 (W0 m c)]
  exact column_apply _ _ _

/-- The table the second window holds at every point is the launch memory's. -/
theorem table0_eq (c : Dev nD) (t : Fin cfg0.N) :
    (iblk0 (V1 m) c 1 t : Vec Ideal S100x64 .f32) = (m ((c : Thread nD τ).loc main_arg4) : S100x64.Idx → EReal) := by
  rw [iblk0_1_eq]
  exact W1_of m c main_arg4 (by decide)

/-! ## The embedded rows -/

/-- After region 0 the node states are the reference's gathered rows of the table, for feature words in [0, 100). -/
theorem h0_eq (c : Dev nD)
    (hf : ∀ n : Fin 50000, 0 ≤ (m ((c : Thread nD τ).loc main_arg0) (ix1 n)).toInt ∧ (m ((c : Thread nD τ).loc main_arg0) (ix1 n)).toInt < 100) :
    (W2 m c (Proc.devRef .tc main_v1) : S50000x64.Idx → EReal)
      = Cert.ReferenceIdeal.Read.val_main_v6 (F := Ideal) (m ((c : Thread nD τ).loc main_arg0)) (m ((c : Thread nD τ).loc main_arg4)) := by
  funext i
  obtain ⟨n, j, rfl⟩ : ∃ (n : Fin 50000) (j : Fin 64), i = ix2 n j := ⟨i 0, i 1, eq_ix2 i⟩
  -- node n is row q of point t
  obtain ⟨t, q, rfl⟩ : ∃ (t : Fin cfg0.N) (q : Fin 5000), n = ⟨5000 * t.val + q.val, row0_lt t _ q.isLt⟩ :=
    ⟨⟨n.val / 5000, block0_lt _ n.isLt⟩, ⟨n.val % 5000, Nat.mod_lt _ (by decide)⟩,
      Fin.ext (by show n.val = 5000 * (n.val / 5000) + n.val % 5000; omega)⟩
  -- the reference's row: the table at the feature word
  refine Eq.trans ?_ (Cert.RefRead.emb_apply (F := Ideal) _ _ hf _ j).symm
  -- the region's row: what point t leaves at row q, the lookup payload
  refine (congrFun (W2_arr m c 2) _).trans ?_
  refine (arr0_rows (V1 m) c t q j).trans ?_
  rw [out0_2_eq]
  have hn := hf ⟨5000 * t.val + q.val, row0_lt t _ q.isLt⟩
  refine (Cert.Val.pay0_row _ _ q j ⟨(m ((c : Thread nD τ).loc main_arg0) (ix1 ⟨5000 * t.val + q.val, row0_lt t _ q.isLt⟩)).toInt.toNat, by omega⟩ ?_).trans ?_
  · rw [feat0_word]
    exact (Int.toNat_of_nonneg hn.1).symm
  · rw [table0_eq]

end Cert.KernelIdeal.Hand

end
-- ==== Proof.KI.Rows1.lean ====
/- Region 1, from blocks to the array. The grid's point t reads rows 5000 t … 5000 t + 4999 of the two row-blocked arrays and the
   whole of the four weight and bias arrays, and writes rows 5000 t … 5000 t + 4999 of the output; the ten blocks tile the
   50000 rows, so row r of the output array is row r % 5000 of what point r / 5000 leaves, and the input arrays are left as found. -/
import proofs.«430897_j2645699854676_3_alg».proof.Proof.KI.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 1: blocks of 5000 rows, block t at rows 5000 t … 5000 t + 4999 -/

theorem zero_off2_1 : (![0, 0] : Fin 2 → Nat) = fun _ => 0 := funext fun a => by fin_cases a <;> rfl

/-- The printed index maps over the grid: the row-blocked windows are at block (t, 0), the whole-array ones at block (0, 0). -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem point1_lt (t : Fin cfg1.N) : t.val < 10 := lt_of_lt_of_eq t.isLt N_1

/-- Row q of block t is a row of the array. -/
theorem row1_lt (t : Fin cfg1.N) (n : Nat) (hn : n < 5000) : 5000 * t.val + n < 50000 := by
  have := point1_lt t; omega

/-- The block a row is in is a point of the grid. -/
theorem block1_lt (n : Nat) (hn : n < 50000) : n / 5000 < cfg1.N :=
  lt_of_lt_of_eq (show n / 5000 < 10 by omega) N_1.symm

/-- Window 0's block at point t is rows 5000 t … of its array. -/
theorem iblk1_0_apply (c : Dev nD) (t : Fin cfg1.N) (y : S5000x64.Idx) :
    (iblk1 V c 0 t : Vec F S5000x64 .f32) y
      = (V c main_v1 : S50000x64.Idx → Elt F .f32) (ix2 ⟨5000 * t.val + (y 0).val, row1_lt t _ (idx2_lt0 y)⟩ (y 1)) := by
  obtain ⟨e00, e01, e10, e11, e60, e61, e20, e21, e30, e31, e40, e41, e50, e51⟩ := index1 t
  unfold iblk1
  rw [View.read_apply]
  show V c main_v1 _ = V c main_v1 _
  congr 1
  funext a
  apply Fin.ext
  match a with
  | ⟨0, _⟩ => show win1_0.index t (0 : Fin 2) * 5000 + 1 * (y 0).val = 5000 * t.val + (y 0).val; rw [e00]; omega
  | ⟨1, _⟩ => show win1_0.index t (1 : Fin 2) * 64 + 1 * (y 1).val = (y 1).val; rw [e01]; omega

/-- Window 1's block at point t is rows 5000 t … of its array. -/
theorem iblk1_1_apply (c : Dev nD) (t : Fin cfg1.N) (y : S5000x64.Idx) :
    (iblk1 V c 1 t : Vec F S5000x64 .f32) y
      = (V c main_v11 : S50000x64.Idx → Elt F .f32) (ix2 ⟨5000 * t.val + (y 0).val, row1_lt t _ (idx2_lt0 y)⟩ (y 1)) := by
  obtain ⟨e00, e01, e10, e11, e60, e61, e20, e21, e30, e31, e40, e41, e50, e51⟩ := index1 t
  unfold iblk1
  rw [View.read_apply]
  show V c main_v11 _ = V c main_v11 _
  congr 1
  funext a
  apply Fin.ext
  match a with
  | ⟨0, _⟩ => show win1_1.index t (0 : Fin 2) * 5000 + 1 * (y 0).val = 5000 * t.val + (y 0).val; rw [e10]; omega
  | ⟨1, _⟩ => show win1_1.index t (1 : Fin 2) * 64 + 1 * (y 1).val = (y 1).val; rw [e11]; omega

/-- Window 2's block at every point is its whole array. -/
theorem iblk1_2_eq (c : Dev nD) (t : Fin cfg1.N) :
    (iblk1 V c 2 t : Vec F S64x64 .f32) = (V c main_v13 : S64x64.Idx → Elt F .f32) := by
  obtain ⟨e00, e01, e10, e11, e60, e61, e20, e21, e30, e31, e40, e41, e50, e51⟩ := index1 t
  funext y
  unfold iblk1
  rw [View.read_apply]
  show V c main_v13 _ = V c main_v13 _
  congr 1
  funext a
  apply Fin.ext
  match a with
  | ⟨0, _⟩ => show win1_2.index t (0 : Fin 2) * 64 + 1 * (y 0).val = (y 0).val; rw [e20]; omega
  | ⟨1, _⟩ => show win1_2.index t (1 : Fin 2) * 64 + 1 * (y 1).val = (y 1).val; rw [e21]; omega

/-- Window 3's block at every point is its whole array. -/
theorem iblk1_3_eq (c : Dev nD) (t : Fin cfg1.N) :
    (iblk1 V c 3 t : Vec F S1x64 .f32) = (V c main_v20 : S1x64.Idx → Elt F .f32) := by
  obtain ⟨e00, e01, e10, e11, e60, e61, e20, e21, e30, e31, e40, e41, e50, e51⟩ := index1 t
  funext y
  unfold iblk1
  rw [View.read_apply]
  show V c main_v20 _ = V c main_v20 _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- Window 4's block at every point is its whole array. -/
theorem iblk1_4_eq (c : Dev nD) (t : Fin cfg1.N) :
    (iblk1 V c 4 t : Vec F S64x64 .f32) = (V c main_v17 : S64x64.Idx → Elt F .f32) := by
  obtain ⟨e00, e01, e10, e11, e60, e61, e20, e21, e30, e31, e40, e41, e50, e51⟩ := index1 t
  funext y
  unfold iblk1
  rw [View.read_apply]
  show V c main_v17 _ = V c main_v17 _
  congr 1
  funext a
  apply Fin.ext
  match a with
  | ⟨0, _⟩ => show win1_4.index t (0 : Fin 2) * 64 + 1 * (y 0).val = (y 0).val; rw [e40]; omega
  | ⟨1, _⟩ => show win1_4.index t (1 : Fin 2) * 64 + 1 * (y 1).val = (y 1).val; rw [e41]; omega

/-- Window 5's block at every point is its whole array. -/
theorem iblk1_5_eq (c : Dev nD) (t : Fin cfg1.N) :
    (iblk1 V c 5 t : Vec F S1x64 .f32) = (V c main_v21 : S1x64.Idx → Elt F .f32) := by
  obtain ⟨e00, e01, e10, e11, e60, e61, e20, e21, e30, e31, e40, e41, e50, e51⟩ := index1 t
  funext y
  unfold iblk1
  rw [View.read_apply]
  show V c main_v21 _ = V c main_v21 _
  congr 1
  funext a
  apply Fin.ext
  match a with
  | ⟨0, _⟩ => show win1_5.index t (0 : Fin 2) * 1 + 1 * (y 0).val = (y 0).val; rw [e50]; omega
  | ⟨1, _⟩ => show win1_5.index t (1 : Fin 2) * 64 + 1 * (y 1).val = (y 1).val; rw [e51]; omega

/-- The one store covers the block and the loads are of whole buffers: the block after the body is the payload. -/
theorem out1_6_eq (x0 : Vec F S5000x64 .f32) (x1 : Vec F S5000x64 .f32) (x2 : Vec F S64x64 .f32) (x3 : Vec F S1x64 .f32) (x4 : Vec F S64x64 .f32) (x5 : Vec F S1x64 .f32) :
    out1_6 x0 x1 x2 x3 x4 x5 = k1_pay1 x0 x1 x2 x3 x4 x5 := by
  unfold out1_6
  rw [View.canon_unit_zero zero_off2_1]
  simp only [View.ld_unit_zero (S := S5000x64) zero_off2_1, View.ld_unit_zero (S := S64x64) zero_off2_1, View.ld_unit_zero (S := S1x64) zero_off2_1]

/-- What point t leaves in the output block. -/
def rows1 (c : Dev nD) (t : Fin cfg1.N) : Vec F S5000x64 .f32 :=
  out1_6 (iblk1 V c 0 t) (iblk1 V c 1 t) (iblk1 V c 2 t) (iblk1 V c 3 t) (iblk1 V c 4 t) (iblk1 V c 5 t)

/-- The output array, row by row: row r is row r % 5000 of what point r / 5000 leaves. -/
def whole1 (c : Dev nD) : S50000x64.Idx → Elt F .f32 := fun i =>
  rows1 V c ⟨(i 0).val / 5000, block1_lt _ (idx2_lt0 i)⟩ (ix2 ⟨(i 0).val % 5000, Nat.mod_lt _ (by decide)⟩ (i 1))

theorem whole1_apply (c : Dev nD) (t : Fin cfg1.N) (y : S5000x64.Idx) (i : S50000x64.Idx)
    (h0 : (i 0).val = 5000 * t.val + (y 0).val) (h1 : (i 1).val = (y 1).val) : whole1 V c i = rows1 V c t y := by
  have hy : (y 0).val < 5000 := idx2_lt0 y
  unfold whole1
  have et : (⟨(i 0).val / 5000, block1_lt _ (idx2_lt0 i)⟩ : Fin cfg1.N) = t := Fin.ext (by show (i 0).val / 5000 = t.val; omega)
  have ey : (ix2 ⟨(i 0).val % 5000, Nat.mod_lt _ (by decide)⟩ (i 1) : S5000x64.Idx) = y := by
    funext a
    apply Fin.ext
    match a with
    | ⟨0, _⟩ => show (i 0).val % 5000 = (y 0).val; omega
    | ⟨1, _⟩ => show (i 1).val = (y 1).val; exact h1
  rw [et, ey]

/-- Block t of that array, read where the block sits, is what point t leaves. -/
theorem whole1_blk (c : Dev nD) (t : Fin cfg1.N) (y : S5000x64.Idx) :
    whole1 V c (((cfg1.win 6).blk t).view.emb y) = rows1 V c t y := by
  obtain ⟨e00, e01, e10, e11, e60, e61, e20, e21, e30, e31, e40, e41, e50, e51⟩ := index1 t
  refine whole1_apply V c t y _ ?_ ?_
  · show win1_6.index t (0 : Fin 2) * 5000 + 1 * (y 0).val = 5000 * t.val + (y 0).val; rw [e60]; omega
  · show win1_6.index t (1 : Fin 2) * 64 + 1 * (y 1).val = (y 1).val; rw [e61]; omega

/-- An uncut block is written back whole. -/
theorem cut1_6 (t : Fin cfg1.N) (X : Vec F S5000x64 .f32) : (cfg1.win 6).cut (grid1.coords t) X = X := rfl

/-- What point t writes back is block t of that array. -/
theorem flushed1_6_eq (c : Dev nD) (t : Fin cfg1.N) :
    (dat1 V c).flushed 6 t = ((cfg1.win 6).blk t).view.read (Elt F) (whole1 V c) := by
  show (cfg1.win 6).cut (grid1.coords t) ((dat1 V c).after 6 t) = _
  rw [after1_6, cut1_6]
  funext y
  rw [View.read_apply, cast_eq, whole1_blk]
  rfl

/-- A row of the array is in point t's block iff each coordinate is in the block's range on its axis. -/
theorem mem_blk1_6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v22).slice (win1_6.rect t)).set ↔ _
  rw [View.set_slice_whole, Rect.mem_set_unit]
  exact Iff.rfl

/-- The point that covers row r is r / 5000. -/
theorem cover1_6_rows (i : S50000x64.Idx) : ∃ t : Fin cfg1.N, (cfg1.win 6).flush t = true ∧ i ∈ ((cfg1.win 6).blk t).view.set := by
  have hi0 : (i 0).val < 50000 := idx2_lt0 i
  have hi1 : (i 1).val < 64 := idx2_lt1 i
  refine ⟨⟨(i 0).val / 5000, block1_lt _ hi0⟩, flush1_6 _, ?_⟩
  obtain ⟨-, -, -, -, e0, e1, -⟩ := index1 ⟨(i 0).val / 5000, block1_lt _ hi0⟩
  rw [mem_blk1_6]
  intro a
  match a with
  | ⟨0, _⟩ => show win1_6.index _ (0 : Fin 2) * 5000 ≤ (i 0).val ∧ (i 0).val < win1_6.index _ (0 : Fin 2) * 5000 + 5000; rw [e0]; show (i 0).val / 5000 * 5000 ≤ (i 0).val ∧ (i 0).val < (i 0).val / 5000 * 5000 + 5000; omega
  | ⟨1, _⟩ => show win1_6.index _ (1 : Fin 2) * 64 ≤ (i 1).val ∧ (i 1).val < win1_6.index _ (1 : Fin 2) * 64 + 64; rw [e1]; omega

/-- The output array after the region. -/
theorem arr1_whole (c : Dev nD) : (dat1 V c).arrAt 6 cfg1.N = whole1 V c :=
  (dat1 V c).arrAt_eq_of_cover 6 (whole1 V c) (fun t _ => flushed1_6_eq V c t) cover1_6_rows

/-- Row 5000 t + q of the output array is row q of what point t leaves. -/
theorem arr1_rows (c : Dev nD) (t : Fin cfg1.N) (q : Fin 5000) (j : Fin 64) :
    ((dat1 V c).arrAt 6 cfg1.N : S50000x64.Idx → Elt F .f32) (ix2 ⟨5000 * t.val + q.val, row1_lt t _ q.isLt⟩ j)
      = out1_6 (iblk1 V c 0 t) (iblk1 V c 1 t) (iblk1 V c 2 t) (iblk1 V c 3 t) (iblk1 V c 4 t) (iblk1 V c 5 t) (ix2 q j) := by
  rw [arr1_whole]
  exact whole1_apply V c t (ix2 q j) _ rfl rfl

/-- Every input array is left as the region found it. -/
theorem arr1_in (c : Dev nD) (w : Fin cfg1.W) (hw : w ≠ 6) : (dat1 V c).arrAt w cfg1.N = (dat1 V c).A w :=
  match w, hw with
  | ⟨0, _⟩, _ => (dat1 V c).arrAt_in 0 rfl _
  | ⟨1, _⟩, _ => (dat1 V c).arrAt_in 1 rfl _
  | ⟨2, _⟩, _ => (dat1 V c).arrAt_in 2 rfl _
  | ⟨3, _⟩, _ => (dat1 V c).arrAt_in 3 rfl _
  | ⟨4, _⟩, _ => (dat1 V c).arrAt_in 4 rfl _
  | ⟨5, _⟩, _ => (dat1 V c).arrAt_in 5 rfl _
  | ⟨6, _⟩, hw => absurd rfl hw

end Cert.KernelIdeal.Hand

end
-- ==== Proof.KI.Rows2.lean ====
/- Region 2, from blocks to the array. The grid's point t reads rows 5000 t … 5000 t + 4999 of the two row-blocked arrays and the
   whole of the four weight and bias arrays, and writes rows 5000 t … 5000 t + 4999 of the output; the ten blocks tile the
   50000 rows, so row r of the output array is row r % 5000 of what point r / 5000 leaves, and the input arrays are left as found. -/
import proofs.«430897_j2645699854676_3_alg».proof.Proof.KI.Reg2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 2: blocks of 5000 rows, block t at rows 5000 t … 5000 t + 4999 -/

theorem zero_off2_2 : (![0, 0] : Fin 2 → Nat) = fun _ => 0 := funext fun a => by fin_cases a <;> rfl

/-- The printed index maps over the grid: the row-blocked windows are at block (t, 0), the whole-array ones at block (0, 0). -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem point2_lt (t : Fin cfg2.N) : t.val < 10 := lt_of_lt_of_eq t.isLt N_2

/-- Row q of block t is a row of the array. -/
theorem row2_lt (t : Fin cfg2.N) (n : Nat) (hn : n < 5000) : 5000 * t.val + n < 50000 := by
  have := point2_lt t; omega

/-- The block a row is in is a point of the grid. -/
theorem block2_lt (n : Nat) (hn : n < 50000) : n / 5000 < cfg2.N :=
  lt_of_lt_of_eq (show n / 5000 < 10 by omega) N_2.symm

/-- Window 0's block at point t is rows 5000 t … of its array. -/
theorem iblk2_0_apply (c : Dev nD) (t : Fin cfg2.N) (y : S5000x64.Idx) :
    (iblk2 V c 0 t : Vec F S5000x64 .f32) y
      = (V c main_v22 : S50000x64.Idx → Elt F .f32) (ix2 ⟨5000 * t.val + (y 0).val, row2_lt t _ (idx2_lt0 y)⟩ (y 1)) := by
  obtain ⟨e00, e01, e10, e11, e60, e61, e20, e21, e30, e31, e40, e41, e50, e51⟩ := index2 t
  unfold iblk2
  rw [View.read_apply]
  show V c main_v22 _ = V c main_v22 _
  congr 1
  funext a
  apply Fin.ext
  match a with
  | ⟨0, _⟩ => show win2_0.index t (0 : Fin 2) * 5000 + 1 * (y 0).val = 5000 * t.val + (y 0).val; rw [e00]; omega
  | ⟨1, _⟩ => show win2_0.index t (1 : Fin 2) * 64 + 1 * (y 1).val = (y 1).val; rw [e01]; omega

/-- Window 1's block at point t is rows 5000 t … of its array. -/
theorem iblk2_1_apply (c : Dev nD) (t : Fin cfg2.N) (y : S5000x64.Idx) :
    (iblk2 V c 1 t : Vec F S5000x64 .f32) y
      = (V c main_v32 : S50000x64.Idx → Elt F .f32) (ix2 ⟨5000 * t.val + (y 0).val, row2_lt t _ (idx2_lt0 y)⟩ (y 1)) := by
  obtain ⟨e00, e01, e10, e11, e60, e61, e20, e21, e30, e31, e40, e41, e50, e51⟩ := index2 t
  unfold iblk2
  rw [View.read_apply]
  show V c main_v32 _ = V c main_v32 _
  congr 1
  funext a
  apply Fin.ext
  match a with
  | ⟨0, _⟩ => show win2_1.index t (0 : Fin 2) * 5000 + 1 * (y 0).val = 5000 * t.val + (y 0).val; rw [e10]; omega
  | ⟨1, _⟩ => show win2_1.index t (1 : Fin 2) * 64 + 1 * (y 1).val = (y 1).val; rw [e11]; omega

/-- Window 2's block at every point is its whole array. -/
theorem iblk2_2_eq (c : Dev nD) (t : Fin cfg2.N) :
    (iblk2 V c 2 t : Vec F S64x64 .f32) = (V c main_v34 : S64x64.Idx → Elt F .f32) := by
  obtain ⟨e00, e01, e10, e11, e60, e61, e20, e21, e30, e31, e40, e41, e50, e51⟩ := index2 t
  funext y
  unfold iblk2
  rw [View.read_apply]
  show V c main_v34 _ = V c main_v34 _
  congr 1
  funext a
  apply Fin.ext
  match a with
  | ⟨0, _⟩ => show win2_2.index t (0 : Fin 2) * 64 + 1 * (y 0).val = (y 0).val; rw [e20]; omega
  | ⟨1, _⟩ => show win2_2.index t (1 : Fin 2) * 64 + 1 * (y 1).val = (y 1).val; rw [e21]; omega

/-- Window 3's block at every point is its whole array. -/
theorem iblk2_3_eq (c : Dev nD) (t : Fin cfg2.N) :
    (iblk2 V c 3 t : Vec F S1x64 .f32) = (V c main_v41 : S1x64.Idx → Elt F .f32) := by
  obtain ⟨e00, e01, e10, e11, e60, e61, e20, e21, e30, e31, e40, e41, e50, e51⟩ := index2 t
  funext y
  unfold iblk2
  rw [View.read_apply]
  show V c main_v41 _ = V c main_v41 _
  congr 1
  funext a
  apply Fin.ext
  match a with
  | ⟨0, _⟩ => show win2_3.index t (0 : Fin 2) * 1 + 1 * (y 0).val = (y 0).val; rw [e30]; omega
  | ⟨1, _⟩ => show win2_3.index t (1 : Fin 2) * 64 + 1 * (y 1).val = (y 1).val; rw [e31]; omega

/-- Window 4's block at every point is its whole array. -/
theorem iblk2_4_eq (c : Dev nD) (t : Fin cfg2.N) :
    (iblk2 V c 4 t : Vec F S64x64 .f32) = (V c main_v38 : S64x64.Idx → Elt F .f32) := by
  obtain ⟨e00, e01, e10, e11, e60, e61, e20, e21, e30, e31, e40, e41, e50, e51⟩ := index2 t
  funext y
  unfold iblk2
  rw [View.read_apply]
  show V c main_v38 _ = V c main_v38 _
  congr 1
  funext a
  apply Fin.ext
  match a with
  | ⟨0, _⟩ => show win2_4.index t (0 : Fin 2) * 64 + 1 * (y 0).val = (y 0).val; rw [e40]; omega
  | ⟨1, _⟩ => show win2_4.index t (1 : Fin 2) * 64 + 1 * (y 1).val = (y 1).val; rw [e41]; omega

/-- Window 5's block at every point is its whole array. -/
theorem iblk2_5_eq (c : Dev nD) (t : Fin cfg2.N) :
    (iblk2 V c 5 t : Vec F S1x64 .f32) = (V c main_v42 : S1x64.Idx → Elt F .f32) := by
  obtain ⟨e00, e01, e10, e11, e60, e61, e20, e21, e30, e31, e40, e41, e50, e51⟩ := index2 t
  funext y
  unfold iblk2
  rw [View.read_apply]
  show V c main_v42 _ = V c main_v42 _
  congr 1
  funext a
  apply Fin.ext
  match a with
  | ⟨0, _⟩ => show win2_5.index t (0 : Fin 2) * 1 + 1 * (y 0).val = (y 0).val; rw [e50]; omega
  | ⟨1, _⟩ => show win2_5.index t (1 : Fin 2) * 64 + 1 * (y 1).val = (y 1).val; rw [e51]; omega

/-- The one store covers the block and the loads are of whole buffers: the block after the body is the payload. -/
theorem out2_6_eq (x0 : Vec F S5000x64 .f32) (x1 : Vec F S5000x64 .f32) (x2 : Vec F S64x64 .f32) (x3 : Vec F S1x64 .f32) (x4 : Vec F S64x64 .f32) (x5 : Vec F S1x64 .f32) :
    out2_6 x0 x1 x2 x3 x4 x5 = k2_pay1 x0 x1 x2 x3 x4 x5 := by
  unfold out2_6
  rw [View.canon_unit_zero zero_off2_2]
  simp only [View.ld_unit_zero (S := S5000x64) zero_off2_2, View.ld_unit_zero (S := S64x64) zero_off2_2, View.ld_unit_zero (S := S1x64) zero_off2_2]

/-- What point t leaves in the output block. -/
def rows2 (c : Dev nD) (t : Fin cfg2.N) : Vec F S5000x64 .f32 :=
  out2_6 (iblk2 V c 0 t) (iblk2 V c 1 t) (iblk2 V c 2 t) (iblk2 V c 3 t) (iblk2 V c 4 t) (iblk2 V c 5 t)

/-- The output array, row by row: row r is row r % 5000 of what point r / 5000 leaves. -/
def whole2 (c : Dev nD) : S50000x64.Idx → Elt F .f32 := fun i =>
  rows2 V c ⟨(i 0).val / 5000, block2_lt _ (idx2_lt0 i)⟩ (ix2 ⟨(i 0).val % 5000, Nat.mod_lt _ (by decide)⟩ (i 1))

theorem whole2_apply (c : Dev nD) (t : Fin cfg2.N) (y : S5000x64.Idx) (i : S50000x64.Idx)
    (h0 : (i 0).val = 5000 * t.val + (y 0).val) (h1 : (i 1).val = (y 1).val) : whole2 V c i = rows2 V c t y := by
  have hy : (y 0).val < 5000 := idx2_lt0 y
  unfold whole2
  have et : (⟨(i 0).val / 5000, block2_lt _ (idx2_lt0 i)⟩ : Fin cfg2.N) = t := Fin.ext (by show (i 0).val / 5000 = t.val; omega)
  have ey : (ix2 ⟨(i 0).val % 5000, Nat.mod_lt _ (by decide)⟩ (i 1) : S5000x64.Idx) = y := by
    funext a
    apply Fin.ext
    match a with
    | ⟨0, _⟩ => show (i 0).val % 5000 = (y 0).val; omega
    | ⟨1, _⟩ => show (i 1).val = (y 1).val; exact h1
  rw [et, ey]

/-- Block t of that array, read where the block sits, is what point t leaves. -/
theorem whole2_blk (c : Dev nD) (t : Fin cfg2.N) (y : S5000x64.Idx) :
    whole2 V c (((cfg2.win 6).blk t).view.emb y) = rows2 V c t y := by
  obtain ⟨e00, e01, e10, e11, e60, e61, e20, e21, e30, e31, e40, e41, e50, e51⟩ := index2 t
  refine whole2_apply V c t y _ ?_ ?_
  · show win2_6.index t (0 : Fin 2) * 5000 + 1 * (y 0).val = 5000 * t.val + (y 0).val; rw [e60]; omega
  · show win2_6.index t (1 : Fin 2) * 64 + 1 * (y 1).val = (y 1).val; rw [e61]; omega

/-- An uncut block is written back whole. -/
theorem cut2_6 (t : Fin cfg2.N) (X : Vec F S5000x64 .f32) : (cfg2.win 6).cut (grid2.coords t) X = X := rfl

/-- What point t writes back is block t of that array. -/
theorem flushed2_6_eq (c : Dev nD) (t : Fin cfg2.N) :
    (dat2 V c).flushed 6 t = ((cfg2.win 6).blk t).view.read (Elt F) (whole2 V c) := by
  show (cfg2.win 6).cut (grid2.coords t) ((dat2 V c).after 6 t) = _
  rw [after2_6, cut2_6]
  funext y
  rw [View.read_apply, cast_eq, whole2_blk]
  rfl

/-- A row of the array is in point t's block iff each coordinate is in the block's range on its axis. -/
theorem mem_blk2_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v43).slice (win2_6.rect t)).set ↔ _
  rw [View.set_slice_whole, Rect.mem_set_unit]
  exact Iff.rfl

/-- The point that covers row r is r / 5000. -/
theorem cover2_6_rows (i : S50000x64.Idx) : ∃ t : Fin cfg2.N, (cfg2.win 6).flush t = true ∧ i ∈ ((cfg2.win 6).blk t).view.set := by
  have hi0 : (i 0).val < 50000 := idx2_lt0 i
  have hi1 : (i 1).val < 64 := idx2_lt1 i
  refine ⟨⟨(i 0).val / 5000, block2_lt _ hi0⟩, flush2_6 _, ?_⟩
  obtain ⟨-, -, -, -, e0, e1, -⟩ := index2 ⟨(i 0).val / 5000, block2_lt _ hi0⟩
  rw [mem_blk2_6]
  intro a
  match a with
  | ⟨0, _⟩ => show win2_6.index _ (0 : Fin 2) * 5000 ≤ (i 0).val ∧ (i 0).val < win2_6.index _ (0 : Fin 2) * 5000 + 5000; rw [e0]; show (i 0).val / 5000 * 5000 ≤ (i 0).val ∧ (i 0).val < (i 0).val / 5000 * 5000 + 5000; omega
  | ⟨1, _⟩ => show win2_6.index _ (1 : Fin 2) * 64 ≤ (i 1).val ∧ (i 1).val < win2_6.index _ (1 : Fin 2) * 64 + 64; rw [e1]; omega

/-- The output array after the region. -/
theorem arr2_whole (c : Dev nD) : (dat2 V c).arrAt 6 cfg2.N = whole2 V c :=
  (dat2 V c).arrAt_eq_of_cover 6 (whole2 V c) (fun t _ => flushed2_6_eq V c t) cover2_6_rows

/-- Row 5000 t + q of the output array is row q of what point t leaves. -/
theorem arr2_rows (c : Dev nD) (t : Fin cfg2.N) (q : Fin 5000) (j : Fin 64) :
    ((dat2 V c).arrAt 6 cfg2.N : S50000x64.Idx → Elt F .f32) (ix2 ⟨5000 * t.val + q.val, row2_lt t _ q.isLt⟩ j)
      = out2_6 (iblk2 V c 0 t) (iblk2 V c 1 t) (iblk2 V c 2 t) (iblk2 V c 3 t) (iblk2 V c 4 t) (iblk2 V c 5 t) (ix2 q j) := by
  rw [arr2_whole]
  exact whole2_apply V c t (ix2 q j) _ rfl rfl

/-- Every input array is left as the region found it. -/
theorem arr2_in (c : Dev nD) (w : Fin cfg2.W) (hw : w ≠ 6) : (dat2 V c).arrAt w cfg2.N = (dat2 V c).A w :=
  match w, hw with
  | ⟨0, _⟩, _ => (dat2 V c).arrAt_in 0 rfl _
  | ⟨1, _⟩, _ => (dat2 V c).arrAt_in 1 rfl _
  | ⟨2, _⟩, _ => (dat2 V c).arrAt_in 2 rfl _
  | ⟨3, _⟩, _ => (dat2 V c).arrAt_in 3 rfl _
  | ⟨4, _⟩, _ => (dat2 V c).arrAt_in 4 rfl _
  | ⟨5, _⟩, _ => (dat2 V c).arrAt_in 5 rfl _
  | ⟨6, _⟩, hw => absurd rfl hw

end Cert.KernelIdeal.Hand

end
-- ==== Proof.KI.AggEq.lean ====
/-
  The neighbourhood sum the kernel program's host stretches compute is the reference program's: the two are one term
  over the same shapes and the same gather and scatter dimension records.
-/
import proofs.«430897_j2645699854676_3_alg».proof.Proof.KI.HostVals
import proofs.«430897_j2645699854676_3_alg».proof.Proof.Val.RefRead

noncomputable section

namespace Cert.KernelIdeal.Hand

open Cert.KernelIdeal Cert.KernelIdeal.Gen
open Idealize.ShloMosaic

variable {F : FTy → Type} [FloatOps F]

/-- The kernel program's neighbourhood sum is the reference's. -/
theorem aggK_eq_refAgg (h : FVec F S50000x64 .f32) (src dst : IVec S800000 32) :
    aggK h src dst = Cert.RefRead.refAgg (F := F) h src dst := rfl

end Cert.KernelIdeal.Hand

end
-- ==== Proof.Val.PayMlp.lean ====
/-
  The dense part of a graph-isomorphism layer read at one entry. At the ideal values the layer's stored value at row q,
  column j is  ∑_k max(∑_l (h[q,l] + a[q,l]) · w1[l,k] + b1[0,k], 0) · w2[k,j] + b2[0,j] : the narrowing format changes are
  the identity, each matrix product into the zero accumulator is the plain sum over the contracted axis, and each bias
  row is spread over the rows.
-/
import proofs.«430897_j2645699854676_3_alg».proof.Proof.Gen.KernelIdeal.Skeleton
import proofs.«430897_j2645699854676_3_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Val

open Cert.KernelIdeal Cert.KernelIdeal.Gen Idealize.ShloMosaic Idealize.ShloMosaic.ValueIdx

variable [Cert.KernelIdeal.Facts]

/-- A row vector spread over the rows reads, at row q and column k, its entry in column k. -/
theorem bias_apply (b : Vec Ideal S1x64 .f32) (hb : S1x64.Broadcasts S5000x64) (q : Fin 5000) (k : Fin 64) :
    broadcastTo S5000x64 b hb (ix2 q k) = b (ix2 (0 : Fin 1) k) := by
  refine broadcastTo_apply b hb (ix2 q k) (ix2 (0 : Fin 1) k) (fun a => ?_)
  match a with
  | ⟨0, _⟩ => rfl
  | ⟨1, _⟩ => rfl

/-- The first layer's stored value at (q, j): the two-stage product with the rectifier between, plus the biases. -/
theorem pay1_apply (h a : Vec Ideal S5000x64 .f32) (w1 : Vec Ideal S64x64 .f32) (b1 : Vec Ideal S1x64 .f32)
    (w2 : Vec Ideal S64x64 .f32) (b2 : Vec Ideal S1x64 .f32) (q : Fin 5000) (j : Fin 64) :
    k1_pay1 (F := Ideal) h a w1 b1 w2 b2 (ix2 q j)
      = (∑ k : Fin 64, max ((∑ l : Fin 64, (h (ix2 q l) + a (ix2 q l)) * w1 (ix2 l k)) + b1 (ix2 (0 : Fin 1) k)) 0 * w2 (ix2 k j))
          + b2 (ix2 (0 : Fin 1) j) := by
  unfold k1_pay1
  simp only [shapeCast_self, matmul]
  rw [addf_apply, bias_apply]
  rw [Cert.LibPlainDot.matmul_zero_eq_matProd (M := 5000) (K := 64) (N := 64) dot_S5000x64_S64x64_S5000x64_1_0_0_1_n_n rfl rfl rfl rfl rfl rfl none]
  rw [Cert.LibPlainDot.matProd_ix2]
  refine congrArg (· + b2 (ix2 (0 : Fin 1) j)) (Finset.sum_congr rfl fun k _ => ?_)
  rw [truncf_apply, truncf_apply, maximumf_apply, addf_apply, bias_apply, broadcast_apply,
    Cert.LibPlainDot.matmul_zero_eq_matProd (M := 5000) (K := 64) (N := 64) dot_S5000x64_S64x64_S5000x64_1_0_0_1_n_n rfl rfl rfl rfl rfl rfl none,
    Cert.LibPlainDot.matProd_ix2, Ideal.ofBits_def, Ideal.ofBits_zero_f32]
  rfl

/-- The second layer is the same function of its loads as the first. -/
theorem pay2_eq : @k2_pay1 = @k1_pay1 := rfl

/-- The second layer's stored value at (q, j). -/
theorem pay2_apply (h a : Vec Ideal S5000x64 .f32) (w1 : Vec Ideal S64x64 .f32) (b1 : Vec Ideal S1x64 .f32)
    (w2 : Vec Ideal S64x64 .f32) (b2 : Vec Ideal S1x64 .f32) (q : Fin 5000) (j : Fin 64) :
    k2_pay1 (F := Ideal) h a w1 b1 w2 b2 (ix2 q j)
      = (∑ k : Fin 64, max ((∑ l : Fin 64, (h (ix2 q l) + a (ix2 q l)) * w1 (ix2 l k)) + b1 (ix2 (0 : Fin 1) k)) 0 * w2 (ix2 k j))
          + b2 (ix2 (0 : Fin 1) j) := by
  rw [pay2_eq]
  exact pay1_apply h a w1 b1 w2 b2 q j

end Cert.Val

end
-- ==== Proof.KI.Chain12.lean ====
/-
  The two plain layers of the network, from the kernel regions' write-backs to the reference's layer: what region 1 leaves
  in its output array is the reference's first layer of what region 0 left, and what region 2 leaves is the second layer
  of that.
-/
import proofs.«430897_j2645699854676_3_alg».proof.Proof.KI.Fold
import proofs.«430897_j2645699854676_3_alg».proof.Proof.KI.Rows1
import proofs.«430897_j2645699854676_3_alg».proof.Proof.KI.Rows2
import proofs.«430897_j2645699854676_3_alg».proof.Proof.KI.HostVals
import proofs.«430897_j2645699854676_3_alg».proof.Proof.KI.AggEq
import proofs.«430897_j2645699854676_3_alg».proof.Proof.Val.PayMlp
import proofs.«430897_j2645699854676_3_alg».proof.Proof.Val.RefRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The layer's stored value at one entry of a block is the reference's dense part at the corresponding entry of the
    array, once each block entry is the corresponding array entry. -/
theorem dense_entry1 (h agg : S50000x64.Idx → EReal) (W1 : S3x64x64.Idx → EReal) (B1 : S3x64.Idx → EReal)
    (W2 : S3x64x64.Idx → EReal) (B2 : S3x64.Idx → EReal)
    (hb ab : Vec Ideal S5000x64 .f32) (w1 : Vec Ideal S64x64 .f32) (b1 : Vec Ideal S1x64 .f32)
    (w2 : Vec Ideal S64x64 .f32) (b2 : Vec Ideal S1x64 .f32) (L : Fin 3) (n : Fin 50000) (q : Fin 5000) (j : Fin 64)
    (hh : ∀ l : Fin 64, hb (ix2 q l) = h (ix2 n l)) (ha : ∀ l : Fin 64, ab (ix2 q l) = agg (ix2 n l))
    (hw1 : ∀ l k : Fin 64, w1 (ix2 l k) = W1 (ix3 L l k)) (hb1 : ∀ k : Fin 64, b1 (ix2 (0 : Fin 1) k) = B1 (ix2 L k))
    (hw2 : ∀ l k : Fin 64, w2 (ix2 l k) = W2 (ix3 L l k)) (hb2 : ∀ k : Fin 64, b2 (ix2 (0 : Fin 1) k) = B2 (ix2 L k)) :
    k1_pay1 (F := Ideal) hb ab w1 b1 w2 b2 (ix2 q j) = Cert.RefRead.denseAt h agg W1 B1 W2 B2 L n j := by
  rw [Cert.Val.pay1_apply]
  unfold Cert.RefRead.denseAt
  simp only [hh, ha, hw1, hb1, hw2, hb2]

/-- The layer's stored value at one entry of a block is the reference's dense part at the corresponding entry of the
    array, once each block entry is the corresponding array entry. -/
theorem dense_entry2 (h agg : S50000x64.Idx → EReal) (W1 : S3x64x64.Idx → EReal) (B1 : S3x64.Idx → EReal)
    (W2 : S3x64x64.Idx → EReal) (B2 : S3x64.Idx → EReal)
    (hb ab : Vec Ideal S5000x64 .f32) (w1 : Vec Ideal S64x64 .f32) (b1 : Vec Ideal S1x64 .f32)
    (w2 : Vec Ideal S64x64 .f32) (b2 : Vec Ideal S1x64 .f32) (L : Fin 3) (n : Fin 50000) (q : Fin 5000) (j : Fin 64)
    (hh : ∀ l : Fin 64, hb (ix2 q l) = h (ix2 n l)) (ha : ∀ l : Fin 64, ab (ix2 q l) = agg (ix2 n l))
    (hw1 : ∀ l k : Fin 64, w1 (ix2 l k) = W1 (ix3 L l k)) (hb1 : ∀ k : Fin 64, b1 (ix2 (0 : Fin 1) k) = B1 (ix2 L k))
    (hw2 : ∀ l k : Fin 64, w2 (ix2 l k) = W2 (ix3 L l k)) (hb2 : ∀ k : Fin 64, b2 (ix2 (0 : Fin 1) k) = B2 (ix2 L k)) :
    k2_pay1 (F := Ideal) hb ab w1 b1 w2 b2 (ix2 q j) = Cert.RefRead.denseAt h agg W1 B1 W2 B2 L n j := by
  rw [Cert.Val.pay2_apply]
  unfold Cert.RefRead.denseAt
  simp only [hh, ha, hw1, hb1, hw2, hb2]

variable (m : (ℓ : Loc nD τ sig) → Buf (Elt Ideal) ℓ)

/-- An argument that the first stretch does not write and region 0 does not hold reaches region 1's stretch as launched. -/
theorem W2_arg (c : Dev nD) (b : Ref sig .tc) (h0 : b ∉ hostOps0_W) (n0 : ∀ w, Pipeline.arrRef spec0 w ≠ b) :
    W2 m c (Proc.devRef .tc b) = m ((c : Thread nD τ).loc b) :=
  (W2_of_ne m c b n0).trans (W1_of m c b h0)

/-- The same up to region 2's stretch. -/
theorem W4_arg (c : Dev nD) (b : Ref sig .tc) (h0 : b ∉ hostOps0_W) (n0 : ∀ w, Pipeline.arrRef spec0 w ≠ b)
    (h1 : b ∉ hostOps1_W) (n1 : ∀ w, Pipeline.arrRef spec1 w ≠ b) :
    W4 m c (Proc.devRef .tc b) = m ((c : Thread nD τ).loc b) :=
  (W4_of_ne m c b n1).trans ((W3_of m c b h1).trans (W2_arg m c b h0 n0))

/-! ## Region 1 -/

/-- The node states region 1 reads are what the region before left. -/
theorem in1_h (c : Dev nD) : W3 m c (Proc.devRef .tc main_v1) = W2 m c (Proc.devRef .tc main_v1) :=
  after1_main_v1 (W2 m c)

/-- The neighbour sums region 1 reads are the reference's of those states. -/
theorem in1_agg (c : Dev nD) :
    W3 m c (Proc.devRef .tc main_v11) = (Cert.RefRead.refAgg (F := Ideal) (W2 m c (Proc.devRef .tc main_v1)) (m ((c : Thread nD τ).loc main_arg1)) (m ((c : Thread nD τ).loc main_arg2))) := by
  refine (after1_main_v11 (W2 m c)).trans ?_
  rw [W2_arg m c main_arg1 (by decide) (by decide), W2_arg m c main_arg2 (by decide) (by decide)]
  exact aggK_eq_refAgg (F := Ideal) _ _ _

/-- The first weight matrix region 1 reads is slab 0 of the stack. -/
theorem in1_w1 (c : Dev nD) (l k : Fin 64) :
    (W3 m c (Proc.devRef .tc main_v13) : S64x64.Idx → EReal) (ix2 l k)
      = (m ((c : Thread nD τ).loc main_arg5) : S3x64x64.Idx → EReal) (ix3 (0 : Fin 3) l k) := by
  refine (congrFun (after1_main_v13 (W2 m c)) (ix2 l k)).trans ?_
  refine (wslice_apply 0 (by decide) _ _ _ l k).trans ?_
  exact congrFun (W2_arg m c main_arg5 (by decide) (by decide)) _

/-- The first bias row region 1 reads is row 0 of the stack. -/
theorem in1_b1 (c : Dev nD) (k : Fin 64) :
    (W3 m c (Proc.devRef .tc main_v20) : S1x64.Idx → EReal) (ix2 (0 : Fin 1) k)
      = (m ((c : Thread nD τ).loc main_arg6) : S3x64.Idx → EReal) (ix2 (0 : Fin 3) k) := by
  refine (congrFun (after1_main_v20 (W2 m c)) (ix2 (0 : Fin 1) k)).trans ?_
  refine (bslice_apply 0 (by decide) _ _ _ _ k).trans ?_
  exact congrFun (W2_arg m c main_arg6 (by decide) (by decide)) _

/-- The second weight matrix region 1 reads is slab 0 of the stack. -/
theorem in1_w2 (c : Dev nD) (l k : Fin 64) :
    (W3 m c (Proc.devRef .tc main_v17) : S64x64.Idx → EReal) (ix2 l k)
      = (m ((c : Thread nD τ).loc main_arg7) : S3x64x64.Idx → EReal) (ix3 (0 : Fin 3) l k) := by
  refine (congrFun (after1_main_v17 (W2 m c)) (ix2 l k)).trans ?_
  refine (wslice_apply 0 (by decide) _ _ _ l k).trans ?_
  exact congrFun (W2_arg m c main_arg7 (by decide) (by decide)) _

/-- The second bias row region 1 reads is row 0 of the stack. -/
theorem in1_b2 (c : Dev nD) (k : Fin 64) :
    (W3 m c (Proc.devRef .tc main_v21) : S1x64.Idx → EReal) (ix2 (0 : Fin 1) k)
      = (m ((c : Thread nD τ).loc main_arg8) : S3x64.Idx → EReal) (ix2 (0 : Fin 3) k) := by
  refine (congrFun (after1_main_v21 (W2 m c)) (ix2 (0 : Fin 1) k)).trans ?_
  refine (bslice_apply 0 (by decide) _ _ _ _ k).trans ?_
  exact congrFun (W2_arg m c main_arg8 (by decide) (by decide)) _

/-- Row 5000 t + q of region 1's output array is the reference's dense part there. -/
theorem layer1_row (c : Dev nD) (t : Fin cfg1.N) (q : Fin 5000) (j : Fin 64) :
    (W4 m c (Proc.devRef .tc main_v22) : S50000x64.Idx → EReal) (ix2 ⟨5000 * t.val + q.val, row1_lt t _ q.isLt⟩ j)
      = Cert.RefRead.denseAt (W2 m c (Proc.devRef .tc main_v1)) (Cert.RefRead.refAgg (F := Ideal) (W2 m c (Proc.devRef .tc main_v1)) (m ((c : Thread nD τ).loc main_arg1)) (m ((c : Thread nD τ).loc main_arg2)))
          (m ((c : Thread nD τ).loc main_arg5)) (m ((c : Thread nD τ).loc main_arg6)) (m ((c : Thread nD τ).loc main_arg7)) (m ((c : Thread nD τ).loc main_arg8))
          0 ⟨5000 * t.val + q.val, row1_lt t _ q.isLt⟩ j := by
  refine (congrFun (W4_arr m c 6) _).trans ?_
  refine (arr1_rows (V3 m) c t q j).trans ?_
  rw [out1_6_eq]
  refine dense_entry1 (W2 m c (Proc.devRef .tc main_v1)) (Cert.RefRead.refAgg (F := Ideal) (W2 m c (Proc.devRef .tc main_v1)) (m ((c : Thread nD τ).loc main_arg1)) (m ((c : Thread nD τ).loc main_arg2)))
    (m ((c : Thread nD τ).loc main_arg5)) (m ((c : Thread nD τ).loc main_arg6)) (m ((c : Thread nD τ).loc main_arg7)) (m ((c : Thread nD τ).loc main_arg8))
    (iblk1 (V3 m) c 0 t) (iblk1 (V3 m) c 1 t) (iblk1 (V3 m) c 2 t) (iblk1 (V3 m) c 3 t)
    (iblk1 (V3 m) c 4 t) (iblk1 (V3 m) c 5 t) 0 ⟨5000 * t.val + q.val, row1_lt t _ q.isLt⟩ q j ?_ ?_ ?_ ?_ ?_ ?_
  · intro l
    refine (iblk1_0_apply (V3 m) c t (ix2 q l)).trans ?_
    exact congrFun (in1_h m c) _
  · intro l
    refine (iblk1_1_apply (V3 m) c t (ix2 q l)).trans ?_
    exact congrFun (in1_agg m c) _
  · intro l k
    rw [iblk1_2_eq]
    exact in1_w1 m c l k
  · intro k
    rw [iblk1_3_eq]
    exact in1_b1 m c k
  · intro l k
    rw [iblk1_4_eq]
    exact in1_w2 m c l k
  · intro k
    rw [iblk1_5_eq]
    exact in1_b2 m c k

/-- Region 1's output array is the reference's layer 0 of the states it was entered with. -/
theorem h1_eq (c : Dev nD) :
    (W4 m c (Proc.devRef .tc main_v22) : S50000x64.Idx → EReal)
      = Cert.RefRead.refLayer (m ((c : Thread nD τ).loc main_arg1)) (m ((c : Thread nD τ).loc main_arg2)) (m ((c : Thread nD τ).loc main_arg5)) (m ((c : Thread nD τ).loc main_arg6))
          (m ((c : Thread nD τ).loc main_arg7)) (m ((c : Thread nD τ).loc main_arg8)) 0 (W2 m c (Proc.devRef .tc main_v1)) := by
  funext i
  obtain ⟨n, j, rfl⟩ : ∃ (n : Fin 50000) (j : Fin 64), i = ix2 n j := ⟨i 0, i 1, eq_ix2 i⟩
  have hn := n.isLt
  have en : n = ⟨5000 * (⟨n.val / 5000, block1_lt _ hn⟩ : Fin cfg1.N).val
      + (⟨n.val % 5000, Nat.mod_lt _ (by decide)⟩ : Fin 5000).val,
      row1_lt ⟨n.val / 5000, block1_lt _ hn⟩ _ (Nat.mod_lt _ (by decide))⟩ :=
    Fin.ext (by show n.val = 5000 * (n.val / 5000) + n.val % 5000; omega)
  rw [en]
  exact layer1_row m c ⟨n.val / 5000, block1_lt _ hn⟩ ⟨n.val % 5000, Nat.mod_lt _ (by decide)⟩ j

/-! ## Region 2 -/

/-- The node states region 2 reads are what the region before left. -/
theorem in2_h (c : Dev nD) : W5 m c (Proc.devRef .tc main_v22) = W4 m c (Proc.devRef .tc main_v22) :=
  after2_main_v22 (W4 m c)

/-- The neighbour sums region 2 reads are the reference's of those states. -/
theorem in2_agg (c : Dev nD) :
    W5 m c (Proc.devRef .tc main_v32) = (Cert.RefRead.refAgg (F := Ideal) (W4 m c (Proc.devRef .tc main_v22)) (m ((c : Thread nD τ).loc main_arg1)) (m ((c : Thread nD τ).loc main_arg2))) := by
  refine (after2_main_v32 (W4 m c)).trans ?_
  rw [W4_arg m c main_arg1 (by decide) (by decide) (by decide) (by decide), W4_arg m c main_arg2 (by decide) (by decide) (by decide) (by decide)]
  exact aggK_eq_refAgg (F := Ideal) _ _ _

/-- The first weight matrix region 2 reads is slab 1 of the stack. -/
theorem in2_w1 (c : Dev nD) (l k : Fin 64) :
    (W5 m c (Proc.devRef .tc main_v34) : S64x64.Idx → EReal) (ix2 l k)
      = (m ((c : Thread nD τ).loc main_arg5) : S3x64x64.Idx → EReal) (ix3 (1 : Fin 3) l k) := by
  refine (congrFun (after2_main_v34 (W4 m c)) (ix2 l k)).trans ?_
  refine (wslice_apply 1 (by decide) _ _ _ l k).trans ?_
  exact congrFun (W4_arg m c main_arg5 (by decide) (by decide) (by decide) (by decide)) _

/-- The first bias row region 2 reads is row 1 of the stack. -/
theorem in2_b1 (c : Dev nD) (k : Fin 64) :
    (W5 m c (Proc.devRef .tc main_v41) : S1x64.Idx → EReal) (ix2 (0 : Fin 1) k)
      = (m ((c : Thread nD τ).loc main_arg6) : S3x64.Idx → EReal) (ix2 (1 : Fin 3) k) := by
  refine (congrFun (after2_main_v41 (W4 m c)) (ix2 (0 : Fin 1) k)).trans ?_
  refine (bslice_apply 1 (by decide) _ _ _ _ k).trans ?_
  exact congrFun (W4_arg m c main_arg6 (by decide) (by decide) (by decide) (by decide)) _

/-- The second weight matrix region 2 reads is slab 1 of the stack. -/
theorem in2_w2 (c : Dev nD) (l k : Fin 64) :
    (W5 m c (Proc.devRef .tc main_v38) : S64x64.Idx → EReal) (ix2 l k)
      = (m ((c : Thread nD τ).loc main_arg7) : S3x64x64.Idx → EReal) (ix3 (1 : Fin 3) l k) := by
  refine (congrFun (after2_main_v38 (W4 m c)) (ix2 l k)).trans ?_
  refine (wslice_apply 1 (by decide) _ _ _ l k).trans ?_
  exact congrFun (W4_arg m c main_arg7 (by decide) (by decide) (by decide) (by decide)) _

/-- The second bias row region 2 reads is row 1 of the stack. -/
theorem in2_b2 (c : Dev nD) (k : Fin 64) :
    (W5 m c (Proc.devRef .tc main_v42) : S1x64.Idx → EReal) (ix2 (0 : Fin 1) k)
      = (m ((c : Thread nD τ).loc main_arg8) : S3x64.Idx → EReal) (ix2 (1 : Fin 3) k) := by
  refine (congrFun (after2_main_v42 (W4 m c)) (ix2 (0 : Fin 1) k)).trans ?_
  refine (bslice_apply 1 (by decide) _ _ _ _ k).trans ?_
  exact congrFun (W4_arg m c main_arg8 (by decide) (by decide) (by decide) (by decide)) _

/-- Row 5000 t + q of region 2's output array is the reference's dense part there. -/
theorem layer2_row (c : Dev nD) (t : Fin cfg2.N) (q : Fin 5000) (j : Fin 64) :
    (W6 m c (Proc.devRef .tc main_v43) : S50000x64.Idx → EReal) (ix2 ⟨5000 * t.val + q.val, row2_lt t _ q.isLt⟩ j)
      = Cert.RefRead.denseAt (W4 m c (Proc.devRef .tc main_v22)) (Cert.RefRead.refAgg (F := Ideal) (W4 m c (Proc.devRef .tc main_v22)) (m ((c : Thread nD τ).loc main_arg1)) (m ((c : Thread nD τ).loc main_arg2)))
          (m ((c : Thread nD τ).loc main_arg5)) (m ((c : Thread nD τ).loc main_arg6)) (m ((c : Thread nD τ).loc main_arg7)) (m ((c : Thread nD τ).loc main_arg8))
          1 ⟨5000 * t.val + q.val, row2_lt t _ q.isLt⟩ j := by
  refine (congrFun (W6_arr m c 6) _).trans ?_
  refine (arr2_rows (V5 m) c t q j).trans ?_
  rw [out2_6_eq]
  refine dense_entry2 (W4 m c (Proc.devRef .tc main_v22)) (Cert.RefRead.refAgg (F := Ideal) (W4 m c (Proc.devRef .tc main_v22)) (m ((c : Thread nD τ).loc main_arg1)) (m ((c : Thread nD τ).loc main_arg2)))
    (m ((c : Thread nD τ).loc main_arg5)) (m ((c : Thread nD τ).loc main_arg6)) (m ((c : Thread nD τ).loc main_arg7)) (m ((c : Thread nD τ).loc main_arg8))
    (iblk2 (V5 m) c 0 t) (iblk2 (V5 m) c 1 t) (iblk2 (V5 m) c 2 t) (iblk2 (V5 m) c 3 t)
    (iblk2 (V5 m) c 4 t) (iblk2 (V5 m) c 5 t) 1 ⟨5000 * t.val + q.val, row2_lt t _ q.isLt⟩ q j ?_ ?_ ?_ ?_ ?_ ?_
  · intro l
    refine (iblk2_0_apply (V5 m) c t (ix2 q l)).trans ?_
    exact congrFun (in2_h m c) _
  · intro l
    refine (iblk2_1_apply (V5 m) c t (ix2 q l)).trans ?_
    exact congrFun (in2_agg m c) _
  · intro l k
    rw [iblk2_2_eq]
    exact in2_w1 m c l k
  · intro k
    rw [iblk2_3_eq]
    exact in2_b1 m c k
  · intro l k
    rw [iblk2_4_eq]
    exact in2_w2 m c l k
  · intro k
    rw [iblk2_5_eq]
    exact in2_b2 m c k

/-- Region 2's output array is the reference's layer 1 of the states it was entered with. -/
theorem h2_eq (c : Dev nD) :
    (W6 m c (Proc.devRef .tc main_v43) : S50000x64.Idx → EReal)
      = Cert.RefRead.refLayer (m ((c : Thread nD τ).loc main_arg1)) (m ((c : Thread nD τ).loc main_arg2)) (m ((c : Thread nD τ).loc main_arg5)) (m ((c : Thread nD τ).loc main_arg6))
          (m ((c : Thread nD τ).loc main_arg7)) (m ((c : Thread nD τ).loc main_arg8)) 1 (W4 m c (Proc.devRef .tc main_v22)) := by
  funext i
  obtain ⟨n, j, rfl⟩ : ∃ (n : Fin 50000) (j : Fin 64), i = ix2 n j := ⟨i 0, i 1, eq_ix2 i⟩
  have hn := n.isLt
  have en : n = ⟨5000 * (⟨n.val / 5000, block2_lt _ hn⟩ : Fin cfg2.N).val
      + (⟨n.val % 5000, Nat.mod_lt _ (by decide)⟩ : Fin 5000).val,
      row2_lt ⟨n.val / 5000, block2_lt _ hn⟩ _ (Nat.mod_lt _ (by decide))⟩ :=
    Fin.ext (by show n.val = 5000 * (n.val / 5000) + n.val % 5000; omega)
  rw [en]
  exact layer2_row m c ⟨n.val / 5000, block2_lt _ hn⟩ ⟨n.val % 5000, Nat.mod_lt _ (by decide)⟩ j

end Cert.KernelIdeal.Hand

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.Val.PoolSums.lean ====
/-
  Sums met by the pooling region. The carried accumulator after n + 1 grid points is the sum of the n + 1 pooled
  blocks; ten blocks of 5000 rows are the 50000 rows; and an indicator factor selects its term.
-/
import proofs.«430897_j2645699854676_3_alg».proof.Proof.Val.PayOneHot
import proofs.«430897_j2645699854676_3_alg».proof.Proof.LibIdxSums
import Mathlib.Algebra.BigOperators.Fin
import Mathlib.Algebra.BigOperators.Intervals

noncomputable section

open scoped BigOperators

namespace Cert.Val

open Cert.KernelIdeal Cert.KernelIdeal.Gen Idealize.ShloMosaic Idealize.ShloMosaic.ValueIdx

/-! ## The carried accumulator is the running sum -/

/-- Reset to zero before the first block and increased by each block's contribution, the accumulator after point n
    holds the sum of the contributions of points 0 … n. -/
theorem acc_sum (contrib : ℕ → FVec Ideal S128x64 .f32) (acc : ℕ → Vec Ideal S128x64 .f32)
    (h0 : acc 0 = k3_pay1 (F := Ideal) (contrib 0) (k3_pay3 (F := Ideal)))
    (hs : ∀ n, acc (n + 1) = k3_pay1 (F := Ideal) (contrib (n + 1)) (acc n)) (n : ℕ) (i : S128x64.Idx) :
    acc n i = ∑ s ∈ Finset.range (n + 1), contrib s i := by
  induction n with
  | zero =>
    show acc 0 i = ∑ s ∈ Finset.range 1, contrib s i
    rw [h0, acc_step_apply, acc_init_apply, zero_add, Finset.sum_range_one]
  | succ n ih =>
    rw [hs n, acc_step_apply, ih, Finset.sum_range_succ _ (n + 1)]

/-! ## Ten blocks of 5000 rows are the 50000 rows -/

theorem sum_blocks (f : Fin 50000 → EReal) :
    ∑ t : Fin 10, ∑ q : Fin 5000, f ⟨5000 * t.val + q.val, by omega⟩ = ∑ n : Fin 50000, f n := by
  refine ((IdxSums.sum_fin_mul 10 5000 f).trans ?_).symm
  refine Finset.sum_congr rfl fun t _ => Finset.sum_congr rfl fun q _ => congrArg f (Fin.ext ?_)
  show t.val * 5000 + q.val = 5000 * t.val + q.val
  omega

/-- A sum over the first ten naturals is the sum over the ten grid points. -/
theorem sum_range_ten {M : Type*} [AddCommMonoid M] (g : ℕ → M) : ∑ s ∈ Finset.range 10, g s = ∑ t : Fin 10, g t.val :=
  Finset.sum_range g

/-! ## The indicator factor as a selection -/

theorem onehot_mul (w : BitVec 32) (g : Fin 128) (x : EReal) :
    (if w = BitVec.ofNat 32 g.val then (1 : EReal) else 0) * x = if w.toInt = (g.val : ℤ) then x else 0 := by
  have hg : (BitVec.ofNat 32 g.val).toInt = (g.val : ℤ) := toInt_ofNat_small g.val (by have := g.isLt; omega)
  by_cases h : w = BitVec.ofNat 32 g.val
  · rw [if_pos h, one_mul, if_pos (h ▸ hg)]
  · have h' : ¬ w.toInt = (g.val : ℤ) := fun e => h (BitVec.eq_of_toInt_eq (e.trans hg.symm))
    rw [if_neg h, zero_mul, if_neg h']

end Cert.Val

end
-- ==== Proof.Val.PoolChain.lean ====
/-
  The pooled head of a layer, from the blocks. Ten row blocks of a node array and of its neighbour sum, a layer's
  weights and biases, the graph words of the rows and the readout row: when the accumulator holds the sum over the
  blocks of the pooling product of the layer's output, its rows weighted by the readout row and summed are the
  per-graph sums of the layer's output over all 50000 nodes contracted with the readout column.
-/
import proofs.«430897_j2645699854676_3_alg».proof.Proof.Val.PayOneHot
import proofs.«430897_j2645699854676_3_alg».proof.Proof.Val.PayMlp
import proofs.«430897_j2645699854676_3_alg».proof.Proof.Val.PoolSums
import proofs.«430897_j2645699854676_3_alg».proof.Proof.Val.RefRead

noncomputable section

open scoped BigOperators

namespace Cert.Val

open Cert.KernelIdeal Cert.KernelIdeal.Gen Idealize.ShloMosaic Idealize.ShloMosaic.ValueIdx

section Chain
variable (H A : Vec Ideal S50000x64 .f32) (W1 : Vec Ideal S3x64x64 .f32) (B1 : Vec Ideal S3x64 .f32)
  (W2 : Vec Ideal S3x64x64 .f32) (B2 : Vec Ideal S3x64 .f32) (gid : Vec Ideal S50000 .i32) (Wr : Vec Ideal S64x1 .f32)
  (L : Fin 3)
  (hb ab : Fin 10 → Vec Ideal S5000x64 .f32) (w1b : Fin 10 → Vec Ideal S64x64 .f32) (b1b : Fin 10 → Vec Ideal S1x64 .f32)
  (w2b : Fin 10 → Vec Ideal S64x64 .f32) (b2b : Fin 10 → Vec Ideal S1x64 .f32) (gb : Fin 10 → Vec Ideal S5000x1 .i32)
  (wr : Vec Ideal S1x64 .f32)

/-- The layer's output on block t at (q, j) is the layer's dense part at node 5000 t + q. -/
theorem dense_block
    (hH : ∀ (t : Fin 10) (q : Fin 5000) (l : Fin 64) (hn : 5000 * t.val + q.val < 50000), hb t (ix2 q l) = H (ix2 ⟨5000 * t.val + q.val, hn⟩ l))
    (hA : ∀ (t : Fin 10) (q : Fin 5000) (l : Fin 64) (hn : 5000 * t.val + q.val < 50000), ab t (ix2 q l) = A (ix2 ⟨5000 * t.val + q.val, hn⟩ l))
    (hW1 : ∀ (t : Fin 10) (l k : Fin 64), w1b t (ix2 l k) = W1 (ix3 L l k))
    (hB1 : ∀ (t : Fin 10) (k : Fin 64), b1b t (ix2 (0 : Fin 1) k) = B1 (ix2 L k))
    (hW2 : ∀ (t : Fin 10) (l k : Fin 64), w2b t (ix2 l k) = W2 (ix3 L l k))
    (hB2 : ∀ (t : Fin 10) (k : Fin 64), b2b t (ix2 (0 : Fin 1) k) = B2 (ix2 L k))
    (t : Fin 10) (q : Fin 5000) (j : Fin 64) (hn : 5000 * t.val + q.val < 50000) :
    k1_pay1 (F := Ideal) (hb t) (ab t) (w1b t) (b1b t) (w2b t) (b2b t) (ix2 q j)
      = Cert.RefRead.denseAt H A W1 B1 W2 B2 L ⟨5000 * t.val + q.val, hn⟩ j := by
  rw [pay1_apply]
  unfold Cert.RefRead.denseAt
  rw [hB2 t j]
  refine congrArg (· + B2 (ix2 L j)) (Finset.sum_congr rfl fun k _ => ?_)
  rw [hW2 t k j, hB1 t k]
  refine congrArg (fun z => max (z + B1 (ix2 L k)) 0 * W2 (ix3 L k j)) (Finset.sum_congr rfl fun l _ => ?_)
  rw [hH t q l hn, hA t q l hn, hW1 t l k]

/-- The accumulated pooling products of the ten blocks, weighted by the readout row and summed along the row, are the
    per-graph sums over all the nodes contracted with the readout column. -/
theorem pooled_head
    (hH : ∀ (t : Fin 10) (q : Fin 5000) (l : Fin 64) (hn : 5000 * t.val + q.val < 50000), hb t (ix2 q l) = H (ix2 ⟨5000 * t.val + q.val, hn⟩ l))
    (hA : ∀ (t : Fin 10) (q : Fin 5000) (l : Fin 64) (hn : 5000 * t.val + q.val < 50000), ab t (ix2 q l) = A (ix2 ⟨5000 * t.val + q.val, hn⟩ l))
    (hW1 : ∀ (t : Fin 10) (l k : Fin 64), w1b t (ix2 l k) = W1 (ix3 L l k))
    (hB1 : ∀ (t : Fin 10) (k : Fin 64), b1b t (ix2 (0 : Fin 1) k) = B1 (ix2 L k))
    (hW2 : ∀ (t : Fin 10) (l k : Fin 64), w2b t (ix2 l k) = W2 (ix3 L l k))
    (hB2 : ∀ (t : Fin 10) (k : Fin 64), b2b t (ix2 (0 : Fin 1) k) = B2 (ix2 L k))
    (hG : ∀ (t : Fin 10) (q : Fin 5000) (hn : 5000 * t.val + q.val < 50000), gb t (ix2 q (0 : Fin 1)) = gid (ix1 ⟨5000 * t.val + q.val, hn⟩))
    (hWr : ∀ k : Fin 64, wr (ix2 (0 : Fin 1) k) = Wr (ix2 k (0 : Fin 1)))
    (acc : Vec Ideal S128x64 .f32)
    (hacc : ∀ (g : Fin 128) (k : Fin 64), acc (ix2 g k)
      = ∑ t : Fin 10, k3_pay4 (F := Ideal) (hb t) (ab t) (w1b t) (b1b t) (w2b t) (b2b t) (gb t) (ix2 g k))
    (g : Fin 128) :
    k3_pay2 (F := Ideal) acc wr (ix2 g (0 : Fin 1))
      = Cert.RefRead.poolHeadAt (Cert.RefRead.denseVec H A W1 B1 W2 B2 L) gid Wr g := by
  rw [pay2h_apply]
  unfold Cert.RefRead.poolHeadAt
  refine Finset.sum_congr rfl fun k _ => ?_
  rw [hWr k, hacc g k]
  refine congrArg (· * Wr (ix2 k (0 : Fin 1))) ?_
  refine Eq.trans ?_ (sum_blocks fun n : Fin 50000 =>
    if (gid (ix1 n)).toInt = (g.val : ℤ) then Cert.RefRead.denseVec H A W1 B1 W2 B2 L (ix2 n k) else 0)
  refine Finset.sum_congr rfl fun t _ => ?_
  rw [pay4_eq]
  refine Finset.sum_congr rfl fun q _ => ?_
  have hn : 5000 * t.val + q.val < 50000 := by have := t.isLt; have := q.isLt; omega
  rw [onehot_mul, hG t q hn, dense_block H A W1 B1 W2 B2 L hb ab w1b b1b w2b b2b hH hA hW1 hB1 hW2 hB2 t q k hn]
  rfl

end Chain

end Cert.Val

end
-- ==== Proof.KI.Chain3.lean ====
/- Region 3's output is the reference's pooled head of its last layer. The output block is the accumulator after the last
   point against the readout row; the accumulator is the sum over the ten points of the pooling products of the layer's
   output on the points' blocks; the blocks are rows of the arrays region 3 is entered from, which the host stretch before
   it computed from the launch arguments and from what region 2 left. -/
import proofs.«430897_j2645699854676_3_alg».proof.Proof.KI.Fold
import proofs.«430897_j2645699854676_3_alg».proof.Proof.KI.Reg3
import proofs.«430897_j2645699854676_3_alg».proof.Proof.KI.Rows3
import proofs.«430897_j2645699854676_3_alg».proof.Proof.KI.HostVals
import proofs.«430897_j2645699854676_3_alg».proof.Proof.Val.PoolChain
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem

/-! ## Region 3's output block from its windows' blocks -/

section Out3
open Idealize.ShloMosaic.ValueIdx
open scoped BigOperators

variable (V : (c : Dev nD) → (b : Ref sig .tc) → Buf (Elt Ideal) ((c : Thread nD τ).loc b))

/-- A position below ten is a point of region 3's grid. -/
theorem point3_of (t : Fin 10) : t.val < cfg3.N := lt_of_lt_of_eq t.isLt N_3.symm

/-- Where the blocks of windows 0, 1 and 6 are rows 5000 t … of arrays H, A and the graph words, the blocks of windows
    2 … 5 the slab L of the weight and bias stacks and the block of window 7 the readout column as a row, region 3's
    output block is the per-graph sums of the layer's dense part over all the nodes, contracted with the readout column. -/
theorem out3_eq_of (c : Dev nD)
    (H A : Vec Ideal S50000x64 .f32) (W1 : Vec Ideal S3x64x64 .f32) (B1 : Vec Ideal S3x64 .f32)
    (W2 : Vec Ideal S3x64x64 .f32) (B2 : Vec Ideal S3x64 .f32) (gid : Vec Ideal S50000 .i32) (Wr : Vec Ideal S64x1 .f32) (L : Fin 3)
    (e0 : ∀ (t : Fin cfg3.N) (q : Fin 5000) (l : Fin 64) (hn : 5000 * t.val + q.val < 50000),
      (iblk3 V c 0 t : Vec Ideal S5000x64 .f32) (ix2 q l) = H (ix2 ⟨5000 * t.val + q.val, hn⟩ l))
    (e1 : ∀ (t : Fin cfg3.N) (q : Fin 5000) (l : Fin 64) (hn : 5000 * t.val + q.val < 50000),
      (iblk3 V c 1 t : Vec Ideal S5000x64 .f32) (ix2 q l) = A (ix2 ⟨5000 * t.val + q.val, hn⟩ l))
    (e2 : ∀ (t : Fin cfg3.N) (l k : Fin 64), (iblk3 V c 2 t : Vec Ideal S64x64 .f32) (ix2 l k) = W1 (ix3 L l k))
    (e3 : ∀ (t : Fin cfg3.N) (k : Fin 64), (iblk3 V c 3 t : Vec Ideal S1x64 .f32) (ix2 (0 : Fin 1) k) = B1 (ix2 L k))
    (e4 : ∀ (t : Fin cfg3.N) (l k : Fin 64), (iblk3 V c 4 t : Vec Ideal S64x64 .f32) (ix2 l k) = W2 (ix3 L l k))
    (e5 : ∀ (t : Fin cfg3.N) (k : Fin 64), (iblk3 V c 5 t : Vec Ideal S1x64 .f32) (ix2 (0 : Fin 1) k) = B2 (ix2 L k))
    (e6 : ∀ (t : Fin cfg3.N) (q : Fin 5000) (hn : 5000 * t.val + q.val < 50000),
      (iblk3 V c 6 t : Vec Ideal S5000x1 .i32) (ix2 q (0 : Fin 1)) = gid (ix1 ⟨5000 * t.val + q.val, hn⟩))
    (e7 : ∀ k : Fin 64, (iblk3 V c 7 tlast3 : Vec Ideal S1x64 .f32) (ix2 (0 : Fin 1) k) = Wr (ix2 k (0 : Fin 1))) :
    (out3_8 V c : Vec Ideal S128x1 .f32) = Cert.RefRead.poolHead (Cert.RefRead.denseVec H A W1 B1 W2 B2 L) gid Wr := by
  funext i
  obtain ⟨g, z, rfl⟩ : ∃ (g : Fin 128) (z : Fin 1), i = ix2 g z := ⟨i 0, i 1, eq_ix2 i⟩
  obtain rfl : z = 0 := Subsingleton.elim _ _
  rw [Cert.RefRead.poolHead_apply]
  unfold out3_8
  refine Cert.Val.pooled_head H A W1 B1 W2 B2 gid Wr L
    (fun t => iblk3 V c 0 ⟨t.val, point3_of t⟩) (fun t => iblk3 V c 1 ⟨t.val, point3_of t⟩)
    (fun t => iblk3 V c 2 ⟨t.val, point3_of t⟩) (fun t => iblk3 V c 3 ⟨t.val, point3_of t⟩)
    (fun t => iblk3 V c 4 ⟨t.val, point3_of t⟩) (fun t => iblk3 V c 5 ⟨t.val, point3_of t⟩)
    (fun t => iblk3 V c 6 ⟨t.val, point3_of t⟩) (iblk3 V c 7 tlast3)
    (fun t q l hn => e0 ⟨t.val, point3_of t⟩ q l hn) (fun t q l hn => e1 ⟨t.val, point3_of t⟩ q l hn)
    (fun t l k => e2 ⟨t.val, point3_of t⟩ l k) (fun t k => e3 ⟨t.val, point3_of t⟩ k)
    (fun t l k => e4 ⟨t.val, point3_of t⟩ l k) (fun t k => e5 ⟨t.val, point3_of t⟩ k)
    (fun t q hn => e6 ⟨t.val, point3_of t⟩ q hn) e7 (acc3 V c 9) ?_ g
  intro g k
  rw [Cert.Val.acc_sum (contribAt3 V c) (acc3 V c) rfl (fun n => rfl) 9 (ix2 g k), Cert.Val.sum_range_ten]
  refine Finset.sum_congr rfl fun t _ => ?_
  unfold contribAt3
  rw [dif_pos (point3_of t)]
  rfl

end Out3

/-! ## The buffers region 3 is entered from -/

section Entry
open Idealize.ShloMosaic.ValueIdx
open scoped BigOperators

variable (m : (ℓ : Loc nD τ sig) → Buf (Elt Ideal) ℓ)

/-- A buffer that none of the first three host stretches writes and that is no window's array of the first three regions
    is, after region 2, as launched. -/
theorem W6_keep (c : Dev nD) (b : Ref sig .tc) (h0 : b ∉ hostOps0_W) (h1 : b ∉ hostOps1_W) (h2 : b ∉ hostOps2_W)
    (n0 : ∀ w, Pipeline.arrRef spec0 w ≠ b) (n1 : ∀ w, Pipeline.arrRef spec1 w ≠ b) (n2 : ∀ w, Pipeline.arrRef spec2 w ≠ b) :
    W6 m c (Proc.devRef .tc b) = m ((c : Thread nD τ).loc b) :=
  calc W6 m c (Proc.devRef .tc b)
    _ = W5 m c (Proc.devRef .tc b) := W6_of_ne m c b n2
    _ = W4 m c (Proc.devRef .tc b) := W5_of m c b h2
    _ = W3 m c (Proc.devRef .tc b) := W4_of_ne m c b n1
    _ = W2 m c (Proc.devRef .tc b) := W3_of m c b h1
    _ = W1 m c (Proc.devRef .tc b) := W2_of_ne m c b n0
    _ = W0 m c (Proc.devRef .tc b) := W1_of m c b h0
    _ = m ((c : Thread nD τ).loc b) := rfl

theorem W6_main_arg1 (c : Dev nD) : W6 m c (Proc.devRef .tc main_arg1) = m ((c : Thread nD τ).loc main_arg1) :=
  W6_keep m c main_arg1 (by decide) (by decide) (by decide) (by decide) (by decide) (by decide)
theorem W6_main_arg2 (c : Dev nD) : W6 m c (Proc.devRef .tc main_arg2) = m ((c : Thread nD τ).loc main_arg2) :=
  W6_keep m c main_arg2 (by decide) (by decide) (by decide) (by decide) (by decide) (by decide)
theorem W6_main_arg3 (c : Dev nD) : W6 m c (Proc.devRef .tc main_arg3) = m ((c : Thread nD τ).loc main_arg3) :=
  W6_keep m c main_arg3 (by decide) (by decide) (by decide) (by decide) (by decide) (by decide)
theorem W6_main_arg5 (c : Dev nD) : W6 m c (Proc.devRef .tc main_arg5) = m ((c : Thread nD τ).loc main_arg5) :=
  W6_keep m c main_arg5 (by decide) (by decide) (by decide) (by decide) (by decide) (by decide)
theorem W6_main_arg6 (c : Dev nD) : W6 m c (Proc.devRef .tc main_arg6) = m ((c : Thread nD τ).loc main_arg6) :=
  W6_keep m c main_arg6 (by decide) (by decide) (by decide) (by decide) (by decide) (by decide)
theorem W6_main_arg7 (c : Dev nD) : W6 m c (Proc.devRef .tc main_arg7) = m ((c : Thread nD τ).loc main_arg7) :=
  W6_keep m c main_arg7 (by decide) (by decide) (by decide) (by decide) (by decide) (by decide)
theorem W6_main_arg8 (c : Dev nD) : W6 m c (Proc.devRef .tc main_arg8) = m ((c : Thread nD τ).loc main_arg8) :=
  W6_keep m c main_arg8 (by decide) (by decide) (by decide) (by decide) (by decide) (by decide)
theorem W6_main_arg9 (c : Dev nD) : W6 m c (Proc.devRef .tc main_arg9) = m ((c : Thread nD τ).loc main_arg9) :=
  W6_keep m c main_arg9 (by decide) (by decide) (by decide) (by decide) (by decide) (by decide)

/-- The layer's input rows reach region 3 as region 2 left them. -/
theorem V7_main_v43 (c : Dev nD) : V7 m c main_v43 = W6 m c (Proc.devRef .tc main_v43) :=
  after3_main_v43 (W6 m c)

/-- The neighbour sum region 3 reads is the reference's neighbour sum of those rows. -/
theorem V7_main_v53 (c : Dev nD) :
    V7 m c main_v53 = Cert.RefRead.refAgg (F := Ideal) (W6 m c (Proc.devRef .tc main_v43)) (m ((c : Thread nD τ).loc main_arg1)) (m ((c : Thread nD τ).loc main_arg2)) := by
  show StableHlo.after (hostOps3 : List (HloOp τ sig (Elt Ideal))) (W6 m c) (Proc.devRef .tc main_v53) = _
  rw [after3_main_v53, W6_main_arg1, W6_main_arg2]
  rfl

end Entry

/-! ## The parameter blocks region 3 reads, at an index -/

section Params
open Idealize.ShloMosaic.ValueIdx
open scoped BigOperators

variable (m : (ℓ : Loc nD τ sig) → Buf (Elt Ideal) ℓ)

theorem V7_main_v55_apply (c : Dev nD) (l k : Fin 64) :
    (V7 m c main_v55 : S64x64.Idx → EReal) (ix2 l k)
      = (m ((c : Thread nD τ).loc main_arg5) : S3x64x64.Idx → EReal) (ix3 (2 : Fin 3) l k) := by
  show (StableHlo.after (hostOps3 : List (HloOp τ sig (Elt Ideal))) (W6 m c) (Proc.devRef .tc main_v55) : S64x64.Idx → EReal) (ix2 l k) = _
  rw [after3_main_v55, wslice_apply 2 (by omega), W6_main_arg5]
  rfl

theorem V7_main_v59_apply (c : Dev nD) (l k : Fin 64) :
    (V7 m c main_v59 : S64x64.Idx → EReal) (ix2 l k)
      = (m ((c : Thread nD τ).loc main_arg7) : S3x64x64.Idx → EReal) (ix3 (2 : Fin 3) l k) := by
  show (StableHlo.after (hostOps3 : List (HloOp τ sig (Elt Ideal))) (W6 m c) (Proc.devRef .tc main_v59) : S64x64.Idx → EReal) (ix2 l k) = _
  rw [after3_main_v59, wslice_apply 2 (by omega), W6_main_arg7]
  rfl

theorem V7_main_v62_apply (c : Dev nD) (k : Fin 64) :
    (V7 m c main_v62 : S1x64.Idx → EReal) (ix2 (0 : Fin 1) k)
      = (m ((c : Thread nD τ).loc main_arg6) : S3x64.Idx → EReal) (ix2 (2 : Fin 3) k) := by
  show (StableHlo.after (hostOps3 : List (HloOp τ sig (Elt Ideal))) (W6 m c) (Proc.devRef .tc main_v62) : S1x64.Idx → EReal) (ix2 (0 : Fin 1) k) = _
  rw [after3_main_v62, bslice_apply 2 (by omega), W6_main_arg6]
  rfl

theorem V7_main_v63_apply (c : Dev nD) (k : Fin 64) :
    (V7 m c main_v63 : S1x64.Idx → EReal) (ix2 (0 : Fin 1) k)
      = (m ((c : Thread nD τ).loc main_arg8) : S3x64.Idx → EReal) (ix2 (2 : Fin 3) k) := by
  show (StableHlo.after (hostOps3 : List (HloOp τ sig (Elt Ideal))) (W6 m c) (Proc.devRef .tc main_v63) : S1x64.Idx → EReal) (ix2 (0 : Fin 1) k) = _
  rw [after3_main_v63, bslice_apply 2 (by omega), W6_main_arg8]
  rfl

theorem V7_main_v64_apply (c : Dev nD) (n : Fin 50000) :
    (V7 m c main_v64 : S50000x1.Idx → BitVec 32) (ix2 n (0 : Fin 1))
      = (m ((c : Thread nD τ).loc main_arg3) : S50000.Idx → BitVec 32) (ix1 n) := by
  show (StableHlo.after (hostOps3 : List (HloOp τ sig (Elt Ideal))) (W6 m c) (Proc.devRef .tc main_v64) : S50000x1.Idx → BitVec 32) (ix2 n (0 : Fin 1)) = _
  rw [after3_main_v64, column_apply, W6_main_arg3]

theorem V7_main_v65_apply (c : Dev nD) (k : Fin 64) :
    (V7 m c main_v65 : S1x64.Idx → EReal) (ix2 (0 : Fin 1) k)
      = (m ((c : Thread nD τ).loc main_arg9) : S64x1.Idx → EReal) (ix2 k (0 : Fin 1)) := by
  show (StableHlo.after (hostOps3 : List (HloOp τ sig (Elt Ideal))) (W6 m c) (Proc.devRef .tc main_v65) : S1x64.Idx → EReal) (ix2 (0 : Fin 1) k) = _
  rw [after3_main_v65, readout_row_apply, W6_main_arg9]

/-! ## Region 3's output is the reference's pooled head of its layer -/

/-- From the block-read facts of region 3's windows at the buffers it is entered from. -/
theorem out_eq_of_blocks (c : Dev nD)
    (r0 : ∀ (t : Fin cfg3.N) (q : Fin 5000) (l : Fin 64) (hn : 5000 * t.val + q.val < 50000),
      (iblk3 (V7 m) c 0 t : Vec Ideal S5000x64 .f32) (ix2 q l) = (V7 m c main_v43 : S50000x64.Idx → EReal) (ix2 ⟨5000 * t.val + q.val, hn⟩ l))
    (r1 : ∀ (t : Fin cfg3.N) (q : Fin 5000) (l : Fin 64) (hn : 5000 * t.val + q.val < 50000),
      (iblk3 (V7 m) c 1 t : Vec Ideal S5000x64 .f32) (ix2 q l) = (V7 m c main_v53 : S50000x64.Idx → EReal) (ix2 ⟨5000 * t.val + q.val, hn⟩ l))
    (r2 : ∀ t : Fin cfg3.N, (iblk3 (V7 m) c 2 t : Vec Ideal S64x64 .f32) = (V7 m c main_v55 : S64x64.Idx → EReal))
    (r3 : ∀ t : Fin cfg3.N, (iblk3 (V7 m) c 3 t : Vec Ideal S1x64 .f32) = (V7 m c main_v62 : S1x64.Idx → EReal))
    (r4 : ∀ t : Fin cfg3.N, (iblk3 (V7 m) c 4 t : Vec Ideal S64x64 .f32) = (V7 m c main_v59 : S64x64.Idx → EReal))
    (r5 : ∀ t : Fin cfg3.N, (iblk3 (V7 m) c 5 t : Vec Ideal S1x64 .f32) = (V7 m c main_v63 : S1x64.Idx → EReal))
    (r6 : ∀ (t : Fin cfg3.N) (q : Fin 5000) (hn : 5000 * t.val + q.val < 50000),
      (iblk3 (V7 m) c 6 t : Vec Ideal S5000x1 .i32) (ix2 q (0 : Fin 1)) = (V7 m c main_v64 : S50000x1.Idx → BitVec 32) (ix2 ⟨5000 * t.val + q.val, hn⟩ (0 : Fin 1)))
    (r7 : ∀ t : Fin cfg3.N, (iblk3 (V7 m) c 7 t : Vec Ideal S1x64 .f32) = (V7 m c main_v65 : S1x64.Idx → EReal)) :
    (out3_8 (V7 m) c : S128x1.Idx → EReal)
      = Cert.RefRead.poolHead
          (Cert.RefRead.refLayer (m ((c : Thread nD τ).loc main_arg1)) (m ((c : Thread nD τ).loc main_arg2))
            (m ((c : Thread nD τ).loc main_arg5)) (m ((c : Thread nD τ).loc main_arg6)) (m ((c : Thread nD τ).loc main_arg7))
            (m ((c : Thread nD τ).loc main_arg8)) 2 (W6 m c (Proc.devRef .tc main_v43)))
          (m ((c : Thread nD τ).loc main_arg3)) (m ((c : Thread nD τ).loc main_arg9)) := by
  unfold Cert.RefRead.refLayer
  refine out3_eq_of (V7 m) c (W6 m c (Proc.devRef .tc main_v43))
    (Cert.RefRead.refAgg (F := Ideal) (W6 m c (Proc.devRef .tc main_v43)) (m ((c : Thread nD τ).loc main_arg1)) (m ((c : Thread nD τ).loc main_arg2)))
    (m ((c : Thread nD τ).loc main_arg5)) (m ((c : Thread nD τ).loc main_arg6)) (m ((c : Thread nD τ).loc main_arg7))
    (m ((c : Thread nD τ).loc main_arg8)) (m ((c : Thread nD τ).loc main_arg3)) (m ((c : Thread nD τ).loc main_arg9)) 2
    ?_ ?_ ?_ ?_ ?_ ?_ ?_ ?_
  · intro t q l hn
    exact (r0 t q l hn).trans (congrFun (V7_main_v43 m c) _)
  · intro t q l hn
    exact (r1 t q l hn).trans (congrFun (V7_main_v53 m c) _)
  · intro t l k
    exact (congrFun (r2 t) (ix2 l k)).trans (V7_main_v55_apply m c l k)
  · intro t k
    exact (congrFun (r3 t) (ix2 (0 : Fin 1) k)).trans (V7_main_v62_apply m c k)
  · intro t l k
    exact (congrFun (r4 t) (ix2 l k)).trans (V7_main_v59_apply m c l k)
  · intro t k
    exact (congrFun (r5 t) (ix2 (0 : Fin 1) k)).trans (V7_main_v63_apply m c k)
  · intro t q hn
    exact (r6 t q hn).trans (V7_main_v64_apply m c _)
  · intro k
    exact (congrFun (r7 tlast3) (ix2 (0 : Fin 1) k)).trans (V7_main_v65_apply m c k)

end Params

section Final
open Idealize.ShloMosaic.ValueIdx

variable (m : (ℓ : Loc nD τ sig) → Buf (Elt Ideal) ℓ)

/-- Region 3's output block is the reference's pooled head of its last layer over the rows region 2 left. -/
theorem out_eq (c : Dev nD) :
    (out3_8 (V7 m) c : S128x1.Idx → EReal)
      = Cert.RefRead.poolHead
          (Cert.RefRead.refLayer (m ((c : Thread nD τ).loc main_arg1)) (m ((c : Thread nD τ).loc main_arg2))
            (m ((c : Thread nD τ).loc main_arg5)) (m ((c : Thread nD τ).loc main_arg6)) (m ((c : Thread nD τ).loc main_arg7))
            (m ((c : Thread nD τ).loc main_arg8)) 2 (W6 m c (Proc.devRef .tc main_v43)))
          (m ((c : Thread nD τ).loc main_arg3)) (m ((c : Thread nD τ).loc main_arg9)) :=
  out_eq_of_blocks m c
    (fun t q l _ => iblk3_0_apply (V7 m) c t (ix2 q l))
    (fun t q l _ => iblk3_1_apply (V7 m) c t (ix2 q l))
    (iblk3_2_eq (V7 m) c) (iblk3_3_eq (V7 m) c) (iblk3_4_eq (V7 m) c) (iblk3_5_eq (V7 m) c)
    (fun t q _ => iblk3_6_apply (V7 m) c t (ix2 q (0 : Fin 1)))
    (iblk3_7_eq (V7 m) c)

end Final

end Cert.KernelIdeal.Hand

end
-- ==== Proof.KI.Result.lean ====
/- The kernel's result array, after the run, is the reference network of the launch arrays (over the extended reals, the node
   features indexing the embedding table in range): the last region's output block is the pooled head of its layer of region 2's
   output, which is the second layer of region 1's output, which is the first layer of the embedding rows. -/
import proofs.«430897_j2645699854676_3_alg».proof.Proof.KI.Run
import proofs.«430897_j2645699854676_3_alg».proof.Proof.KI.Rows3
import proofs.«430897_j2645699854676_3_alg».proof.Proof.KI.Chain0
import proofs.«430897_j2645699854676_3_alg».proof.Proof.KI.Chain12
import proofs.«430897_j2645699854676_3_alg».proof.Proof.KI.Chain3
import proofs.«430897_j2645699854676_3_alg».proof.Proof.Val.RefRead

noncomputable section

namespace Cert.KernelIdeal.Hand

open Cert.KernelIdeal Cert.KernelIdeal.Gen
open Idealize.ShloMosaic Idealize.ShloMosaic.TcCoe Idealize.ShloMosaic.ValueIdx
open Idealize.SL.Sem

theorem kernel_result (m : (ℓ : Loc nD τ sig) → Buf (Elt Ideal) ℓ) (c : Dev nD)
    (hf : ∀ n : Fin 50000, 0 ≤ (m ((c : Thread nD τ).loc main_arg0) (ix1 n)).toInt ∧ (m ((c : Thread nD τ).loc main_arg0) (ix1 n)).toInt < 100) :
    (W8 m c (Proc.devRef .tc main_v66) : S128x1.Idx → EReal)
      = Cert.RefRead.refNet (Cert.ReferenceIdeal.Read.val_main_v6 (F := Ideal) (m ((c : Thread nD τ).loc main_arg0)) (m ((c : Thread nD τ).loc main_arg4)))
          (m ((c : Thread nD τ).loc main_arg1)) (m ((c : Thread nD τ).loc main_arg2)) (m ((c : Thread nD τ).loc main_arg3))
          (m ((c : Thread nD τ).loc main_arg5)) (m ((c : Thread nD τ).loc main_arg6)) (m ((c : Thread nD τ).loc main_arg7))
          (m ((c : Thread nD τ).loc main_arg8)) (m ((c : Thread nD τ).loc main_arg9)) := by
  have e8 : (W8 m c (Proc.devRef .tc main_v66) : S128x1.Idx → EReal) = out3_8 (V7 m) c :=
    (W8_arr m c 8).trans (arr3_final (V7 m) c)
  rw [e8, out_eq m c, h2_eq m c, h1_eq m c, h0_eq m c hf]
  rfl

end Cert.KernelIdeal.Hand

end
-- ==== Proof.Val.PreRange.lean ====
/- The precondition's last conjunct, read back: every node feature word, read signed, lies in [0, 100).
   The printed predicate is a conjunction of seven reductions by `and`, each over a mask of comparisons, stated to be
   all ones. Its last conjunct reduces, over all 50000 positions, the mask (x ≥ 0) ∧ (x < 100) of the feature words x;
   a reduction by `and` into a single word that is 1 had a 1 at every position, and a signed comparison word that is 1
   orders its operands as integers. The float conjuncts are not opened. -/
import proofs.«430897_j2645699854676_3_alg».proof.Defs
import proofs.«430897_j2645699854676_3_alg».proof.Proof.Gen.Pre_finite_inputs
import Idealize.ShloMosaic.Lib.Affine
import Idealize.ShloMosaic.Lib.ReduceAll
import Idealize.ShloMosaic.Lib.ValueIdx

set_option maxRecDepth 16384

namespace Cert.Val

open Idealize.ShloMosaic Idealize.SL.Sem
open Idealize.ShloMosaic.ValueIdx (ix0 ix1)
open Cert.Pre_finite_inputs (S_ S50000 S800000 S100x64 S3x64x64 S3x64 S64x1)

variable [Cert.Pre_finite_inputs.Facts]

/-- The predicate all ones, at any arguments and either reading of the floats: each word of its first argument is,
    signed, at least 0 and below 100. Only the last conjunct is used. -/
theorem fn_feats_range {F : FTy → Type} [FloatOps F] (a0 : IVec S50000 32) (a1 a2 : IVec S800000 32) (a3 : IVec S50000 32)
    (a4 : FVec F S100x64 .f32) (a5 : FVec F S3x64x64 .f32) (a6 : FVec F S3x64 .f32) (a7 : FVec F S3x64x64 .f32)
    (a8 : FVec F S3x64 .f32) (a9 : FVec F S64x1 .f32)
    (h : Cert.Pre_finite_inputs.fn (F := F) a0 a1 a2 a3 a4 a5 a6 a7 a8 a9 = fun _ => 1#1) (i : S50000.Idx) :
    0 ≤ (a0 i).toInt ∧ (a0 i).toInt < 100 := by
  -- the rank-0 result has one index
  haveI : Subsingleton S_.Idx := ⟨fun a b => funext fun d => d.elim0⟩
  have h0 := congrFun h ix0
  dsimp only [Cert.Pre_finite_inputs.fn, Cert.Pre_finite_inputs.fn_part1, Cert.Pre_finite_inputs.fn_part2] at h0
  -- the outermost `and`: its right operand is the reduction of the range mask
  have h1 := (IntOp.andi_eq_one.1 h0).2
  -- the reduction is 1, so the mask is 1 at position i
  have h2 := Host.reduce_andi_all _ _ _ _ _ h1 i
  -- the mask at i is the `and` of the two comparisons against the broadcast constants 0 and 100
  obtain ⟨hge, hlt⟩ := IntOp.andi_eq_one.1 h2
  exact ⟨IntOp.cmpi_sge.1 hge, IntOp.cmpi_slt.1 hlt⟩

/-- Under the idealized kernel's precondition every node feature is in [0, 100). -/
theorem feats_range (m : (ℓ : Loc Cert.KernelIdeal.nD Cert.KernelIdeal.τ Cert.KernelIdeal.sig) → Buf (Elt Ideal) ℓ)
    (h : Cert.Pre_KernelIdeal m) (c : Dev Cert.KernelIdeal.nD) (n : Fin 50000) :
    0 ≤ (m ((c.tc : Thread Cert.KernelIdeal.nD Cert.KernelIdeal.τ).loc Cert.KernelIdeal.main_arg0) (ix1 n)).toInt
      ∧ (m ((c.tc : Thread Cert.KernelIdeal.nD Cert.KernelIdeal.τ).loc Cert.KernelIdeal.main_arg0) (ix1 n)).toInt < 100 :=
  fn_feats_range _ _ _ _ _ _ _ _ _ _ (h c) (ix1 n)

/-- The same under the idealized reference's precondition. -/
theorem feats_range_ref (m' : (ℓ : Loc Cert.ReferenceIdeal.nD Cert.ReferenceIdeal.τ Cert.ReferenceIdeal.sig) → Buf (Elt Ideal) ℓ)
    (h : Cert.Pre_ReferenceIdeal m') (c : Dev Cert.ReferenceIdeal.nD) (n : Fin 50000) :
    0 ≤ (m' ((c.tc : Thread Cert.ReferenceIdeal.nD Cert.ReferenceIdeal.τ).loc Cert.ReferenceIdeal.main_arg0) (ix1 n)).toInt
      ∧ (m' ((c.tc : Thread Cert.ReferenceIdeal.nD Cert.ReferenceIdeal.τ).loc Cert.ReferenceIdeal.main_arg0) (ix1 n)).toInt < 100 :=
  fn_feats_range _ _ _ _ _ _ _ _ _ _ (h c) (ix1 n)

end Cert.Val
-- ==== Proof.lean ====
/- The certificate of the graph-network kernel against its reference.
   The kernel's program is four kernel regions (an embedding lookup as a one-hot product, two dense layers, a third dense layer fused
   with sum pooling and the read-out) among host gathers and scatter-adds; the reference is the same network in host operations.
   Frames: every program runs to the end, faults nowhere and leaves its arguments as launched — the kernel's at both float instances
   by the run over its four regions, the reference's by its run. The idealization rewrote nothing. Over the extended reals the two
   results agree entry by entry once the node features index the embedding table in range: the one-hot products select rows, the
   shared gathers and scatter-adds are the same operations on equal arrays, the dense layers are the same sums, and the pooled sum
   over ten blocks of 5000 nodes is the sum over all 50000. -/
import proofs.«430897_j2645699854676_3_alg».proof.Defs
import proofs.«430897_j2645699854676_3_alg».proof.Proof.Gen.Kernel
import proofs.«430897_j2645699854676_3_alg».proof.Proof.Gen.KernelIdeal
import proofs.«430897_j2645699854676_3_alg».proof.Proof.Gen.ReferenceIdeal
import proofs.«430897_j2645699854676_3_alg».proof.Proof.Gen.Pre_finite_inputs
import proofs.«430897_j2645699854676_3_alg».proof.Proof.K.Run
import proofs.«430897_j2645699854676_3_alg».proof.Proof.KI.Result
import proofs.«430897_j2645699854676_3_alg».proof.Proof.Val.PreRange
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference network of the launch arrays: the kernel's result array by the run over its regions and
    the value chain, the reference's by its run read back. -/
theorem algebraic : Cert.algebraic_KernelIdeal_ReferenceIdeal := by
  intro m ρ m' ρ' hpre hagree
  refine ⟨fun c => Cert.KernelIdeal.Hand.W8 m c (Proc.devRef .tc Cert.KernelIdeal.main_v66), Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  rw [Cert.RefRead.run_result_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]
  exact (Cert.KernelIdeal.Hand.kernel_result m c (fun n => Cert.Val.feats_range m hpre c n)).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
